-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5x32x256 : Shape := ⟨3, ![5, 32, 256]⟩
abbrev S1x256 : Shape := ⟨2, ![1, 256]⟩
abbrev S5x128x256 : Shape := ⟨3, ![5, 128, 256]⟩
abbrev S5x128x128 : Shape := ⟨3, ![5, 128, 128]⟩
abbrev S1x128 : Shape := ⟨2, ![1, 128]⟩
abbrev S128x128 : Shape := ⟨2, ![128, 128]⟩
abbrev S8192x1x32x32 : Shape := ⟨4, ![8192, 1, 32, 32]⟩
abbrev S_ : Shape := ⟨0, ![]⟩

class Facts : Prop where
  bcast_S_S5x32x256 : S_.BroadcastsInDim S5x32x256 (![] : Fin 0 → Fin S5x32x256.rank)
  reducesTo_S5x32x256_S_d0_1_2 : S5x32x256.ReducesTo [0, 1, 2] S_
  h_S_ : 0 < S_.numel
  bcast_S_S1x256 : S_.BroadcastsInDim S1x256 (![] : Fin 0 → Fin S1x256.rank)
  reducesTo_S1x256_S_d0_1 : S1x256.ReducesTo [0, 1] S_
  bcast_S_S5x128x256 : S_.BroadcastsInDim S5x128x256 (![] : Fin 0 → Fin S5x128x256.rank)
  reducesTo_S5x128x256_S_d0_1_2 : S5x128x256.ReducesTo [0, 1, 2] S_
  bcast_S_S5x128x128 : S_.BroadcastsInDim S5x128x128 (![] : Fin 0 → Fin S5x128x128.rank)
  reducesTo_S5x128x128_S_d0_1_2 : S5x128x128.ReducesTo [0, 1, 2] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S8192x1x32x32 : S_.BroadcastsInDim S8192x1x32x32 (![] : Fin 0 → Fin S8192x1x32x32.rank)
  reducesTo_S8192x1x32x32_S_d0_1_2_3 : S8192x1x32x32.ReducesTo [0, 1, 2, 3] S_

variable [Facts]

def fn_part3 {F : FTy → Type} [FloatOps F] (main_v48 : IVec S_ 1) (main_v49 : FVec F S8192x1x32x32 .f32) (main_v50 : FVec F S8192x1x32x32 .f32) : IVec S_ 1 :=
  let main_v51 : IVec S8192x1x32x32 1 := cmpf .olt main_v49 main_v50
  let main_c_19 : IVec S_ 1 := constantI S_ 1 1#1
  let main_v52 : IVec S_ 1 := (fun x v => Host.reduce IntOp.andi x v reducesTo_S8192x1x32x32_S_d0_1_2_3 h_S_) main_v51 main_c_19
  let main_v53 : IVec S_ 1 := andi main_v48 main_v52
  main_v53

def fn_part2 {F : FTy → Type} [FloatOps F] (main_arg7 : FVec F S1x128 .f32) (main_arg8 : FVec F S128x128 .f32) (main_arg9 : FVec F S1x128 .f32) (main_arg10 : FVec F S8192x1x32x32 .f32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S1x128 .f32 := Host.absf main_arg9
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S8192x1x32x32 .f32 := Host.absf main_arg10
  let main_cst_18 : FVec F S_ .f32 := constant S_ .f32 0x7F800000#32
  let main_v50 : FVec F S8192x1x32x32 .f32 := broadcastInDim S8192x1x32x32 ![] bcast_S_S8192x1x32x32 main_cst_18
  fn_part3 (F := F) main_v48 main_v49 main_v50

def fn_part1 {F : FTy → Type} [FloatOps F] (main_arg4 : FVec F S5x128x128 .f32) (main_arg5 : FVec F S1x128 .f32) (main_arg6 : FVec F S128x128 .f32) (main_arg7 : FVec F S1x128 .f32) (main_arg8 : FVec F S128x128 .f32) (main_arg9 : FVec F S1x128 .f32) (main_arg10 : FVec F S8192x1x32x32 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S5x128x128 .f32 := Host.absf main_arg4
  let main_cst_6 : FVec F S_ .f32 := constant S_ .f32 0x7F800000#32
  let main_v20 : FVec F S5x128x128 .f32 := broadcastInDim S5x128x128 ![] bcast_S_S5x128x128 main_cst_6
  let main_v21 : IVec S5x128x128 1 := cmpf .olt main_v19 main_v20
  let main_c_7 : IVec S_ 1 := constantI S_ 1 1#1
  let main_v22 : IVec S_ 1 := (fun x v => Host.reduce IntOp.andi x v reducesTo_S5x128x128_S_d0_1_2 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S5x32x256 .f32) (main_arg1 : FVec F S1x256 .f32) (main_arg2 : FVec F S5x128x256 .f32) (main_arg3 : FVec F S1x256 .f32) (main_arg4 : FVec F S5x128x128 .f32) (main_arg5 : FVec F S1x128 .f32) (main_arg6 : FVec F S128x128 .f32) (main_arg7 : FVec F S1x128 .f32) (main_arg8 : FVec F S128x128 .f32) (main_arg9 : FVec F S1x128 .f32) (main_arg10 : FVec F S8192x1x32x32 .f32) : IVec S_ 1 :=
  let main_v0 : FVec F S5x32x256 .f32 := Host.absf main_arg0
  let main_cst : FVec F S_ .f32 := constant S_ .f32 0x7F800000#32
  let main_v1 : FVec F S5x32x256 .f32 := broadcastInDim S5x32x256 ![] bcast_S_S5x32x256 main_cst
  let main_v2 : IVec S5x32x256 1 := cmpf .olt main_v0 main_v1
  let main_c : IVec S_ 1 := constantI S_ 1 1#1
  let main_v3 : IVec S_ 1 := (fun x v => Host.reduce IntOp.andi x v reducesTo_S5x32x256_S_d0_1_2 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S5x128x256 .f32 := Host.absf main_arg2
  let main_cst_2 : FVec F S_ .f32 := constant S_ .f32 0x7F800000#32
  let main_v10 : FVec F S5x128x256 .f32 := broadcastInDim S5x128x256 ![] bcast_S_S5x128x256 main_cst_2
  let main_v11 : IVec S5x128x256 1 := cmpf .olt main_v9 main_v10
  let main_c_3 : IVec S_ 1 := constantI S_ 1 1#1
  let main_v12 : IVec S_ 1 := (fun x v => Host.reduce IntOp.andi x v reducesTo_S5x128x256_S_d0_1_2 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_arg5 main_arg6 main_arg7 main_arg8 main_arg9 main_arg10 main_v13 main_v16
-- ==== Kernel.lean ====
abbrev S5x32x256 : Shape := ⟨3, ![5, 32, 256]⟩
abbrev S1x256 : Shape := ⟨2, ![1, 256]⟩
abbrev S5x128x256 : Shape := ⟨3, ![5, 128, 256]⟩
abbrev S5x128x128 : Shape := ⟨3, ![5, 128, 128]⟩
abbrev S1x128 : Shape := ⟨2, ![1, 128]⟩
abbrev S128x128 : Shape := ⟨2, ![128, 128]⟩
abbrev S8192x1x32x32 : Shape := ⟨4, ![8192, 1, 32, 32]⟩
abbrev S262144x32 : Shape := ⟨2, ![262144, 32]⟩
abbrev S160x256 : Shape := ⟨2, ![160, 256]⟩
abbrev S640x256 : Shape := ⟨2, ![640, 256]⟩
abbrev S_ : Shape := ⟨0, ![]⟩
abbrev S3x128x128 : Shape := ⟨3, ![3, 128, 128]⟩
abbrev S8x128x128 : Shape := ⟨3, ![8, 128, 128]⟩
abbrev S1024x128 : Shape := ⟨2, ![1024, 128]⟩
abbrev S8192x10 : Shape := ⟨2, ![8192, 10]⟩
abbrev S16384x32 : Shape := ⟨2, ![16384, 32]⟩
abbrev S512x10 : Shape := ⟨2, ![512, 10]⟩
abbrev S1x32 : Shape := ⟨2, ![1, 32]⟩
abbrev S16383x32 : Shape := ⟨2, ![16383, 32]⟩
abbrev S2x32 : Shape := ⟨2, ![2, 32]⟩
abbrev S16382x32 : Shape := ⟨2, ![16382, 32]⟩
abbrev S3x32 : Shape := ⟨2, ![3, 32]⟩
abbrev S16381x32 : Shape := ⟨2, ![16381, 32]⟩
abbrev S4x32 : Shape := ⟨2, ![4, 32]⟩
abbrev S16380x32 : Shape := ⟨2, ![16380, 32]⟩
abbrev S16384x160 : Shape := ⟨2, ![16384, 160]⟩
abbrev S16384x256 : Shape := ⟨2, ![16384, 256]⟩
abbrev S16384x128 : Shape := ⟨2, ![16384, 128]⟩
abbrev S8192x256 : Shape := ⟨2, ![8192, 256]⟩
abbrev S8192x128 : Shape := ⟨2, ![8192, 128]⟩
abbrev S8191x128 : Shape := ⟨2, ![8191, 128]⟩
abbrev S2x128 : Shape := ⟨2, ![2, 128]⟩
abbrev S8190x128 : Shape := ⟨2, ![8190, 128]⟩
abbrev S3x128 : Shape := ⟨2, ![3, 128]⟩
abbrev S8189x128 : Shape := ⟨2, ![8189, 128]⟩
abbrev S4x128 : Shape := ⟨2, ![4, 128]⟩
abbrev S8188x128 : Shape := ⟨2, ![8188, 128]⟩
abbrev S8192x640 : Shape := ⟨2, ![8192, 640]⟩
abbrev S4096x256 : Shape := ⟨2, ![4096, 256]⟩
abbrev S4096x128 : Shape := ⟨2, ![4096, 128]⟩
abbrev S512x1024 : Shape := ⟨2, ![512, 1024]⟩
abbrev S512x128 : Shape := ⟨2, ![512, 128]⟩

abbrev nBuf : Space → Nat
  | .hbm => 24
  | .vmem => 14
  | .smem => 0
  | _ => 0

abbrev bufTy : (tb : Table) → Fin (tcTables nBuf tb) → BufTy
  | .hbm, ⟨0, _⟩ => ⟨S5x32x256, .f32⟩
  | .hbm, ⟨1, _⟩ => ⟨S1x256, .f32⟩
  | .hbm, ⟨2, _⟩ => ⟨S5x128x256, .f32⟩
  | .hbm, ⟨3, _⟩ => ⟨S1x256, .f32⟩
  | .hbm, ⟨4, _⟩ => ⟨S5x128x128, .f32⟩
  | .hbm, ⟨5, _⟩ => ⟨S1x128, .f32⟩
  | .hbm, ⟨6, _⟩ => ⟨S128x128, .f32⟩
  | .hbm, ⟨7, _⟩ => ⟨S1x128, .f32⟩
  | .hbm, ⟨8, _⟩ => ⟨S128x128, .f32⟩
  | .hbm, ⟨9, _⟩ => ⟨S1x128, .f32⟩
  | .hbm, ⟨10, _⟩ => ⟨S8192x1x32x32, .f32⟩
  | .hbm, ⟨11, _⟩ => ⟨S262144x32, .f32⟩
  | .hbm, ⟨12, _⟩ => ⟨S160x256, .f32⟩
  | .hbm, ⟨13, _⟩ => ⟨S160x256, .bf16⟩
  | .hbm, ⟨14, _⟩ => ⟨S640x256, .f32⟩
  | .hbm, ⟨15, _⟩ => ⟨S640x256, .bf16⟩
  | .hbm, ⟨16, _⟩ => ⟨S_, .f32⟩
  | .hbm, ⟨17, _⟩ => ⟨S3x128x128, .f32⟩
  | .hbm, ⟨18, _⟩ => ⟨S8x128x128, .f32⟩
  | .hbm, ⟨19, _⟩ => ⟨S1024x128, .f32⟩
  | .hbm, ⟨20, _⟩ => ⟨S1024x128, .bf16⟩
  | .hbm, ⟨21, _⟩ => ⟨S128x128, .bf16⟩
  | .hbm, ⟨22, _⟩ => ⟨S128x128, .bf16⟩
  | .hbm, ⟨23, _⟩ => ⟨S8192x10, .f32⟩
  | .local _ .vmem, ⟨0, _⟩ => ⟨S16384x32, .f32⟩
  | .local _ .vmem, ⟨1, _⟩ => ⟨S16384x32, .f32⟩
  | .local _ .vmem, ⟨2, _⟩ => ⟨S160x256, .bf16⟩
  | .local _ .vmem, ⟨3, _⟩ => ⟨S1x256, .f32⟩
  | .local _ .vmem, ⟨4, _⟩ => ⟨S640x256, .bf16⟩
  | .local _ .vmem, ⟨5, _⟩ => ⟨S1x256, .f32⟩
  | .local _ .vmem, ⟨6, _⟩ => ⟨S1024x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S512x10, .f32⟩
  | .local _ .vmem, ⟨13, _⟩ => ⟨S512x10, .f32⟩
  | _, _ => ⟨S5x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x1x32x32_S262144x32 : S8192x1x32x32.ShapeCasts S262144x32
  shapeCasts_S5x32x256_S160x256 : S5x32x256.ShapeCasts S160x256
  bitsLt_bf16_f32 : FTy.bits .bf16 < FTy.bits .f32
  shapeCasts_S5x128x256_S640x256 : S5x128x256.ShapeCasts S640x256
  bcast_S_S3x128x128 : S_.BroadcastsInDim S3x128x128 (![] : Fin 0 → Fin S3x128x128.rank)
  concatenates_S5x128x128_S3x128x128_S8x128x128_d0 : Shape.Concatenates [S5x128x128, S3x128x128] S8x128x128 0
  shapeCasts_S8x128x128_S1024x128 : S8x128x128.ShapeCasts S1024x128
  inb_S16384x32_S16384x32_0_0 : ∀ a, (![0, 0] : Fin 2 → Nat) a + S16384x32.size a ≤ S16384x32.size a
  h_S16384x32 : 0 < S16384x32.numel
  shapeCasts_S16384x32_S16384x32 : S16384x32.ShapeCasts S16384x32
  slices_S16384x32_o1_0_S16383x32 : S16384x32.Slices ![1, 0] S16383x32
  concatenates_S16383x32_S1x32_S16384x32_d0 : Shape.Concatenates [S16383x32, S1x32] S16384x32 0
  slices_S16384x32_o2_0_S16382x32 : S16384x32.Slices ![2, 0] S16382x32
  concatenates_S16382x32_S2x32_S16384x32_d0 : Shape.Concatenates [S16382x32, S2x32] S16384x32 0
  slices_S16384x32_o3_0_S16381x32 : S16384x32.Slices ![3, 0] S16381x32
  concatenates_S16381x32_S3x32_S16384x32_d0 : Shape.Concatenates [S16381x32, S3x32] S16384x32 0
  slices_S16384x32_o4_0_S16380x32 : S16384x32.Slices ![4, 0] S16380x32
  concatenates_S16380x32_S4x32_S16384x32_d0 : Shape.Concatenates [S16380x32, S4x32] S16384x32 0
  concatenates_S16384x32_S16384x32_S16384x32_S16384x32_S16384x32_S16384x160_d1 : Shape.Concatenates [S16384x32, S16384x32, S16384x32, S16384x32, S16384x32] S16384x160 1
  inb_S160x256_S160x256_0_0 : ∀ a, (![0, 0] : Fin 2 → Nat) a + S160x256.size a ≤ S160x256.size a
  h_S160x256 : 0 < S160x256.numel
  shapeCasts_S160x256_S160x256 : S160x256.ShapeCasts S160x256
  inb_S1x256_S1x256_0_0 : ∀ a, (![0, 0] : Fin 2 → Nat) a + S1x256.size a ≤ S1x256.size a
  h_S1x256 : 0 < S1x256.numel
  broadcasts_S1x256_S16384x256 : S1x256.Broadcasts S16384x256
  slices_S16384x256_o0_0_S16384x128 : S16384x256.Slices ![0, 0] S16384x128
  slices_S16384x256_o0_128_S16384x128 : S16384x256.Slices ![0, 128] S16384x128
  shapeCasts_S16384x128_S8192x256 : S16384x128.ShapeCasts S8192x256
  slices_S8192x256_o0_0_S8192x128 : S8192x256.Slices ![0, 0] S8192x128
  slices_S8192x256_o0_128_S8192x128 : S8192x256.Slices ![0, 128] S8192x128
  slices_S8192x128_o1_0_S8191x128 : S8192x128.Slices ![1, 0] S8191x128
  concatenates_S8191x128_S1x128_S8192x128_d0 : Shape.Concatenates [S8191x128, S1x128] S8192x128 0
  slices_S8192x128_o2_0_S8190x128 : S8192x128.Slices ![2, 0] S8190x128
  concatenates_S8190x128_S2x128_S8192x128_d0 : Shape.Concatenates [S8190x128, S2x128] S8192x128 0
  slices_S8192x128_o3_0_S8189x128 : S8192x128.Slices ![3, 0] S8189x128
  concatenates_S8189x128_S3x128_S8192x128_d0 : Shape.Concatenates [S8189x128, S3x128] S8192x128 0
  slices_S8192x128_o4_0_S8188x128 : S8192x128.Slices ![4, 0] S8188x128
  concatenates_S8188x128_S4x128_S8192x128_d0 : Shape.Concatenates [S8188x128, S4x128] S8192x128 0
  concatenates_S8192x128_S8192x128_S8192x128_S8192x128_S8192x128_S8192x640_d1 : Shape.Concatenates [S8192x128, S8192x128, S8192x128, S8192x128, S8192x128] S8192x640 1
  inb_S640x256_S640x256_0_0 : ∀ a, (![0, 0] : Fin 2 → Nat) a + S640x256.size a ≤ S640x256.size a
  h_S640x256 : 0 < S640x256.numel
  shapeCasts_S640x256_S640x256 : S640x256.ShapeCasts S640x256
  broadcasts_S1x256_S8192x256 : S1x256.Broadcasts S8192x256
  shapeCasts_S8192x128_S4096x256 : S8192x128.ShapeCasts S4096x256
  slices_S4096x256_o0_0_S4096x128 : S4096x256.Slices ![0, 0] S4096x128
  slices_S4096x256_o0_128_S4096x128 : S4096x256.Slices ![0, 128] S4096x128
  shapeCasts_S4096x128_S512x1024 : S4096x128.ShapeCasts S512x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  broadcasts_S1x128_S512x128 : S1x128.Broadcasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S512x128_o0_0_S512x10 : S512x128.Slices ![0, 0] S512x10
  inb_S512x10_S512x10_0_0 : ∀ a, (![0, 0] : Fin 2 → Nat) a + S512x10.size a ≤ S512x10.size a
  h_S512x10 : 0 < S512x10.numel
  dot_S16384x160_S160x256_S16384x256_1_0_0_1_n_n_wf : DotDims.WF S16384x160 S160x256 S16384x256 [1] [0] [0] [1] [] []
  dot_S8192x640_S640x256_S8192x256_1_0_0_1_n_n_wf : DotDims.WF S8192x640 S640x256 S8192x256 [1] [0] [0] [1] [] []
  dot_S512x1024_S1024x128_S512x128_1_0_0_1_n_n_wf : DotDims.WF S512x1024 S1024x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x32.size a ≤ S262144x32.size a
  hwx0_0 : ∀ i : grid0.Coords, EltTy.bits .f32 = 32 ∨ (Rect.block (s := S262144x32) S16384x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x256.size a ≤ S160x256.size a
  hwx0_1 : ∀ i : grid0.Coords, EltTy.bits .bf16 = 32 ∨ (Rect.block (s := S160x256) S160x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640x256.size a ≤ S640x256.size a
  hwx0_3 : ∀ i : grid0.Coords, EltTy.bits .bf16 = 32 ∨ (Rect.block (s := S640x256) S640x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .bf16 = 32 ∨ (Rect.block (s := S1024x128) S1024x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x10.size a ≤ S8192x10.size a
  hwx0_11 : ∀ i : grid0.Coords, EltTy.bits .f32 = 32 ∨ (Rect.block (s := S8192x10) S512x10.size (cc0_transform_11 i) (hinb0_11 i)).WholeWords (EltTy.packing .f32)

variable [Facts₀]

def dot_S16384x160_S160x256_S16384x256_1_0_0_1_n_n : DotDims S16384x160 S160x256 S16384x256 where
  lhsContracting := [1]
  rhsContracting := [0]
  lhsNonContracting := [0]
  rhsNonContracting := [1]
  lhsBatch := []
  rhsBatch := []
  wf := dot_S16384x160_S160x256_S16384x256_1_0_0_1_n_n_wf
def dot_S8192x640_S640x256_S8192x256_1_0_0_1_n_n : DotDims S8192x640 S640x256 S8192x256 where
  lhsContracting := [1]
  rhsContracting := [0]
  lhsNonContracting := [0]
  rhsNonContracting := [1]
  lhsBatch := []
  rhsBatch := []
  wf := dot_S8192x640_S640x256_S8192x256_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v0) S16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S160x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S640x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S512x10.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S5x32x256 : Shape := ⟨3, ![5, 32, 256]⟩
abbrev S1x256 : Shape := ⟨2, ![1, 256]⟩
abbrev S5x128x256 : Shape := ⟨3, ![5, 128, 256]⟩
abbrev S5x128x128 : Shape := ⟨3, ![5, 128, 128]⟩
abbrev S1x128 : Shape := ⟨2, ![1, 128]⟩
abbrev S128x128 : Shape := ⟨2, ![128, 128]⟩
abbrev S8192x1x32x32 : Shape := ⟨4, ![8192, 1, 32, 32]⟩
abbrev S8192x32x32 : Shape := ⟨3, ![8192, 32, 32]⟩
abbrev S8192x1x128 : Shape := ⟨3, ![8192, 1, 128]⟩
abbrev S1x32x32 : Shape := ⟨3, ![1, 32, 32]⟩
abbrev S1x1x128 : Shape := ⟨3, ![1, 1, 128]⟩
abbrev S14x128 : Shape := ⟨2, ![14, 128]⟩
abbrev S5x128 : Shape := ⟨2, ![5, 128]⟩
abbrev S1x28x32 : Shape := ⟨3, ![1, 28, 32]⟩
abbrev S28x32 : Shape := ⟨2, ![28, 32]⟩
abbrev S1x32x256 : Shape := ⟨3, ![1, 32, 256]⟩
abbrev S32x256 : Shape := ⟨2, ![32, 256]⟩
abbrev S28x256 : Shape := ⟨2, ![28, 256]⟩
abbrev S28x128 : Shape := ⟨2, ![28, 128]⟩
abbrev S14x28 : Shape := ⟨2, ![14, 28]⟩
abbrev S10x128 : Shape := ⟨2, ![10, 128]⟩
abbrev S1x128x256 : Shape := ⟨3, ![1, 128, 256]⟩
abbrev S128x256 : Shape := ⟨2, ![128, 256]⟩
abbrev S10x256 : Shape := ⟨2, ![10, 256]⟩
abbrev S5x10 : Shape := ⟨2, ![5, 10]⟩
abbrev S1x128x128 : Shape := ⟨3, ![1, 128, 128]⟩
abbrev S8192x1x10 : Shape := ⟨3, ![8192, 1, 10]⟩
abbrev S8192x10 : Shape := ⟨2, ![8192, 10]⟩

abbrev nBuf : Space → Nat
  | .hbm => 15
  | .vmem => 16
  | .smem => 0
  | _ => 0

abbrev bufTy : (tb : Table) → Fin (tcTables nBuf tb) → BufTy
  | .hbm, ⟨0, _⟩ => ⟨S5x32x256, .f32⟩
  | .hbm, ⟨1, _⟩ => ⟨S1x256, .f32⟩
  | .hbm, ⟨2, _⟩ => ⟨S5x128x256, .f32⟩
  | .hbm, ⟨3, _⟩ => ⟨S1x256, .f32⟩
  | .hbm, ⟨4, _⟩ => ⟨S5x128x128, .f32⟩
  | .hbm, ⟨5, _⟩ => ⟨S1x128, .f32⟩
  | .hbm, ⟨6, _⟩ => ⟨S128x128, .f32⟩
  | .hbm, ⟨7, _⟩ => ⟨S1x128, .f32⟩
  | .hbm, ⟨8, _⟩ => ⟨S128x128, .f32⟩
  | .hbm, ⟨9, _⟩ => ⟨S1x128, .f32⟩
  | .hbm, ⟨10, _⟩ => ⟨S8192x1x32x32, .f32⟩
  | .hbm, ⟨11, _⟩ => ⟨S8192x32x32, .f32⟩
  | .hbm, ⟨12, _⟩ => ⟨S8192x1x128, .f32⟩
  | .hbm, ⟨13, _⟩ => ⟨S8192x1x10, .f32⟩
  | .hbm, ⟨14, _⟩ => ⟨S8192x10, .f32⟩
  | .local _ .vmem, ⟨0, _⟩ => ⟨S1x32x32, .f32⟩
  | .local _ .vmem, ⟨1, _⟩ => ⟨S1x32x32, .f32⟩
  | .local _ .vmem, ⟨2, _⟩ => ⟨S5x32x256, .f32⟩
  | .local _ .vmem, ⟨3, _⟩ => ⟨S1x256, .f32⟩
  | .local _ .vmem, ⟨4, _⟩ => ⟨S5x128x256, .f32⟩
  | .local _ .vmem, ⟨5, _⟩ => ⟨S1x256, .f32⟩
  | .local _ .vmem, ⟨6, _⟩ => ⟨S5x128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x1x128, .f32⟩
  | .local _ .vmem, ⟨13, _⟩ => ⟨S1x1x128, .f32⟩
  | .local _ .vmem, ⟨14, _⟩ => ⟨S14x128, .f32⟩
  | .local _ .vmem, ⟨15, _⟩ => ⟨S5x128, .f32⟩
  | _, _ => ⟨S5x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![8192], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x1x32x32_S8192x32x32 : S8192x1x32x32.ShapeCasts S8192x32x32
  inb_S1x32x32_S1x28x32_0_0_0 : ∀ a, (![0, 0, 0] : Fin 3 → Nat) a + S1x28x32.size a ≤ S1x32x32.size a
  h_S1x28x32 : 0 < S1x28x32.numel
  shapeCasts_S1x28x32_S28x32 : S1x28x32.ShapeCasts S28x32
  inb_S5x32x256_S1x32x256_0_0_0 : ∀ a, (![0, 0, 0] : Fin 3 → Nat) a + S1x32x256.size a ≤ S5x32x256.size a
  h_S1x32x256 : 0 < S1x32x256.numel
  shapeCasts_S1x32x256_S32x256 : S1x32x256.ShapeCasts S32x256
  inb_S1x32x32_S1x28x32_0_1_0 : ∀ a, (![0, 1, 0] : Fin 3 → Nat) a + S1x28x32.size a ≤ S1x32x32.size a
  inb_S5x32x256_S1x32x256_1_0_0 : ∀ a, (![1, 0, 0] : Fin 3 → Nat) a + S1x32x256.size a ≤ S5x32x256.size a
  inb_S1x32x32_S1x28x32_0_2_0 : ∀ a, (![0, 2, 0] : Fin 3 → Nat) a + S1x28x32.size a ≤ S1x32x32.size a
  inb_S5x32x256_S1x32x256_2_0_0 : ∀ a, (![2, 0, 0] : Fin 3 → Nat) a + S1x32x256.size a ≤ S5x32x256.size a
  inb_S1x32x32_S1x28x32_0_3_0 : ∀ a, (![0, 3, 0] : Fin 3 → Nat) a + S1x28x32.size a ≤ S1x32x32.size a
  inb_S5x32x256_S1x32x256_3_0_0 : ∀ a, (![3, 0, 0] : Fin 3 → Nat) a + S1x32x256.size a ≤ S5x32x256.size a
  inb_S1x32x32_S1x28x32_0_4_0 : ∀ a, (![0, 4, 0] : Fin 3 → Nat) a + S1x28x32.size a ≤ S1x32x32.size a
  inb_S5x32x256_S1x32x256_4_0_0 : ∀ a, (![4, 0, 0] : Fin 3 → Nat) a + S1x32x256.size a ≤ S5x32x256.size a
  inb_S1x256_S1x256_0_0 : ∀ a, (![0, 0] : Fin 2 → Nat) a + S1x256.size a ≤ S1x256.size a
  h_S1x256 : 0 < S1x256.numel
  broadcasts_S1x256_S28x256 : S1x256.Broadcasts S28x256
  slices_S28x256_o0_0_S28x128 : S28x256.Slices ![0, 0] S28x128
  slices_S28x256_o0_128_S28x128 : S28x256.Slices ![0, 128] S28x128
  iota_S14x28_d0_w32 : S14x28.Iotas .tc 32 [0]
  iota_S14x28_d1_w32 : S14x28.Iotas .tc 32 [1]
  natLt_1_32 : 1 < 32
  inb_S14x128_S14x128_0_0 : ∀ a, (![0, 0] : Fin 2 → Nat) a + S14x128.size a ≤ S14x128.size a
  h_S14x128 : 0 < S14x128.numel
  shapeCasts_S14x128_S14x128 : S14x128.ShapeCasts S14x128
  inb_S14x128_S10x128_0_0 : ∀ a, (![0, 0] : Fin 2 → Nat) a + S10x128.size a ≤ S14x128.size a
  h_S10x128 : 0 < S10x128.numel
  inb_S5x128x256_S1x128x256_0_0_0 : ∀ a, (![0, 0, 0] : Fin 3 → Nat) a + S1x128x256.size a ≤ S5x128x256.size a
  h_S1x128x256 : 0 < S1x128x256.numel
  shapeCasts_S1x128x256_S128x256 : S1x128x256.ShapeCasts S128x256
  inb_S14x128_S10x128_1_0 : ∀ a, (![1, 0] : Fin 2 → Nat) a + S10x128.size a ≤ S14x128.size a
  inb_S5x128x256_S1x128x256_1_0_0 : ∀ a, (![1, 0, 0] : Fin 3 → Nat) a + S1x128x256.size a ≤ S5x128x256.size a
  inb_S14x128_S10x128_2_0 : ∀ a, (![2, 0] : Fin 2 → Nat) a + S10x128.size a ≤ S14x128.size a
  inb_S5x128x256_S1x128x256_2_0_0 : ∀ a, (![2, 0, 0] : Fin 3 → Nat) a + S1x128x256.size a ≤ S5x128x256.size a
  inb_S14x128_S10x128_3_0 : ∀ a, (![3, 0] : Fin 2 → Nat) a + S10x128.size a ≤ S14x128.size a
  inb_S5x128x256_S1x128x256_3_0_0 : ∀ a, (![3, 0, 0] : Fin 3 → Nat) a + S1x128x256.size a ≤ S5x128x256.size a
  inb_S14x128_S10x128_4_0 : ∀ a, (![4, 0] : Fin 2 → Nat) a + S10x128.size a ≤ S14x128.size a
  inb_S5x128x256_S1x128x256_4_0_0 : ∀ a, (![4, 0, 0] : Fin 3 → Nat) a + S1x128x256.size a ≤ S5x128x256.size a
  broadcasts_S1x256_S10x256 : S1x256.Broadcasts S10x256
  slices_S10x256_o0_0_S10x128 : S10x256.Slices ![0, 0] S10x128
  slices_S10x256_o0_128_S10x128 : S10x256.Slices ![0, 128] S10x128
  iota_S5x10_d0_w32 : S5x10.Iotas .tc 32 [0]
  iota_S5x10_d1_w32 : S5x10.Iotas .tc 32 [1]
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S5x128_S1x128_0_0 : ∀ a, (![0, 0] : Fin 2 → Nat) a + S1x128.size a ≤ S5x128.size a
  h_S1x128 : 0 < S1x128.numel
  inb_S5x128x128_S1x128x128_0_0_0 : ∀ a, (![0, 0, 0] : Fin 3 → Nat) a + S1x128x128.size a ≤ S5x128x128.size a
  h_S1x128x128 : 0 < S1x128x128.numel
  shapeCasts_S1x128x128_S128x128 : S1x128x128.ShapeCasts S128x128
  inb_S5x128_S1x128_1_0 : ∀ a, (![1, 0] : Fin 2 → Nat) a + S1x128.size a ≤ S5x128.size a
  inb_S5x128x128_S1x128x128_1_0_0 : ∀ a, (![1, 0, 0] : Fin 3 → Nat) a + S1x128x128.size a ≤ S5x128x128.size a
  inb_S5x128_S1x128_2_0 : ∀ a, (![2, 0] : Fin 2 → Nat) a + S1x128.size a ≤ S5x128.size a
  inb_S5x128x128_S1x128x128_2_0_0 : ∀ a, (![2, 0, 0] : Fin 3 → Nat) a + S1x128x128.size a ≤ S5x128x128.size a
  inb_S5x128_S1x128_3_0 : ∀ a, (![3, 0] : Fin 2 → Nat) a + S1x128.size a ≤ S5x128.size a
  inb_S5x128x128_S1x128x128_3_0_0 : ∀ a, (![3, 0, 0] : Fin 3 → Nat) a + S1x128x128.size a ≤ S5x128x128.size a
  inb_S5x128_S1x128_4_0 : ∀ a, (![4, 0] : Fin 2 → Nat) a + S1x128.size a ≤ S5x128.size a
  inb_S5x128x128_S1x128x128_4_0_0 : ∀ a, (![4, 0, 0] : Fin 3 → Nat) a + S1x128x128.size a ≤ S5x128x128.size a
  inb_S1x128_S1x128_0_0 : ∀ a, (![0, 0] : Fin 2 → Nat) a + S1x128.size a ≤ S1x128.size a
  inb_S128x128_S128x128_0_0 : ∀ a, (![0, 0] : Fin 2 → Nat) a + S128x128.size a ≤ S128x128.size a
  h_S128x128 : 0 < S128x128.numel
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S8192x1x128_S8192x1x10_0_0_0 : S8192x1x128.Slices ![0, 0, 0] S8192x1x10
  shapeCasts_S8192x1x10_S8192x10 : S8192x1x10.ShapeCasts S8192x10
  dot_S28x32_S32x256_S28x256_1_0_0_1_n_n_wf : DotDims.WF S28x32 S32x256 S28x256 [1] [0] [0] [1] [] []
  dot_S14x28_S28x128_S14x128_1_0_0_1_n_n_wf : DotDims.WF S14x28 S28x128 S14x128 [1] [0] [0] [1] [] []
  dot_S10x128_S128x256_S10x256_1_0_0_1_n_n_wf : DotDims.WF S10x128 S128x256 S10x256 [1] [0] [0] [1] [] []
  dot_S5x10_S10x128_S5x128_1_0_0_1_n_n_wf : DotDims.WF S5x10 S10x128 S5x128 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32.size a ≤ S8192x32x32.size a
  hwx0_0 : ∀ i : grid0.Coords, EltTy.bits .f32 = 32 ∨ (Rect.block (s := S8192x32x32) S1x32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x32x256.size a ≤ S5x32x256.size a
  hwx0_1 : ∀ i : grid0.Coords, EltTy.bits .f32 = 32 ∨ (Rect.block (s := S5x32x256) S5x32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x128x256.size a ≤ S5x128x256.size a
  hwx0_3 : ∀ i : grid0.Coords, EltTy.bits .f32 = 32 ∨ (Rect.block (s := S5x128x256) S5x128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128x128.size a ≤ S5x128x128.size a
  hwx0_5 : ∀ i : grid0.Coords, EltTy.bits .f32 = 32 ∨ (Rect.block (s := S5x128x128) S5x128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x128.size a ≤ S8192x1x128.size a
  hwx0_11 : ∀ i : grid0.Coords, EltTy.bits .f32 = 32 ∨ (Rect.block (s := S8192x1x128) S1x1x128.size (cc0_transform_11 i) (hinb0_11 i)).WholeWords (EltTy.packing .f32)

variable [Facts₀]

def dot_S28x32_S32x256_S28x256_1_0_0_1_n_n : DotDims S28x32 S32x256 S28x256 where
  lhsContracting := [1]
  rhsContracting := [0]
  lhsNonContracting := [0]
  rhsNonContracting := [1]
  lhsBatch := []
  rhsBatch := []
  wf := dot_S28x32_S32x256_S28x256_1_0_0_1_n_n_wf
def dot_S14x28_S28x128_S14x128_1_0_0_1_n_n : DotDims S14x28 S28x128 S14x128 where
  lhsContracting := [1]
  rhsContracting := [0]
  lhsNonContracting := [0]
  rhsNonContracting := [1]
  lhsBatch := []
  rhsBatch := []
  wf := dot_S14x28_S28x128_S14x128_1_0_0_1_n_n_wf
def dot_S10x128_S128x256_S10x256_1_0_0_1_n_n : DotDims S10x128 S128x256 S10x256 where
  lhsContracting := [1]
  rhsContracting := [0]
  lhsNonContracting := [0]
  rhsNonContracting := [1]
  lhsBatch := []
  rhsBatch := []
  wf := dot_S10x128_S128x256_S10x256_1_0_0_1_n_n_wf
def dot_S5x10_S10x128_S5x128_1_0_0_1_n_n : DotDims S5x10 S10x128 S5x128 where
  lhsContracting := [1]
  rhsContracting := [0]
  lhsNonContracting := [0]
  rhsNonContracting := [1]
  lhsBatch := []
  rhsBatch := []
  wf := dot_S5x10_S10x128_S5x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_v0) S1x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5x32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S5x128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S5x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1) S1x1x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.Spec.lean ====
/-
  LeNet-5 on one 32×32 image, over the extended reals, as one function of the image and of the folded weight
  matrices. Every layer is written once, with literal sizes:

  * a banded convolution is a sum over five row taps and over the input columns, plus a bias, then the maximum with 0;
  * a 2×2 max-pool is the greater of the two half-width column blocks, then the greater of two neighbouring rows;
  * the first dense layer sums over the five pooled rows and their 128 columns; the last two are plain
    vector–matrix products.

  Both programs compute exactly this, in different arrangements of the rows. Nothing here needs the entries to be
  finite: only the commutative-monoid laws of +, and 0 * x = 0, 1 * x = x, are used further on.
-/
import Idealize.ShloMosaic.Lib.ValueIdx
import Idealize.ShloMosaic.PureOps.Ideal.Laws
import Mathlib.Algebra.BigOperators.Fin

noncomputable section

namespace Cert.LeNet

open Idealize.ShloMosaic Idealize.ShloMosaic.ValueIdx

/-- The f32 zero word, the constant every rectifier of the two programs compares against. -/
abbrev Z : EReal := Ideal.ofBits .f32 0x00000000#32

/-- Row r + d of an H-row array, for a tap d below T, when r is below H - T + 1. -/
abbrev tapRow {H T R : ℕ} (hH : R + T = H + 1) (r : Fin R) (d : Fin T) : Fin H :=
  ⟨r.val + d.val, by have := r.isLt; have := d.isLt; omega⟩

/-- Row 2 r + e (e below 2) of an array of 2 R rows or more. -/
abbrev pairRow {H R : ℕ} (hH : 2 * R ≤ H) (r : Fin R) (e : Fin 2) : Fin H :=
  ⟨2 * r.val + e.val, by have := r.isLt; have := e.isLt; omega⟩

/-- Column c + 128 e of a 256-column array: the two half-width blocks. -/
abbrev halfCol (c : Fin 128) (e : Fin 2) : Fin 256 :=
  ⟨c.val + 128 * e.val, by have := c.isLt; have := e.isLt; omega⟩

/-- First convolution with bias and rectifier: 28 rows of 256 columns from a 32×32 image. -/
def conv1 (W : Fin 5 → Fin 32 → Fin 256 → EReal) (B : Fin 256 → EReal) (img : Fin 32 → Fin 32 → EReal)
    (r : Fin 28) (c : Fin 256) : EReal :=
  max ((∑ d : Fin 5, ∑ k : Fin 32, img (tapRow (H := 32) (T := 5) (R := 28) (by norm_num) r d) k * W d k c) + B c) Z

/-- A 2×2 max-pool of an array of 256 columns: half-width column blocks first, then row pairs. -/
def pool {H R : ℕ} (hH : 2 * R ≤ H) (a : Fin H → Fin 256 → EReal) (r : Fin R) (c : Fin 128) : EReal :=
  max (max (a (pairRow hH r 0) (halfCol c 0)) (a (pairRow hH r 0) (halfCol c 1)))
      (max (a (pairRow hH r 1) (halfCol c 0)) (a (pairRow hH r 1) (halfCol c 1)))

/-- Second convolution with bias and rectifier: 10 rows of 256 columns from the 14 pooled rows. -/
def conv2 (W : Fin 5 → Fin 128 → Fin 256 → EReal) (B : Fin 256 → EReal) (p : Fin 14 → Fin 128 → EReal)
    (r : Fin 10) (c : Fin 256) : EReal :=
  max ((∑ d : Fin 5, ∑ k : Fin 128, p (tapRow (H := 14) (T := 5) (R := 10) (by norm_num) r d) k * W d k c) + B c) Z

/-- First dense layer: the five pooled rows against five 128×128 matrices, bias, rectifier. -/
def dense1 (W : Fin 5 → Fin 128 → Fin 128 → EReal) (B : Fin 128 → EReal) (p : Fin 5 → Fin 128 → EReal)
    (c : Fin 128) : EReal :=
  max ((∑ h : Fin 5, ∑ k : Fin 128, p h k * W h k c) + B c) Z

/-- A dense layer on a 128-vector, bias, rectifier. -/
def dense2 (W : Fin 128 → Fin 128 → EReal) (B : Fin 128 → EReal) (v : Fin 128 → EReal) (c : Fin 128) : EReal :=
  max ((∑ k : Fin 128, v k * W k c) + B c) Z

/-- The last dense layer: no rectifier. -/
def dense3 (W : Fin 128 → Fin 128 → EReal) (B : Fin 128 → EReal) (v : Fin 128 → EReal) (c : Fin 128) : EReal :=
  (∑ k : Fin 128, v k * W k c) + B c

/-- The first pooled activation (14 rows of 128) of an image. -/
def act1 (W1 : Fin 5 → Fin 32 → Fin 256 → EReal) (B1 : Fin 256 → EReal) (img : Fin 32 → Fin 32 → EReal) :
    Fin 14 → Fin 128 → EReal :=
  pool (H := 28) (by norm_num) (conv1 W1 B1 img)

/-- The second pooled activation (5 rows of 128) of an image. -/
def act2 (W1 : Fin 5 → Fin 32 → Fin 256 → EReal) (B1 : Fin 256 → EReal)
    (W2 : Fin 5 → Fin 128 → Fin 256 → EReal) (B2 : Fin 256 → EReal) (img : Fin 32 → Fin 32 → EReal) :
    Fin 5 → Fin 128 → EReal :=
  pool (H := 10) (by norm_num) (conv2 W2 B2 (act1 W1 B1 img))

/-- The dense head on the second pooled activation. -/
def head (W3 : Fin 5 → Fin 128 → Fin 128 → EReal) (B3 : Fin 128 → EReal)
    (W4 : Fin 128 → Fin 128 → EReal) (B4 : Fin 128 → EReal) (W5 : Fin 128 → Fin 128 → EReal) (B5 : Fin 128 → EReal)
    (p : Fin 5 → Fin 128 → EReal) : Fin 128 → EReal :=
  dense3 W5 B5 (dense2 W4 B4 (dense1 W3 B3 p))

/-- The whole network on one image: 128 output lanes, of which the first ten are the logits. -/
def lenet (W1 : Fin 5 → Fin 32 → Fin 256 → EReal) (B1 : Fin 256 → EReal)
    (W2 : Fin 5 → Fin 128 → Fin 256 → EReal) (B2 : Fin 256 → EReal)
    (W3 : Fin 5 → Fin 128 → Fin 128 → EReal) (B3 : Fin 128 → EReal)
    (W4 : Fin 128 → Fin 128 → EReal) (B4 : Fin 128 → EReal) (W5 : Fin 128 → Fin 128 → EReal) (B5 : Fin 128 → EReal)
    (img : Fin 32 → Fin 32 → EReal) : Fin 128 → EReal :=
  head W3 B3 W4 B4 W5 B5 (act2 W1 B1 W2 B2 img)

/-- A sum over Fin (A * B) is the double sum over the quotient and the remainder of the position. -/
theorem sum_rowMajor {A B M : ℕ} (h : A * B = M) (f : Fin M → EReal) :
    ∑ j : Fin M, f j
      = ∑ a : Fin A, ∑ b : Fin B, f ⟨a.val * B + b.val, by
          have := a.isLt; have := b.isLt
          calc a.val * B + b.val < a.val * B + B := by omega
            _ = (a.val + 1) * B := by ring
            _ ≤ A * B := Nat.mul_le_mul_right B (by omega)
            _ = M := h⟩ := by
  subst h
  rw [← Equiv.sum_comp finProdFinEquiv f, Fintype.sum_prod_type]
  refine Fintype.sum_congr _ _ fun a => Fintype.sum_congr _ _ fun b => ?_
  congr 1
  apply Fin.ext
  simp [finProdFinEquiv, Nat.add_comm, Nat.mul_comm]

end Cert.LeNet

end
-- ==== Proof.Layout.lean ====
/-
  How the two programs lay the network's operands out in rank-2 and rank-3 arrays, as functions of literal
  coordinates: a row block of 32 image rows out of a tall stack of images, a stack of T weight matrices flattened
  along its rows (tap d, row k at position d * K + k), one slab of a rank-3 stack, a one-row bias, a plain matrix.
-/
import proofs.«134189_g2000305662181196_pallasbulk_93_21_alg».proof.Proof.Spec

noncomputable section

namespace Cert.LeNet

open Idealize.ShloMosaic Idealize.ShloMosaic.ValueIdx

/-- Position d * K + k of a flattened stack of T blocks of K rows. -/
abbrev flatRow {T K : ℕ} (M : ℕ) (hM : T * K = M) (d : Fin T) (k : Fin K) : Fin M :=
  ⟨d.val * K + k.val, by
    have := d.isLt; have := k.isLt
    calc d.val * K + k.val < d.val * K + K := by omega
      _ = (d.val + 1) * K := by ring
      _ ≤ T * K := Nat.mul_le_mul_right K (by omega)
      _ = M := hM⟩

/-- Image n of a stack of N images of 32 rows each, laid out as N * 32 rows of 32 columns. -/
abbrev imgOfStack {N M : ℕ} (hM : N * 32 = M) (x : (⟨2, ![M, 32]⟩ : Shape).Idx → EReal) (n : Fin N) :
    Fin 32 → Fin 32 → EReal :=
  fun r q => x (ix2 (flatRow M hM n r) q)

/-- A flattened stack of T matrices of K rows and C columns, read as tap, row, column. -/
abbrev tapsOfFlat {T K C M : ℕ} (hM : T * K = M) (w : (⟨2, ![M, C]⟩ : Shape).Idx → EReal) :
    Fin T → Fin K → Fin C → EReal :=
  fun d k c => w (ix2 (flatRow M hM d k) c)

/-- A rank-3 stack read as tap, row, column. -/
abbrev tapsOfStack {T K C : ℕ} (w : (⟨3, ![T, K, C]⟩ : Shape).Idx → EReal) : Fin T → Fin K → Fin C → EReal :=
  fun d k c => w (ix3 d k c)

/-- The image held in a one-image block. -/
abbrev imgOfBlock (x : (⟨3, ![1, 32, 32]⟩ : Shape).Idx → EReal) : Fin 32 → Fin 32 → EReal :=
  fun r q => x (ix3 (0 : Fin 1) r q)

/-- A one-row bias read as a vector. -/
abbrev biasRow {C : ℕ} (b : (⟨2, ![1, C]⟩ : Shape).Idx → EReal) : Fin C → EReal :=
  fun c => b (ix2 (0 : Fin 1) c)

/-- A matrix read by row and column. -/
abbrev matOf {A B : ℕ} (w : (⟨2, ![A, B]⟩ : Shape).Idx → EReal) : Fin A → Fin B → EReal :=
  fun k c => w (ix2 k c)

end Cert.LeNet

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.LibMatLayout.lean ====
/-
  Two layout operations on matrices read at an entry given by its coordinates, for any extents.
  * A unit-stride rectangular piece of a matrix `[n, m]`, `a` rows by `b` columns starting at `(o₀, o₁)`: its entry
    `(p, q)` is the matrix at `(o₀ + p, o₁ + q)` (`slice2_apply`; the target index is a parameter with its two
    coordinate equations, so that a caller may spell `0 + k` as `k`).
  * A column `[n, 1]` repeated along the columns to `[n, b]`: its entry `(p, q)` is the column at `(p, 0)`
    (`colBcast_apply`).
-/
import Idealize.ShloMosaic.Lib.ValueLayout

namespace Cert.MatLayout

open Idealize.ShloMosaic Idealize.ShloMosaic.ValueIdx

variable {α : Type}

/-- Entry `(p, q)` of the `a × b` piece of `x` at offsets `(o₀, o₁)` is `x` at `(i, j)` with `i = o₀ + p`, `j = o₁ + q`. -/
theorem slice2_apply {n m a b : ℕ} (off : Fin 2 → ℕ) (x : (⟨2, ![n, m]⟩ : Shape).Idx → α)
    (h : (⟨2, ![n, m]⟩ : Shape).Slices off ⟨2, ![a, b]⟩) (p : Fin a) (q : Fin b) (i : Fin n) (j : Fin m)
    (hi : i.val = off 0 + p.val) (hj : j.val = off 1 + q.val) :
    extractStridedSlice ⟨2, ![a, b]⟩ off x h (ix2 p q) = x (ix2 i j) :=
  extractStridedSlice_apply off x h (ix2 p q) (ix2 i j) fun ax => by
    match ax with
    | ⟨0, _⟩ => exact hi
    | ⟨1, _⟩ => exact hj

/-- Entry `(p, q)` of a column repeated along the columns is the column's entry `(p, 0)`. -/
theorem colBcast_apply {n b : ℕ} (x : (⟨2, ![n, 1]⟩ : Shape).Idx → α)
    (h : (⟨2, ![n, 1]⟩ : Shape).Broadcasts ⟨2, ![n, b]⟩) (p : Fin n) (q : Fin b) :
    broadcastTo ⟨2, ![n, b]⟩ x h (ix2 p q) = x (ix2 p (0 : Fin 1)) := by
  refine broadcastTo_apply x h (ix2 p q) (ix2 p (0 : Fin 1)) fun ax => ?_
  match ax with
  | ⟨0, _⟩ =>
    show p.val = if n = 1 then 0 else p.val
    split
    · have := p.isLt; omega
    · rfl
  | ⟨1, _⟩ => rfl

end Cert.MatLayout
-- ==== Proof.KConv1.lean ====
/-
  The fused kernel's first stage on a block of 512 stacked images (16384 rows of 32 columns): the five row-shifted
  copies of the block joined side by side, one product with the flattened 160×256 band matrix, bias, rectifier,
  the two half-width column blocks compared, and neighbouring rows compared through the row-pair merge.
  At row n * 16 + r of the pooled result (r below 14) every image row read belongs to image n, so the entry is
  the network's first pooled activation of image n; the four shifted copies of the pooled result read the rows below.
-/
import proofs.«134189_g2000305662181196_pallasbulk_93_21_alg».proof.Proof.Gen.KernelIdeal.Skeleton
import proofs.«134189_g2000305662181196_pallasbulk_93_21_alg».proof.Proof.Layout
import proofs.«134189_g2000305662181196_pallasbulk_93_21_alg».proof.Proof.LibPlainDot
import proofs.«134189_g2000305662181196_pallasbulk_93_21_alg».proof.Proof.LibMatLayout
import Idealize.ShloMosaic.Lib.Pipeline.Value
import Idealize.ShloMosaic.Lib.ValueLayout

noncomputable section

namespace Cert.KernelIdeal.Block

open Cert.KernelIdeal Cert.KernelIdeal.Gen Cert.LeNet Idealize.ShloMosaic Idealize.ShloMosaic.ValueIdx

/-- A row-shifted copy: the rows from row o on, with a block appended at the tail. Below the appended block, its
    entry (p, q) is the array's entry (o + p, q). -/
theorem shiftUp_apply {α : Type} {n m a b : ℕ} (off : Fin 2 → ℕ) (x : (⟨2, ![n, m]⟩ : Shape).Idx → α)
    (z : (⟨2, ![b, m]⟩ : Shape).Idx → α)
    (hs : (⟨2, ![n, m]⟩ : Shape).Slices off ⟨2, ![a, m]⟩)
    (hc : Shape.Concatenates [⟨2, ![a, m]⟩, ⟨2, ![b, m]⟩] ⟨2, ![n, m]⟩ 0)
    (p : Fin n) (q : Fin m) (hp : p.val < a) (i : Fin n) (hi : i.val = off 0 + p.val) (ho : off 1 = 0) :
    concatenate ⟨2, ![n, m]⟩ 0 [⟨⟨2, ![a, m]⟩, extractStridedSlice ⟨2, ![a, m]⟩ off x hs⟩, ⟨⟨2, ![b, m]⟩, z⟩] hc (ix2 p q)
      = x (ix2 i q) := by
  refine (concatenate_pair_apply_left 0 _ _ hc (ix2 p q) rfl (ix2 (⟨p.val, hp⟩ : Fin a) q) ?_).trans ?_
  · intro ax
    match ax with
    | ⟨0, _⟩ => rfl
    | ⟨1, _⟩ => rfl
  · exact Cert.MatLayout.slice2_apply off x hs ⟨p.val, hp⟩ q i q hi (by rw [ho]; exact (Nat.zero_add _).symm)

/-- Five arrays of 32 columns joined side by side: column d * 32 + k of the result is column k of the d-th array. -/
theorem joinTaps_apply {α : Type} (y0 y1 y2 y3 y4 : S16384x32.Idx → α)
    (h : Shape.Concatenates [S16384x32, S16384x32, S16384x32, S16384x32, S16384x32] S16384x160 1)
    (ρ : Fin 16384) (d : Fin 5) (k : Fin 32) :
    concatenate S16384x160 1 [⟨S16384x32, y0⟩, ⟨S16384x32, y1⟩, ⟨S16384x32, y2⟩, ⟨S16384x32, y3⟩, ⟨S16384x32, y4⟩] h
        (ix2 ρ (flatRow (T := 5) (K := 32) 160 (by norm_num) d k))
      = (match d with
          | ⟨0, _⟩ => y0 | ⟨1, _⟩ => y1 | ⟨2, _⟩ => y2 | ⟨3, _⟩ => y3 | ⟨4, _⟩ => y4
          | ⟨_ + 5, hd⟩ => absurd hd (Nat.not_lt.2 (Nat.le_add_left _ _))) (ix2 ρ k) := by
  have hoff : ∀ (col : Fin 160) (ax : Fin 2), ax.cast (rfl : S16384x32.rank = S16384x160.rank) ≠ (1 : Fin 2) →
      ((ix2 ρ k : S16384x32.Idx) ax).val = ((ix2 ρ col : S16384x160.Idx) (ax.cast rfl)).val := fun col ax => by
    match ax with
    | ⟨0, _⟩ => exact fun _ => rfl
    | ⟨1, _⟩ => exact fun hne => absurd rfl hne
  match d with
  | ⟨0, _⟩ =>
    exact concatenate_apply_piece (t := S16384x160) 1 [⟨S16384x32, y0⟩, ⟨S16384x32, y1⟩, ⟨S16384x32, y2⟩, ⟨S16384x32, y3⟩, ⟨S16384x32, y4⟩] h _ 0 (by show (0 : ℕ) < 5; omega)
      S16384x32 y0 rfl rfl 0 rfl (ix2 ρ k) (hoff _) (by show 0 + k.val = 0 * 32 + k.val; omega)
  | ⟨1, _⟩ =>
    exact concatenate_apply_piece (t := S16384x160) 1 [⟨S16384x32, y0⟩, ⟨S16384x32, y1⟩, ⟨S16384x32, y2⟩, ⟨S16384x32, y3⟩, ⟨S16384x32, y4⟩] h _ 1 (by show (1 : ℕ) < 5; omega)
      S16384x32 y1 rfl rfl 32 rfl (ix2 ρ k) (hoff _) (by show 32 + k.val = 1 * 32 + k.val; omega)
  | ⟨2, _⟩ =>
    exact concatenate_apply_piece (t := S16384x160) 1 [⟨S16384x32, y0⟩, ⟨S16384x32, y1⟩, ⟨S16384x32, y2⟩, ⟨S16384x32, y3⟩, ⟨S16384x32, y4⟩] h _ 2 (by show (2 : ℕ) < 5; omega)
      S16384x32 y2 rfl rfl 64 rfl (ix2 ρ k) (hoff _) (by show 64 + k.val = 2 * 32 + k.val; omega)
  | ⟨3, _⟩ =>
    exact concatenate_apply_piece (t := S16384x160) 1 [⟨S16384x32, y0⟩, ⟨S16384x32, y1⟩, ⟨S16384x32, y2⟩, ⟨S16384x32, y3⟩, ⟨S16384x32, y4⟩] h _ 3 (by show (3 : ℕ) < 5; omega)
      S16384x32 y3 rfl rfl 96 rfl (ix2 ρ k) (hoff _) (by show 96 + k.val = 3 * 32 + k.val; omega)
  | ⟨4, _⟩ =>
    exact concatenate_apply_piece (t := S16384x160) 1 [⟨S16384x32, y0⟩, ⟨S16384x32, y1⟩, ⟨S16384x32, y2⟩, ⟨S16384x32, y3⟩, ⟨S16384x32, y4⟩] h _ 4 (by show (4 : ℕ) < 5; omega)
      S16384x32 y4 rfl rfl 128 rfl (ix2 ρ k) (hoff _) (by show 128 + k.val = 4 * 32 + k.val; omega)

/-- The two half-width column blocks compared, the rows merged in pairs, the two halves compared again: entry (r, c)
    of the result is the greatest of the four entries at rows 2 r, 2 r + 1 and columns c, c + 128. -/
theorem poolHalves_apply (a : FVec Ideal S16384x256 .bf16)
    (h0 : S16384x256.Slices ![0, 0] S16384x128) (h1 : S16384x256.Slices ![0, 128] S16384x128)
    (hc : S16384x128.ShapeCasts S8192x256)
    (g0 : S8192x256.Slices ![0, 0] S8192x128) (g1 : S8192x256.Slices ![0, 128] S8192x128)
    (r : Fin 8192) (c : Fin 128) :
    maximumf
        (extractStridedSlice S8192x128 ![0, 0]
          (shapeCast S8192x256 (maximumf (extractStridedSlice S16384x128 ![0, 0] a h0)
            (extractStridedSlice S16384x128 ![0, 128] a h1)) hc) g0)
        (extractStridedSlice S8192x128 ![0, 128]
          (shapeCast S8192x256 (maximumf (extractStridedSlice S16384x128 ![0, 0] a h0)
            (extractStridedSlice S16384x128 ![0, 128] a h1)) hc) g1) (ix2 r c)
      = max (max (a (ix2 (pairRow (H := 16384) (R := 8192) (by norm_num) r 0) (halfCol c 0)))
                 (a (ix2 (pairRow (H := 16384) (R := 8192) (by norm_num) r 0) (halfCol c 1))))
            (max (a (ix2 (pairRow (H := 16384) (R := 8192) (by norm_num) r 1) (halfCol c 0)))
                 (a (ix2 (pairRow (H := 16384) (R := 8192) (by norm_num) r 1) (halfCol c 1)))) := by
  have hrow : ∀ (ρ : Fin 16384) (q : Fin 128),
      maximumf (extractStridedSlice S16384x128 ![0, 0] a h0) (extractStridedSlice S16384x128 ![0, 128] a h1) (ix2 ρ q)
        = max (a (ix2 ρ (halfCol q 0))) (a (ix2 ρ (halfCol q 1))) := fun ρ q => by
    rw [maximumf_apply]
    refine congrArg₂ max ?_ ?_
    · exact Cert.MatLayout.slice2_apply ![0, 0] a h0 ρ q ρ (halfCol q 0) (by show ρ.val = 0 + ρ.val; omega)
        (by show q.val + 128 * 0 = 0 + q.val; omega)
    · exact Cert.MatLayout.slice2_apply ![0, 128] a h1 ρ q ρ (halfCol q 1) (by show ρ.val = 0 + ρ.val; omega)
        (by show q.val + 128 * 1 = 128 + q.val; omega)
  have hcast : ∀ (e : Fin 2),
      shapeCast S8192x256 (maximumf (extractStridedSlice S16384x128 ![0, 0] a h0)
          (extractStridedSlice S16384x128 ![0, 128] a h1)) hc (ix2 r (halfCol c e))
        = maximumf (extractStridedSlice S16384x128 ![0, 0] a h0) (extractStridedSlice S16384x128 ![0, 128] a h1)
            (ix2 (pairRow (H := 16384) (R := 8192) (by norm_num) r e) c) := fun e => by
    refine shapeCast_apply _ hc (ix2 r (halfCol c e)) (ix2 (pairRow (H := 16384) (R := 8192) (by norm_num) r e) c) ?_
    rw [Shape.rowMajor_val_two, Shape.rowMajor_val_two]
    show (2 * r.val + e.val) * 128 + c.val = r.val * 256 + (c.val + 128 * e.val)
    omega
  rw [maximumf_apply]
  refine congrArg₂ max ?_ ?_
  · refine (Cert.MatLayout.slice2_apply ![0, 0] _ g0 r c r (halfCol c 0) (by show r.val = 0 + r.val; omega)
        (by show c.val + 128 * 0 = 0 + c.val; omega)).trans ?_
    exact (hcast 0).trans (hrow _ _)
  · refine (Cert.MatLayout.slice2_apply ![0, 128] _ g1 r c r (halfCol c 1) (by show r.val = 0 + r.val; omega)
        (by show c.val + 128 * 1 = 128 + c.val; omega)).trans ?_
    exact (hcast 1).trans (hrow _ _)

/-- The five row-shifted copies joined side by side: away from the last four rows, column d * 32 + k of row ρ is the
    array's entry (ρ + d, k). -/
theorem joined_apply {α : Type} (x : S16384x32.Idx → α)
    (z1 : S1x32.Idx → α) (z2 : S2x32.Idx → α) (z3 : S3x32.Idx → α) (z4 : S4x32.Idx → α)
    (s1 : S16384x32.Slices ![1, 0] S16383x32) (c1 : Shape.Concatenates [S16383x32, S1x32] S16384x32 0)
    (s2 : S16384x32.Slices ![2, 0] S16382x32) (c2 : Shape.Concatenates [S16382x32, S2x32] S16384x32 0)
    (s3 : S16384x32.Slices ![3, 0] S16381x32) (c3 : Shape.Concatenates [S16381x32, S3x32] S16384x32 0)
    (s4 : S16384x32.Slices ![4, 0] S16380x32) (c4 : Shape.Concatenates [S16380x32, S4x32] S16384x32 0)
    (h : Shape.Concatenates [S16384x32, S16384x32, S16384x32, S16384x32, S16384x32] S16384x160 1)
    (ρ : Fin 16384) (hρ : ρ.val + 4 < 16384) (d : Fin 5) (k : Fin 32) :
    concatenate S16384x160 1 [⟨S16384x32, x⟩,
        ⟨S16384x32, concatenate S16384x32 0 [⟨S16383x32, extractStridedSlice S16383x32 ![1, 0] x s1⟩, ⟨S1x32, z1⟩] c1⟩,
        ⟨S16384x32, concatenate S16384x32 0 [⟨S16382x32, extractStridedSlice S16382x32 ![2, 0] x s2⟩, ⟨S2x32, z2⟩] c2⟩,
        ⟨S16384x32, concatenate S16384x32 0 [⟨S16381x32, extractStridedSlice S16381x32 ![3, 0] x s3⟩, ⟨S3x32, z3⟩] c3⟩,
        ⟨S16384x32, concatenate S16384x32 0 [⟨S16380x32, extractStridedSlice S16380x32 ![4, 0] x s4⟩, ⟨S4x32, z4⟩] c4⟩] h
        (ix2 ρ (flatRow (T := 5) (K := 32) 160 (by norm_num) d k))
      = x (ix2 (⟨ρ.val + d.val, by have := d.isLt; omega⟩ : Fin 16384) k) := by
  refine (joinTaps_apply _ _ _ _ _ h ρ d k).trans ?_
  match d with
  | ⟨0, _⟩ => rfl
  | ⟨1, _⟩ =>
    exact shiftUp_apply ![1, 0] x z1 s1 c1 ρ k (by omega) ⟨ρ.val + 1, by omega⟩ (by show ρ.val + 1 = 1 + ρ.val; omega) rfl
  | ⟨2, _⟩ =>
    exact shiftUp_apply ![2, 0] x z2 s2 c2 ρ k (by omega) ⟨ρ.val + 2, by omega⟩ (by show ρ.val + 2 = 2 + ρ.val; omega) rfl
  | ⟨3, _⟩ =>
    exact shiftUp_apply ![3, 0] x z3 s3 c3 ρ k (by omega) ⟨ρ.val + 3, by omega⟩ (by show ρ.val + 3 = 3 + ρ.val; omega) rfl
  | ⟨4, _⟩ =>
    exact shiftUp_apply ![4, 0] x z4 s4 c4 ρ k (by omega) ⟨ρ.val + 4, by omega⟩ (by show ρ.val + 4 = 4 + ρ.val; omega) rfl

/-- A row of the product with the flattened band matrix, bias added, compared with the zero word: when the row of the
    left operand holds the five shifted image rows side by side, it is the banded sum over taps and columns. -/
theorem conv_apply (x : S16384x32.Idx → EReal) (J : FVec Ideal S16384x160 .bf16) (w : FVec Ideal S160x256 .bf16)
    (b : FVec Ideal S1x256 .f32) (hb : S1x256.Broadcasts S16384x256) (ht : FTy.bits .bf16 < FTy.bits .f32)
    (ρ : Fin 16384) (hρ : ρ.val + 4 < 16384)
    (hJ : ∀ (d : Fin 5) (k : Fin 32), J (ix2 ρ (flatRow (T := 5) (K := 32) 160 (by norm_num) d k))
      = x (ix2 (⟨ρ.val + d.val, by have := d.isLt; omega⟩ : Fin 16384) k))
    (c : Fin 256) :
    truncf .bf16 (maximumf (addf (matmul dot_S16384x160_S160x256_S16384x256_1_0_0_1_n_n none J w
          (constant S16384x256 .f32 0x00000000#32)) (broadcastTo S16384x256 b hb))
        (broadcast S16384x256 (Scalar.ofBits .f32 0x00000000#32))) ht (ix2 ρ c)
      = max ((∑ d : Fin 5, ∑ k : Fin 32,
              x (ix2 (⟨ρ.val + d.val, by have := d.isLt; omega⟩ : Fin 16384) k)
                * w (ix2 (flatRow (T := 5) (K := 32) 160 (by norm_num) d k) c)) + b (ix2 (0 : Fin 1) c)) Z := by
  show max (matmul dot_S16384x160_S160x256_S16384x256_1_0_0_1_n_n none J w
          (constant S16384x256 .f32 0x00000000#32) (ix2 ρ c) + broadcastTo S16384x256 b hb (ix2 ρ c)) Z = _
  refine congrArg₂ max (congrArg₂ (· + ·) ?_ ?_) rfl
  · refine (Cert.PlainDot.matmul_zero_apply (M := 16384) (K := 160) (N := 256) _ rfl none J w ρ c).trans ?_
    refine (sum_rowMajor (A := 5) (B := 32) (by norm_num) _).trans ?_
    refine Finset.sum_congr rfl fun d _ => Finset.sum_congr rfl fun k _ => ?_
    exact congrArg (· * w (ix2 (flatRow (T := 5) (K := 32) 160 (by norm_num) d k) c)) (hJ d k)
  · exact broadcastTo_1b_ab_apply b hb ρ c

/-- The pooled array at row n * 16 + r, when the rows n * 32 + q (q below 28) of the array pooled are the rows of a
    28-row array A: the 2×2 max-pool of A. -/
theorem pool_of_rows (a : FVec Ideal S16384x256 .bf16)
    (h0 : S16384x256.Slices ![0, 0] S16384x128) (h1 : S16384x256.Slices ![0, 128] S16384x128)
    (hc : S16384x128.ShapeCasts S8192x256)
    (g0 : S8192x256.Slices ![0, 0] S8192x128) (g1 : S8192x256.Slices ![0, 128] S8192x128)
    (n : Fin 512) (r : Fin 14) (c : Fin 128) (A : Fin 28 → Fin 256 → EReal)
    (hA : ∀ (ρ : Fin 16384) (q : Fin 28) (c' : Fin 256), ρ.val = n.val * 32 + q.val → a (ix2 ρ c') = A q c') :
    maximumf
        (extractStridedSlice S8192x128 ![0, 0]
          (shapeCast S8192x256 (maximumf (extractStridedSlice S16384x128 ![0, 0] a h0)
            (extractStridedSlice S16384x128 ![0, 128] a h1)) hc) g0)
        (extractStridedSlice S8192x128 ![0, 128]
          (shapeCast S8192x256 (maximumf (extractStridedSlice S16384x128 ![0, 0] a h0)
            (extractStridedSlice S16384x128 ![0, 128] a h1)) hc) g1)
        (ix2 (⟨n.val * 16 + r.val, by have := n.isLt; have := r.isLt; omega⟩ : Fin 8192) c)
      = Cert.LeNet.pool (H := 28) (R := 14) (by norm_num) A r c := by
  refine (poolHalves_apply a h0 h1 hc g0 g1 _ c).trans ?_
  unfold Cert.LeNet.pool
  refine congrArg₂ max (congrArg₂ max ?_ ?_) (congrArg₂ max ?_ ?_)
  · exact hA _ (pairRow (H := 28) (R := 14) (by norm_num) r 0) _ (by show 2 * (n.val * 16 + r.val) + 0 = n.val * 32 + (2 * r.val + 0); omega)
  · exact hA _ (pairRow (H := 28) (R := 14) (by norm_num) r 0) _ (by show 2 * (n.val * 16 + r.val) + 0 = n.val * 32 + (2 * r.val + 0); omega)
  · exact hA _ (pairRow (H := 28) (R := 14) (by norm_num) r 1) _ (by show 2 * (n.val * 16 + r.val) + 1 = n.val * 32 + (2 * r.val + 1); omega)
  · exact hA _ (pairRow (H := 28) (R := 14) (by norm_num) r 1) _ (by show 2 * (n.val * 16 + r.val) + 1 = n.val * 32 + (2 * r.val + 1); omega)

/-- The pooled first activation of image n sits at rows n * 16 + r, r below 14, of the first stage's result. -/
theorem pay2_apply (v0 : Vec Ideal S16384x32 .f32) (v16 : Vec Ideal S160x256 .bf16) (v19 : Vec Ideal S1x256 .f32)
    (n : Fin 512) (r : Fin 14) (c : Fin 128) :
    k0_pay2 (F := Ideal) v0 v16 v19 (ix2 (⟨n.val * 16 + r.val, by have := n.isLt; have := r.isLt; omega⟩ : Fin 8192) c)
      = act1 (tapsOfFlat (T := 5) (K := 32) (by norm_num) v16) (biasRow v19) (imgOfStack (N := 512) (by norm_num) v0 n) r c := by
  unfold act1
  refine pool_of_rows _ _ _ _ _ _ n r c _ (fun ρ q c' hρ => ?_)
  have hρ4 : ρ.val + 4 < 16384 := by have := n.isLt; have := q.isLt; omega
  refine (conv_apply (fun j => v0 j) _ _ _ _ _ ρ hρ4
    (fun d k => (joined_apply _ _ _ _ _ _ _ _ _ _ _ _ _ _ ρ hρ4 d k).trans ?_) c').trans ?_
  · exact congrFun (shapeCast_self v0 _) _
  · unfold conv1
    refine congrArg₂ max (congrArg₂ (· + ·)
      (Finset.sum_congr rfl fun d _ => Finset.sum_congr rfl fun k _ => congrArg₂ (· * ·) ?_ ?_) rfl) rfl
    · refine congrArg v0 (congrArg (fun t => ix2 t k) (Fin.ext ?_))
      show ρ.val + d.val = n.val * 32 + (q.val + d.val)
      omega
    · exact congrFun (shapeCast_self v16 _) _

/-- The copy shifted up by one row. -/
theorem pay3_apply (v0 : Vec Ideal S16384x32 .f32) (v16 : Vec Ideal S160x256 .bf16) (v19 : Vec Ideal S1x256 .f32)
    (n : Fin 512) (r : Fin 10) (c : Fin 128) :
    k0_pay3 (F := Ideal) v0 v16 v19 (ix2 (⟨n.val * 16 + r.val, by have := n.isLt; have := r.isLt; omega⟩ : Fin 8192) c)
      = act1 (tapsOfFlat (T := 5) (K := 32) (by norm_num) v16) (biasRow v19) (imgOfStack (N := 512) (by norm_num) v0 n)
          (tapRow (H := 14) (T := 5) (R := 10) (by norm_num) r 1) c := by
  have hn := n.isLt
  have hr := r.isLt
  show concatenate S8192x128 0
      [⟨S8191x128, extractStridedSlice S8191x128 ![1, 0] (k0_pay2 (F := Ideal) v0 v16 v19) slices_S8192x128_o1_0_S8191x128⟩,
        ⟨S1x128, broadcast S1x128 (Scalar.ofBits .bf16 0x0000#16)⟩]
      concatenates_S8191x128_S1x128_S8192x128_d0 (ix2 (⟨n.val * 16 + r.val, by omega⟩ : Fin 8192) c) = _
  refine (shiftUp_apply ![1, 0] (k0_pay2 (F := Ideal) v0 v16 v19) _ slices_S8192x128_o1_0_S8191x128
    concatenates_S8191x128_S1x128_S8192x128_d0
    (⟨n.val * 16 + r.val, by omega⟩ : Fin 8192) c (by show n.val * 16 + r.val < 8191; omega)
    (⟨n.val * 16 + (tapRow (H := 14) (T := 5) (R := 10) (by norm_num) r 1).val, by
      show n.val * 16 + (r.val + 1) < 8192; omega⟩ : Fin 8192)
    (by show n.val * 16 + (r.val + 1) = 1 + (n.val * 16 + r.val); omega) rfl).trans ?_
  exact pay2_apply v0 v16 v19 n (tapRow (H := 14) (T := 5) (R := 10) (by norm_num) r 1) c

/-- The copy shifted up by two rows. -/
theorem pay4_apply (v0 : Vec Ideal S16384x32 .f32) (v16 : Vec Ideal S160x256 .bf16) (v19 : Vec Ideal S1x256 .f32)
    (n : Fin 512) (r : Fin 10) (c : Fin 128) :
    k0_pay4 (F := Ideal) v0 v16 v19 (ix2 (⟨n.val * 16 + r.val, by have := n.isLt; have := r.isLt; omega⟩ : Fin 8192) c)
      = act1 (tapsOfFlat (T := 5) (K := 32) (by norm_num) v16) (biasRow v19) (imgOfStack (N := 512) (by norm_num) v0 n)
          (tapRow (H := 14) (T := 5) (R := 10) (by norm_num) r 2) c := by
  have hn := n.isLt
  have hr := r.isLt
  show concatenate S8192x128 0
      [⟨S8190x128, extractStridedSlice S8190x128 ![2, 0] (k0_pay2 (F := Ideal) v0 v16 v19) slices_S8192x128_o2_0_S8190x128⟩,
        ⟨S2x128, broadcast S2x128 (Scalar.ofBits .bf16 0x0000#16)⟩]
      concatenates_S8190x128_S2x128_S8192x128_d0 (ix2 (⟨n.val * 16 + r.val, by omega⟩ : Fin 8192) c) = _
  refine (shiftUp_apply ![2, 0] (k0_pay2 (F := Ideal) v0 v16 v19) _ slices_S8192x128_o2_0_S8190x128
    concatenates_S8190x128_S2x128_S8192x128_d0
    (⟨n.val * 16 + r.val, by omega⟩ : Fin 8192) c (by show n.val * 16 + r.val < 8190; omega)
    (⟨n.val * 16 + (tapRow (H := 14) (T := 5) (R := 10) (by norm_num) r 2).val, by
      show n.val * 16 + (r.val + 2) < 8192; omega⟩ : Fin 8192)
    (by show n.val * 16 + (r.val + 2) = 2 + (n.val * 16 + r.val); omega) rfl).trans ?_
  exact pay2_apply v0 v16 v19 n (tapRow (H := 14) (T := 5) (R := 10) (by norm_num) r 2) c

/-- The copy shifted up by three rows. -/
theorem pay5_apply (v0 : Vec Ideal S16384x32 .f32) (v16 : Vec Ideal S160x256 .bf16) (v19 : Vec Ideal S1x256 .f32)
    (n : Fin 512) (r : Fin 10) (c : Fin 128) :
    k0_pay5 (F := Ideal) v0 v16 v19 (ix2 (⟨n.val * 16 + r.val, by have := n.isLt; have := r.isLt; omega⟩ : Fin 8192) c)
      = act1 (tapsOfFlat (T := 5) (K := 32) (by norm_num) v16) (biasRow v19) (imgOfStack (N := 512) (by norm_num) v0 n)
          (tapRow (H := 14) (T := 5) (R := 10) (by norm_num) r 3) c := by
  have hn := n.isLt
  have hr := r.isLt
  show concatenate S8192x128 0
      [⟨S8189x128, extractStridedSlice S8189x128 ![3, 0] (k0_pay2 (F := Ideal) v0 v16 v19) slices_S8192x128_o3_0_S8189x128⟩,
        ⟨S3x128, broadcast S3x128 (Scalar.ofBits .bf16 0x0000#16)⟩]
      concatenates_S8189x128_S3x128_S8192x128_d0 (ix2 (⟨n.val * 16 + r.val, by omega⟩ : Fin 8192) c) = _
  refine (shiftUp_apply ![3, 0] (k0_pay2 (F := Ideal) v0 v16 v19) _ slices_S8192x128_o3_0_S8189x128
    concatenates_S8189x128_S3x128_S8192x128_d0
    (⟨n.val * 16 + r.val, by omega⟩ : Fin 8192) c (by show n.val * 16 + r.val < 8189; omega)
    (⟨n.val * 16 + (tapRow (H := 14) (T := 5) (R := 10) (by norm_num) r 3).val, by
      show n.val * 16 + (r.val + 3) < 8192; omega⟩ : Fin 8192)
    (by show n.val * 16 + (r.val + 3) = 3 + (n.val * 16 + r.val); omega) rfl).trans ?_
  exact pay2_apply v0 v16 v19 n (tapRow (H := 14) (T := 5) (R := 10) (by norm_num) r 3) c

/-- The rows from the fifth on (the piece the four-row shift keeps). -/
theorem pay7_apply (v0 : Vec Ideal S16384x32 .f32) (v16 : Vec Ideal S160x256 .bf16) (v19 : Vec Ideal S1x256 .f32)
    (n : Fin 512) (r : Fin 10) (c : Fin 128) :
    k0_pay7 (F := Ideal) v0 v16 v19 (ix2 (⟨n.val * 16 + r.val, by have := n.isLt; have := r.isLt; omega⟩ : Fin 8188) c)
      = act1 (tapsOfFlat (T := 5) (K := 32) (by norm_num) v16) (biasRow v19) (imgOfStack (N := 512) (by norm_num) v0 n)
          (tapRow (H := 14) (T := 5) (R := 10) (by norm_num) r 4) c := by
  have hn := n.isLt
  have hr := r.isLt
  show extractStridedSlice S8188x128 ![4, 0] (k0_pay2 (F := Ideal) v0 v16 v19) slices_S8192x128_o4_0_S8188x128
      (ix2 (⟨n.val * 16 + r.val, by omega⟩ : Fin 8188) c) = _
  refine (Cert.MatLayout.slice2_apply ![4, 0] (k0_pay2 (F := Ideal) v0 v16 v19) slices_S8192x128_o4_0_S8188x128
    (⟨n.val * 16 + r.val, by omega⟩ : Fin 8188) c
    (⟨n.val * 16 + (tapRow (H := 14) (T := 5) (R := 10) (by norm_num) r 4).val, by
      show n.val * 16 + (r.val + 4) < 8192; omega⟩ : Fin 8192) c
    (by show n.val * 16 + (r.val + 4) = 4 + (n.val * 16 + r.val); omega)
    (by show c.val = 0 + c.val; omega)).trans ?_
  exact pay2_apply v0 v16 v19 n (tapRow (H := 14) (T := 5) (R := 10) (by norm_num) r 4) c

end Cert.KernelIdeal.Block

end
-- ==== Proof.KTail.lean ====
/-
  The fused kernel's later stages on a block of 512 stacked images. The five row-shifted copies of the pooled first
  activation (8192 rows of 128) are joined side by side and multiplied with the flattened 640×256 band matrix;
  bias, rectifier, the two column halves and neighbouring rows compared as before give 4096 rows, eight per image,
  of which the first five are the image's second pooled activation. The eight rows are merged into one row of 1024
  lanes and multiplied with a 1024×128 matrix whose last 384 rows are zero, so the three surplus rows contribute
  nothing whatever they hold. Two more dense layers follow, and the first ten lanes are kept.
-/
import proofs.«134189_g2000305662181196_pallasbulk_93_21_alg».proof.Proof.Gen.KernelIdeal.Skeleton
import proofs.«134189_g2000305662181196_pallasbulk_93_21_alg».proof.Proof.Layout
import proofs.«134189_g2000305662181196_pallasbulk_93_21_alg».proof.Proof.LibPlainDot
import proofs.«134189_g2000305662181196_pallasbulk_93_21_alg».proof.Proof.LibMatLayout
import Idealize.ShloMosaic.Lib.Pipeline.Value
import Idealize.ShloMosaic.Lib.ValueLayout

noncomputable section

namespace Cert.KernelIdeal.Block

open Cert.KernelIdeal Cert.KernelIdeal.Gen Cert.LeNet Idealize.ShloMosaic Idealize.ShloMosaic.ValueIdx

/-- A product into the zero accumulator, plus a one-row bias, compared with zero. -/
theorem dense_apply {M K N : ℕ} (d : DotDims ⟨2, ![M, K]⟩ ⟨2, ![K, N]⟩ ⟨2, ![M, N]⟩) (hd : d = DotDims.plain M K N)
    (l : FVec Ideal ⟨2, ![M, K]⟩ .bf16) (w : Vec Ideal ⟨2, ![K, N]⟩ .bf16) (b : Vec Ideal ⟨2, ![1, N]⟩ .f32)
    (hsc : (⟨2, ![K, N]⟩ : Shape).ShapeCasts ⟨2, ![K, N]⟩) (hb : (⟨2, ![1, N]⟩ : Shape).Broadcasts ⟨2, ![M, N]⟩)
    (hlt : FTy.bits .bf16 < FTy.bits .f32) (p : Fin M) (q : Fin N) :
    (truncf .bf16 (maximumf (addf (matmul d none l (shapeCast ⟨2, ![K, N]⟩ w hsc : FVec Ideal ⟨2, ![K, N]⟩ .bf16) (constant ⟨2, ![M, N]⟩ .f32 0x00000000#32))
        (broadcastTo ⟨2, ![M, N]⟩ b hb)) (broadcast ⟨2, ![M, N]⟩ (Scalar.ofBits .f32 0x00000000#32))) hlt : FVec Ideal ⟨2, ![M, N]⟩ .bf16) (ix2 p q)
      = max ((∑ k : Fin K, l (ix2 p k) * w (ix2 k q)) + b (ix2 (0 : Fin 1) q)) Z := by
  show max (matmul d none l (shapeCast ⟨2, ![K, N]⟩ w hsc : FVec Ideal ⟨2, ![K, N]⟩ .bf16) (constant ⟨2, ![M, N]⟩ .f32 0x00000000#32) (ix2 p q)
      + broadcastTo ⟨2, ![M, N]⟩ b hb (ix2 p q)) Z = _
  rw [shapeCast_self, Cert.PlainDot.matmul_zero_apply d hd, broadcastTo_1b_ab_apply]

/-- Two neighbouring rows of 128 lanes laid side by side in one row of 256. -/
theorem pairMerge_apply {α : Type} (y : S8192x128.Idx → α) (hc : S8192x128.ShapeCasts S4096x256) (r : Fin 4096) (e : Fin 2)
    (k : Fin 128) :
    shapeCast S4096x256 y hc (ix2 r (halfCol k e)) = y (ix2 (pairRow (H := 8192) (R := 4096) (by norm_num) r e) k) := by
  refine shapeCast_apply y hc _ _ ?_
  rw [Shape.rowMajor_val_two, Shape.rowMajor_val_two]
  show (2 * r.val + e.val) * 128 + k.val = r.val * 256 + (k.val + 128 * e.val)
  omega

/-- Eight rows of 128 lanes laid side by side in one row of 1024. -/
theorem merge8_apply {α : Type} (y : S4096x128.Idx → α) (hc : S4096x128.ShapeCasts S512x1024) (n : Fin 512) (h : Fin 8)
    (k : Fin 128) :
    shapeCast S512x1024 y hc (ix2 n (flatRow (T := 8) (K := 128) 1024 (by norm_num) h k))
      = y (ix2 (flatRow (T := 512) (K := 8) 4096 (by norm_num) n h) k) := by
  refine shapeCast_apply y hc _ _ ?_
  rw [Shape.rowMajor_val_two, Shape.rowMajor_val_two]
  show (n.val * 8 + h.val) * 128 + k.val = n.val * 1024 + (h.val * 128 + k.val)
  omega

/-- The greater of the two column halves. -/
theorem halfMax_apply {R : ℕ} (x : FVec Ideal ⟨2, ![R, 256]⟩ .bf16)
    (hs0 : (⟨2, ![R, 256]⟩ : Shape).Slices ![0, 0] ⟨2, ![R, 128]⟩) (hs1 : (⟨2, ![R, 256]⟩ : Shape).Slices ![0, 128] ⟨2, ![R, 128]⟩)
    (ρ : Fin R) (q : Fin 128) :
    (maximumf (extractStridedSlice ⟨2, ![R, 128]⟩ ![0, 0] x hs0) (extractStridedSlice ⟨2, ![R, 128]⟩ ![0, 128] x hs1)
        : FVec Ideal ⟨2, ![R, 128]⟩ .bf16) (ix2 ρ q)
      = max (x (ix2 ρ (halfCol q 0))) (x (ix2 ρ (halfCol q 1))) := by
  refine congrArg₂ max ?_ ?_
  · exact Cert.MatLayout.slice2_apply ![0, 0] x hs0 ρ q ρ (halfCol q 0) (by show ρ.val = 0 + ρ.val; omega)
      (by show q.val + 128 * 0 = 0 + q.val; omega)
  · exact Cert.MatLayout.slice2_apply ![0, 128] x hs1 ρ q ρ (halfCol q 1) (by show ρ.val = 0 + ρ.val; omega)
      (by show q.val + 128 * 1 = 128 + q.val; omega)

/-- Five arrays of 128 columns joined side by side: column t * 128 + k of the join is column k of the t-th. -/
theorem join5_apply {α : Type} (x0 x1 x2 x3 x4 : S8192x128.Idx → α)
    (hcat : Shape.Concatenates [S8192x128, S8192x128, S8192x128, S8192x128, S8192x128] S8192x640 1)
    (ρ : Fin 8192) (t : Fin 5) (k : Fin 128) :
    concatenate S8192x640 1 [⟨S8192x128, x0⟩, ⟨S8192x128, x1⟩, ⟨S8192x128, x2⟩, ⟨S8192x128, x3⟩, ⟨S8192x128, x4⟩] hcat
        (ix2 ρ (flatRow (T := 5) (K := 128) 640 (by norm_num) t k))
      = (![x0, x1, x2, x3, x4] t) (ix2 ρ k) := by
  have hi : ∀ (j : S8192x640.Idx) (hj : (j 0).val = ρ.val) (b : Fin S8192x128.rank),
      b.cast (rfl : S8192x128.rank = S8192x640.rank) ≠ (1 : Fin 2) → ((ix2 ρ k : S8192x128.Idx) b).val = (j (b.cast rfl)).val := by
    intro j hj b hb
    match b with
    | ⟨0, _⟩ => exact hj.symm
    | ⟨1, _⟩ => exact absurd rfl hb
  match t with
  | ⟨0, _⟩ =>
    exact concatenate_apply_piece (t := S8192x640) (1 : Fin 2) [⟨S8192x128, x0⟩, ⟨S8192x128, x1⟩, ⟨S8192x128, x2⟩, ⟨S8192x128, x3⟩, ⟨S8192x128, x4⟩] hcat
      (ix2 ρ (flatRow (T := 5) (K := 128) 640 (by norm_num) ⟨0, by norm_num⟩ k)) 0 (by show 0 < 5; omega) S8192x128 x0 rfl rfl 0 rfl (ix2 ρ k) (hi _ rfl)
      (by show 0 + k.val = 0 * 128 + k.val; omega)
  | ⟨1, _⟩ =>
    exact concatenate_apply_piece (t := S8192x640) (1 : Fin 2) [⟨S8192x128, x0⟩, ⟨S8192x128, x1⟩, ⟨S8192x128, x2⟩, ⟨S8192x128, x3⟩, ⟨S8192x128, x4⟩] hcat
      (ix2 ρ (flatRow (T := 5) (K := 128) 640 (by norm_num) ⟨1, by norm_num⟩ k)) 1 (by show 1 < 5; omega) S8192x128 x1 rfl rfl 128 rfl (ix2 ρ k) (hi _ rfl)
      (by show 128 + k.val = 1 * 128 + k.val; omega)
  | ⟨2, _⟩ =>
    exact concatenate_apply_piece (t := S8192x640) (1 : Fin 2) [⟨S8192x128, x0⟩, ⟨S8192x128, x1⟩, ⟨S8192x128, x2⟩, ⟨S8192x128, x3⟩, ⟨S8192x128, x4⟩] hcat
      (ix2 ρ (flatRow (T := 5) (K := 128) 640 (by norm_num) ⟨2, by norm_num⟩ k)) 2 (by show 2 < 5; omega) S8192x128 x2 rfl rfl 256 rfl (ix2 ρ k) (hi _ rfl)
      (by show 256 + k.val = 2 * 128 + k.val; omega)
  | ⟨3, _⟩ =>
    exact concatenate_apply_piece (t := S8192x640) (1 : Fin 2) [⟨S8192x128, x0⟩, ⟨S8192x128, x1⟩, ⟨S8192x128, x2⟩, ⟨S8192x128, x3⟩, ⟨S8192x128, x4⟩] hcat
      (ix2 ρ (flatRow (T := 5) (K := 128) 640 (by norm_num) ⟨3, by norm_num⟩ k)) 3 (by show 3 < 5; omega) S8192x128 x3 rfl rfl 384 rfl (ix2 ρ k) (hi _ rfl)
      (by show 384 + k.val = 3 * 128 + k.val; omega)
  | ⟨4, _⟩ =>
    exact concatenate_apply_piece (t := S8192x640) (1 : Fin 2) [⟨S8192x128, x0⟩, ⟨S8192x128, x1⟩, ⟨S8192x128, x2⟩, ⟨S8192x128, x3⟩, ⟨S8192x128, x4⟩] hcat
      (ix2 ρ (flatRow (T := 5) (K := 128) 640 (by norm_num) ⟨4, by norm_num⟩ k)) 4 (by show 4 < 5; omega) S8192x128 x4 rfl rfl 512 rfl (ix2 ρ k) (hi _ rfl)
      (by show 512 + k.val = 4 * 128 + k.val; omega)

/-- The tall piece of a two-piece stack read at one of its own rows. -/
theorem stackTop_apply {α : Type} (x : S8188x128.Idx → α) (z : S4x128.Idx → α)
    (hcat : Shape.Concatenates [S8188x128, S4x128] S8192x128 0) (ρ : Fin 8192) (ρ' : Fin 8188) (hρ : ρ'.val = ρ.val) (k : Fin 128) :
    concatenate S8192x128 0 [⟨S8188x128, x⟩, ⟨S4x128, z⟩] hcat (ix2 ρ k) = x (ix2 ρ' k) := by
  refine concatenate_pair_apply_left (0 : Fin 2) x z hcat (ix2 ρ k) rfl (ix2 ρ' k) fun b => ?_
  match b with
  | ⟨0, _⟩ => exact hρ
  | ⟨1, _⟩ => rfl

/-- The two pools on the tall stack: row r of the result compares rows 2 r, 2 r + 1 and the two column halves. -/
theorem pool_apply (x : FVec Ideal S8192x256 .bf16)
    (hs0 : S8192x256.Slices ![0, 0] S8192x128) (hs1 : S8192x256.Slices ![0, 128] S8192x128)
    (hc : S8192x128.ShapeCasts S4096x256)
    (ht0 : S4096x256.Slices ![0, 0] S4096x128) (ht1 : S4096x256.Slices ![0, 128] S4096x128)
    (r : Fin 4096) (k : Fin 128) :
    (maximumf
        (extractStridedSlice S4096x128 ![0, 0] (shapeCast S4096x256 (maximumf (extractStridedSlice S8192x128 ![0, 0] x hs0)
          (extractStridedSlice S8192x128 ![0, 128] x hs1) : FVec Ideal S8192x128 .bf16) hc) ht0)
        (extractStridedSlice S4096x128 ![0, 128] (shapeCast S4096x256 (maximumf (extractStridedSlice S8192x128 ![0, 0] x hs0)
          (extractStridedSlice S8192x128 ![0, 128] x hs1) : FVec Ideal S8192x128 .bf16) hc) ht1)
        : FVec Ideal S4096x128 .bf16) (ix2 r k)
      = max (max (x (ix2 (pairRow (H := 8192) (R := 4096) (by norm_num) r 0) (halfCol k 0)))
                 (x (ix2 (pairRow (H := 8192) (R := 4096) (by norm_num) r 0) (halfCol k 1))))
            (max (x (ix2 (pairRow (H := 8192) (R := 4096) (by norm_num) r 1) (halfCol k 0)))
                 (x (ix2 (pairRow (H := 8192) (R := 4096) (by norm_num) r 1) (halfCol k 1)))) := by
  refine congrArg₂ max ?_ ?_
  · refine (Cert.MatLayout.slice2_apply ![0, 0] _ ht0 r k r (halfCol k 0) (by show r.val = 0 + r.val; omega)
      (by show k.val + 128 * 0 = 0 + k.val; omega)).trans ?_
    exact (pairMerge_apply _ hc r 0 k).trans (halfMax_apply x hs0 hs1 _ k)
  · refine (Cert.MatLayout.slice2_apply ![0, 128] _ ht1 r k r (halfCol k 1) (by show r.val = 0 + r.val; omega)
      (by show k.val + 128 * 1 = 128 + k.val; omega)).trans ?_
    exact (pairMerge_apply _ hc r 1 k).trans (halfMax_apply x hs0 hs1 _ k)

/-- The same at image n of the block, whose rows n * 16 + r (r below 10) hold a ten-row array: the first five of the
    image's eight result rows are that array's pool. -/
theorem pool_layer (x : FVec Ideal S8192x256 .bf16)
    (hs0 : S8192x256.Slices ![0, 0] S8192x128) (hs1 : S8192x256.Slices ![0, 128] S8192x128)
    (hc : S8192x128.ShapeCasts S4096x256)
    (ht0 : S4096x256.Slices ![0, 0] S4096x128) (ht1 : S4096x256.Slices ![0, 128] S4096x128)
    (n : Fin 512) (a : Fin 10 → Fin 256 → EReal)
    (hx : ∀ (r : Fin 10) (c : Fin 256),
      x (ix2 (⟨n.val * 16 + r.val, by have := n.isLt; have := r.isLt; omega⟩ : Fin 8192) c) = a r c)
    (h : Fin 5) (k : Fin 128) :
    (maximumf
        (extractStridedSlice S4096x128 ![0, 0] (shapeCast S4096x256 (maximumf (extractStridedSlice S8192x128 ![0, 0] x hs0)
          (extractStridedSlice S8192x128 ![0, 128] x hs1) : FVec Ideal S8192x128 .bf16) hc) ht0)
        (extractStridedSlice S4096x128 ![0, 128] (shapeCast S4096x256 (maximumf (extractStridedSlice S8192x128 ![0, 0] x hs0)
          (extractStridedSlice S8192x128 ![0, 128] x hs1) : FVec Ideal S8192x128 .bf16) hc) ht1)
        : FVec Ideal S4096x128 .bf16) (ix2 (⟨n.val * 8 + h.val, by have := n.isLt; have := h.isLt; omega⟩ : Fin 4096) k)
      = pool (H := 10) (R := 5) (by norm_num) a h k := by
  refine (pool_apply x hs0 hs1 hc ht0 ht1 _ k).trans ?_
  have e : ∀ e : Fin 2, pairRow (H := 8192) (R := 4096) (by norm_num)
        (⟨n.val * 8 + h.val, by have := n.isLt; have := h.isLt; omega⟩ : Fin 4096) e
      = (⟨n.val * 16 + (pairRow (H := 10) (R := 5) (by norm_num) h e).val,
          by have := n.isLt; have := (pairRow (H := 10) (R := 5) (by norm_num) h e).isLt; omega⟩ : Fin 8192) := fun e =>
    Fin.ext (by show 2 * (n.val * 8 + h.val) + e.val = n.val * 16 + (2 * h.val + e.val); omega)
  rw [e 0, e 1, hx, hx, hx, hx]
  rfl

/-- The banded convolution at a row of the joined array that holds the five taps of row r of a 14-row array. -/
theorem conv_layer (d : DotDims S8192x640 S640x256 S8192x256) (hd : d = DotDims.plain 8192 640 256)
    (l : FVec Ideal S8192x640 .bf16) (w : Vec Ideal S640x256 .bf16) (b : Vec Ideal S1x256 .f32)
    (hsc : S640x256.ShapeCasts S640x256) (hb : S1x256.Broadcasts S8192x256) (hlt : FTy.bits .bf16 < FTy.bits .f32)
    (ρ : Fin 8192) (P : Fin 14 → Fin 128 → EReal) (r : Fin 10)
    (hrow : ∀ (t : Fin 5) (k : Fin 128),
      l (ix2 ρ (flatRow (T := 5) (K := 128) 640 (by norm_num) t k)) = P (tapRow (H := 14) (T := 5) (R := 10) (by norm_num) r t) k)
    (c : Fin 256) :
    (truncf .bf16 (maximumf (addf (matmul d none l (shapeCast S640x256 w hsc : FVec Ideal S640x256 .bf16) (constant S8192x256 .f32 0x00000000#32))
        (broadcastTo S8192x256 b hb)) (broadcast S8192x256 (Scalar.ofBits .f32 0x00000000#32))) hlt : FVec Ideal S8192x256 .bf16) (ix2 ρ c)
      = conv2 (tapsOfFlat (T := 5) (K := 128) (by norm_num) w) (biasRow b) P r c := by
  refine (dense_apply d hd l w b hsc hb hlt ρ c).trans ?_
  unfold conv2
  rw [sum_rowMajor (A := 5) (B := 128) (by norm_num)]
  refine congrArg (fun s => max (s + b (ix2 (0 : Fin 1) c)) Z) ?_
  exact Finset.sum_congr rfl fun t _ => Finset.sum_congr rfl fun k _ => congrArg (· * w (ix2 (flatRow (T := 5) (K := 128) 640 (by norm_num) t k) c)) (hrow t k)

/-- The first dense layer at image n: the image's eight rows of 128 lanes in one row of 1024 against a matrix whose last
    three blocks of 128 rows are zero; only the first five rows of the image count. -/
theorem dense1_layer (d : DotDims S512x1024 S1024x128 S512x128) (hd : d = DotDims.plain 512 1024 128)
    (y : FVec Ideal S4096x128 .bf16) (hc : S4096x128.ShapeCasts S512x1024)
    (w : Vec Ideal S1024x128 .bf16) (b : Vec Ideal S1x128 .f32)
    (hsc : S1024x128.ShapeCasts S1024x128) (hb : S1x128.Broadcasts S512x128) (hlt : FTy.bits .bf16 < FTy.bits .f32)
    (n : Fin 512) (p : Fin 5 → Fin 128 → EReal)
    (hy : ∀ (h : Fin 5) (k : Fin 128),
      y (ix2 (⟨n.val * 8 + h.val, by have := n.isLt; have := h.isLt; omega⟩ : Fin 4096) k) = p h k)
    (hw : ∀ (h : Fin 8) (k : Fin 128) (c : Fin 128), 5 ≤ h.val →
      w (ix2 (flatRow (T := 8) (K := 128) 1024 (by norm_num) h k) c) = 0)
    (c : Fin 128) :
    (truncf .bf16 (maximumf (addf (matmul d none (shapeCast S512x1024 y hc : FVec Ideal S512x1024 .bf16)
        (shapeCast S1024x128 w hsc : FVec Ideal S1024x128 .bf16) (constant S512x128 .f32 0x00000000#32))
        (broadcastTo S512x128 b hb)) (broadcast S512x128 (Scalar.ofBits .f32 0x00000000#32))) hlt : FVec Ideal S512x128 .bf16) (ix2 n c)
      = dense1 (fun h k c' => w (ix2 (flatRow (T := 8) (K := 128) 1024 (by norm_num) ⟨h.val, by have := h.isLt; omega⟩ k) c'))
          (biasRow b) p c := by
  refine (dense_apply d hd _ w b hsc hb hlt n c).trans ?_
  unfold dense1
  rw [sum_rowMajor (A := 8) (B := 128) (by norm_num)]
  refine congrArg (fun s => max (s + b (ix2 (0 : Fin 1) c)) Z) ?_
  refine (Cert.PlainDot.sum_two_blocks (a := 5) (b := 3) rfl _
    (fun h : Fin 5 => ∑ k : Fin 128, p h k * w (ix2 (flatRow (T := 8) (K := 128) 1024 (by norm_num) ⟨h.val, by have := h.isLt; omega⟩ k) c))
    (fun _ => 0) (fun h => ?_) (fun j => ?_)).trans ?_
  · refine Finset.sum_congr rfl fun k _ => congrArg (· * w (ix2 (flatRow (T := 8) (K := 128) 1024 (by norm_num) ⟨h.val, by have := h.isLt; omega⟩ k) c)) ?_
    exact (merge8_apply y hc n ⟨h.val, by have := h.isLt; omega⟩ k).trans (hy h k)
  · refine Finset.sum_eq_zero fun k _ => ?_
    have h0 := hw ⟨5 + j.val, by have := j.isLt; omega⟩ k c (by show 5 ≤ 5 + j.val; omega)
    exact (congrArg (_ * ·) h0).trans (mul_zero _)
  · rw [Finset.sum_const_zero, add_zero]

/-- A plain dense layer on a row that holds a given vector. -/
theorem dense2_layer (d : DotDims S512x128 S128x128 S512x128) (hd : d = DotDims.plain 512 128 128)
    (l : FVec Ideal S512x128 .bf16) (w : Vec Ideal S128x128 .bf16) (b : Vec Ideal S1x128 .f32)
    (hsc : S128x128.ShapeCasts S128x128) (hb : S1x128.Broadcasts S512x128) (hlt : FTy.bits .bf16 < FTy.bits .f32)
    (n : Fin 512) (V : Fin 128 → EReal) (hl : ∀ k : Fin 128, l (ix2 n k) = V k) (c : Fin 128) :
    (truncf .bf16 (maximumf (addf (matmul d none l (shapeCast S128x128 w hsc : FVec Ideal S128x128 .bf16) (constant S512x128 .f32 0x00000000#32))
        (broadcastTo S512x128 b hb)) (broadcast S512x128 (Scalar.ofBits .f32 0x00000000#32))) hlt : FVec Ideal S512x128 .bf16) (ix2 n c)
      = dense2 (matOf w) (biasRow b) V c := by
  refine (dense_apply d hd l w b hsc hb hlt n c).trans ?_
  unfold dense2
  refine congrArg (fun s => max (s + b (ix2 (0 : Fin 1) c)) Z) ?_
  exact Finset.sum_congr rfl fun k _ => congrArg (· * w (ix2 k c)) (hl k)

/-- Second convolution, second pool and the first two dense layers, at image n of the block: from five arrays that
    hold, at rows n * 16 + r (r below 10), the rows r, r + 1, …, r + 4 of a 14-row activation P. -/
theorem pay8_apply (v31 v34 v37 v40 : FVec Ideal S8192x128 .bf16) (v41 : FVec Ideal S4x128 .bf16)
    (v42 : FVec Ideal S8188x128 .bf16) (v45 : Vec Ideal S640x256 .bf16) (v48 : Vec Ideal S1x256 .f32)
    (v62 : Vec Ideal S1024x128 .bf16) (v65 : Vec Ideal S1x128 .f32) (v71 : Vec Ideal S128x128 .bf16)
    (v74 : Vec Ideal S1x128 .f32) (n : Fin 512) (P : Fin 14 → Fin 128 → EReal)
    (h0 : ∀ (r : Fin 10) (k : Fin 128),
      v31 (ix2 (⟨n.val * 16 + r.val, by have := n.isLt; have := r.isLt; omega⟩ : Fin 8192) k)
        = P (tapRow (H := 14) (T := 5) (R := 10) (by norm_num) r 0) k)
    (h1 : ∀ (r : Fin 10) (k : Fin 128),
      v34 (ix2 (⟨n.val * 16 + r.val, by have := n.isLt; have := r.isLt; omega⟩ : Fin 8192) k)
        = P (tapRow (H := 14) (T := 5) (R := 10) (by norm_num) r 1) k)
    (h2 : ∀ (r : Fin 10) (k : Fin 128),
      v37 (ix2 (⟨n.val * 16 + r.val, by have := n.isLt; have := r.isLt; omega⟩ : Fin 8192) k)
        = P (tapRow (H := 14) (T := 5) (R := 10) (by norm_num) r 2) k)
    (h3 : ∀ (r : Fin 10) (k : Fin 128),
      v40 (ix2 (⟨n.val * 16 + r.val, by have := n.isLt; have := r.isLt; omega⟩ : Fin 8192) k)
        = P (tapRow (H := 14) (T := 5) (R := 10) (by norm_num) r 3) k)
    (h4 : ∀ (r : Fin 10) (k : Fin 128),
      v42 (ix2 (⟨n.val * 16 + r.val, by have := n.isLt; have := r.isLt; omega⟩ : Fin 8188) k)
        = P (tapRow (H := 14) (T := 5) (R := 10) (by norm_num) r 4) k)
    (hw : ∀ (h : Fin 8) (k : Fin 128) (c : Fin 128), 5 ≤ h.val →
      v62 (ix2 (flatRow (T := 8) (K := 128) 1024 (by norm_num) h k) c) = 0)
    (c : Fin 128) :
    k0_pay8 (F := Ideal) v31 v34 v37 v40 v41 v42 v45 v48 v62 v65 v71 v74 (ix2 n c)
      = dense2 (matOf v71) (biasRow v74)
          (dense1 (fun h k c' => v62 (ix2 (flatRow (T := 8) (K := 128) 1024 (by norm_num) ⟨h.val, by have := h.isLt; omega⟩ k) c')) (biasRow v65)
            (pool (H := 10) (R := 5) (by norm_num) (conv2 (tapsOfFlat (T := 5) (K := 128) (by norm_num) v45) (biasRow v48) P))) c := by
  unfold k0_pay8
  refine dense2_layer _ rfl _ v71 v74 _ _ _ n _ (fun k => ?_) c
  refine dense1_layer _ rfl _ _ v62 v65 _ _ _ n _ (fun h k' => ?_) hw k
  refine pool_layer _ _ _ _ _ _ n _ (fun r c' => ?_) h k'
  refine conv_layer _ rfl _ v45 v48 _ _ _ _ P r (fun t k'' => ?_) c'
  refine (join5_apply v31 v34 v37 v40 _ _ _ t k'').trans ?_
  match t with
  | ⟨0, _⟩ => exact h0 r k''
  | ⟨1, _⟩ => exact h1 r k''
  | ⟨2, _⟩ => exact h2 r k''
  | ⟨3, _⟩ => exact h3 r k''
  | ⟨4, _⟩ =>
    exact (stackTop_apply v42 v41 Facts₀.concatenates_S8188x128_S4x128_S8192x128_d0 _ ⟨n.val * 16 + r.val, by have := n.isLt; have := r.isLt; omega⟩ rfl k'').trans (h4 r k'')

/-- The last dense layer and the cut to ten lanes. -/
theorem pay1_apply (v79 : FVec Ideal S512x128 .bf16) (v81 : FVec Ideal S128x128 .bf16) (v83 : Vec Ideal S1x128 .f32)
    (n : Fin 512) (j : Fin 10) :
    k0_pay1 (F := Ideal) v79 v81 (constant S512x128 .f32 0x00000000#32) v83 (ix2 n j)
      = dense3 (matOf v81) (biasRow v83) (fun k => v79 (ix2 n k)) ⟨j.val, by have := j.isLt; omega⟩ := by
  unfold k0_pay1
  refine (Cert.MatLayout.slice2_apply ![0, 0] _ _ n j n ⟨j.val, by have := j.isLt; omega⟩ (by show n.val = 0 + n.val; omega)
    (by show j.val = 0 + j.val; omega)).trans ?_
  refine (congrArg₂ (· + ·) (Cert.PlainDot.matmul_zero_apply _ rfl none v79 v81 n _) (broadcastTo_1b_ab_apply v83 _ n _)).trans ?_
  rfl

end Cert.KernelIdeal.Block

end
-- ==== Proof.KBlock.lean ====
/-
  One grid point of the fused kernel, as values: the block it writes back holds, at image n of the block and lane j
  below ten, the network's output lane j on image n — the first pooled activation read at the rows the second
  convolution's five shifted copies ask for, the surplus rows of the last merge meeting zero weights only.
-/
import proofs.«134189_g2000305662181196_pallasbulk_93_21_alg».proof.Proof.Gen.KernelIdeal.Frame
import proofs.«134189_g2000305662181196_pallasbulk_93_21_alg».proof.Proof.KConv1
import proofs.«134189_g2000305662181196_pallasbulk_93_21_alg».proof.Proof.KTail

noncomputable section

namespace Cert.KernelIdeal.Block

open Cert.KernelIdeal Cert.KernelIdeal.Gen Cert.LeNet Idealize.ShloMosaic Idealize.ShloMosaic.ValueIdx

theorem hz2 : (![0, 0] : Fin 2 → Nat) = fun _ => 0 := funext fun a => by fin_cases a <;> rfl

/-- The block a grid point writes back, read at image n and lane j, from the blocks it loads: the 512 images x0,
    the flattened band matrices x1 and x3, the merged dense matrix x5 whose rows from 640 on are zero, the dense
    matrices x7 and x9 and the five bias rows. -/
theorem kernel_block (x0 : Vec Ideal S16384x32 .f32) (x1 : Vec Ideal S160x256 .bf16) (x2 : Vec Ideal S1x256 .f32)
    (x3 : Vec Ideal S640x256 .bf16) (x4 : Vec Ideal S1x256 .f32) (x5 : Vec Ideal S1024x128 .bf16)
    (x6 : Vec Ideal S1x128 .f32) (x7 : Vec Ideal S128x128 .bf16) (x8 : Vec Ideal S1x128 .f32)
    (x9 : Vec Ideal S128x128 .bf16) (x10 : Vec Ideal S1x128 .f32)
    (hw : ∀ (h : Fin 8) (k : Fin 128) (c : Fin 128), 5 ≤ h.val →
      x5 (ix2 (flatRow (T := 8) (K := 128) 1024 (by norm_num) h k) c) = 0)
    (n : Fin 512) (j : Fin 10) :
    out0_11 (F := Ideal) x0 x1 x2 x3 x4 x5 x6 x7 x8 x9 x10 (ix2 n j)
      = lenet (tapsOfFlat (T := 5) (K := 32) (by norm_num) x1) (biasRow x2)
          (tapsOfFlat (T := 5) (K := 128) (by norm_num) x3) (biasRow x4)
          (fun h k c' => x5 (ix2 (flatRow (T := 8) (K := 128) 1024 (by norm_num) ⟨h.val, by have := h.isLt; omega⟩ k) c'))
          (biasRow x6) (matOf x7) (biasRow x8) (matOf x9) (biasRow x10)
          (imgOfStack (N := 512) (by norm_num) x0 n) ⟨j.val, by have := j.isLt; omega⟩ := by
  unfold out0_11
  rw [View.canon_unit_zero hz2]
  simp only [View.ld_unit_zero (S := S16384x32) hz2, View.ld_unit_zero (S := S160x256) hz2,
    View.ld_unit_zero (S := S1x256) hz2, View.ld_unit_zero (S := S640x256) hz2,
    View.ld_unit_zero (S := S1024x128) hz2, View.ld_unit_zero (S := S1x128) hz2,
    View.ld_unit_zero (S := S128x128) hz2]
  refine (pay1_apply _ _ _ n j).trans ?_
  have e9 : k0_pay9 (F := Ideal) x9 = x9 := by unfold k0_pay9; exact shapeCast_self _ _
  have e8 : (fun k : Fin 128 => k0_pay8 (F := Ideal) (k0_pay2 x0 x1 x2) (k0_pay3 x0 x1 x2) (k0_pay4 x0 x1 x2)
        (k0_pay5 x0 x1 x2) k0_pay6 (k0_pay7 x0 x1 x2) x3 x4 x5 x6 x7 x8 (ix2 n k))
      = dense2 (matOf x7) (biasRow x8)
          (dense1 (fun h k c' => x5 (ix2 (flatRow (T := 8) (K := 128) 1024 (by norm_num) ⟨h.val, by have := h.isLt; omega⟩ k) c'))
            (biasRow x6)
            (pool (H := 10) (R := 5) (by norm_num)
              (conv2 (tapsOfFlat (T := 5) (K := 128) (by norm_num) x3) (biasRow x4)
                (act1 (tapsOfFlat (T := 5) (K := 32) (by norm_num) x1) (biasRow x2) (imgOfStack (N := 512) (by norm_num) x0 n))))) :=
    funext fun k => pay8_apply _ _ _ _ _ _ x3 x4 x5 x6 x7 x8 n _
      (fun r k' => pay2_apply x0 x1 x2 n ⟨r.val + 0, by have := r.isLt; omega⟩ k')
      (fun r k' => pay3_apply x0 x1 x2 n r k') (fun r k' => pay4_apply x0 x1 x2 n r k')
      (fun r k' => pay5_apply x0 x1 x2 n r k') (fun r k' => pay7_apply x0 x1 x2 n r k') hw k
  rw [e9, e8]
  rfl

end Cert.KernelIdeal.Block

end
-- ==== Proof.Whole.lean ====
/-
  The result array both programs end with: entry (b, j) of an 8192×10 array is output lane j of the network on
  image b of the batch, the weights read from the ten folded weight arrays as they are given.
-/
import proofs.«134189_g2000305662181196_pallasbulk_93_21_alg».proof.Proof.Layout

noncomputable section

namespace Cert.LeNet

open Idealize.ShloMosaic Idealize.ShloMosaic.ValueIdx

/-- Output lane j (below ten) of the network on image b of the batch. -/
def netAt (a0 : (⟨3, ![5, 32, 256]⟩ : Shape).Idx → EReal) (a1 : (⟨2, ![1, 256]⟩ : Shape).Idx → EReal)
    (a2 : (⟨3, ![5, 128, 256]⟩ : Shape).Idx → EReal) (a3 : (⟨2, ![1, 256]⟩ : Shape).Idx → EReal)
    (a4 : (⟨3, ![5, 128, 128]⟩ : Shape).Idx → EReal) (a5 : (⟨2, ![1, 128]⟩ : Shape).Idx → EReal)
    (a6 : (⟨2, ![128, 128]⟩ : Shape).Idx → EReal) (a7 : (⟨2, ![1, 128]⟩ : Shape).Idx → EReal)
    (a8 : (⟨2, ![128, 128]⟩ : Shape).Idx → EReal) (a9 : (⟨2, ![1, 128]⟩ : Shape).Idx → EReal)
    (a10 : (⟨4, ![8192, 1, 32, 32]⟩ : Shape).Idx → EReal) (b : Fin 8192) (j : Fin 10) : EReal :=
  lenet (tapsOfStack a0) (biasRow a1) (tapsOfStack a2) (biasRow a3) (tapsOfStack a4) (biasRow a5)
    (matOf a6) (biasRow a7) (matOf a8) (biasRow a9) (fun r q => a10 (ix4 b (0 : Fin 1) r q))
    ⟨j.val, by have := j.isLt; omega⟩

/-- The 8192×10 result array. -/
def netOut (a0 : (⟨3, ![5, 32, 256]⟩ : Shape).Idx → EReal) (a1 : (⟨2, ![1, 256]⟩ : Shape).Idx → EReal)
    (a2 : (⟨3, ![5, 128, 256]⟩ : Shape).Idx → EReal) (a3 : (⟨2, ![1, 256]⟩ : Shape).Idx → EReal)
    (a4 : (⟨3, ![5, 128, 128]⟩ : Shape).Idx → EReal) (a5 : (⟨2, ![1, 128]⟩ : Shape).Idx → EReal)
    (a6 : (⟨2, ![128, 128]⟩ : Shape).Idx → EReal) (a7 : (⟨2, ![1, 128]⟩ : Shape).Idx → EReal)
    (a8 : (⟨2, ![128, 128]⟩ : Shape).Idx → EReal) (a9 : (⟨2, ![1, 128]⟩ : Shape).Idx → EReal)
    (a10 : (⟨4, ![8192, 1, 32, 32]⟩ : Shape).Idx → EReal) : (⟨2, ![8192, 10]⟩ : Shape).Idx → EReal :=
  fun i => netAt a0 a1 a2 a3 a4 a5 a6 a7 a8 a9 a10 ⟨(i 0).val, idx2_lt0 i⟩ ⟨(i 1).val, idx2_lt1 i⟩

theorem netOut_apply (a0 : (⟨3, ![5, 32, 256]⟩ : Shape).Idx → EReal) (a1 : (⟨2, ![1, 256]⟩ : Shape).Idx → EReal)
    (a2 : (⟨3, ![5, 128, 256]⟩ : Shape).Idx → EReal) (a3 : (⟨2, ![1, 256]⟩ : Shape).Idx → EReal)
    (a4 : (⟨3, ![5, 128, 128]⟩ : Shape).Idx → EReal) (a5 : (⟨2, ![1, 128]⟩ : Shape).Idx → EReal)
    (a6 : (⟨2, ![128, 128]⟩ : Shape).Idx → EReal) (a7 : (⟨2, ![1, 128]⟩ : Shape).Idx → EReal)
    (a8 : (⟨2, ![128, 128]⟩ : Shape).Idx → EReal) (a9 : (⟨2, ![1, 128]⟩ : Shape).Idx → EReal)
    (a10 : (⟨4, ![8192, 1, 32, 32]⟩ : Shape).Idx → EReal) (b : Fin 8192) (j : Fin 10) :
    netOut a0 a1 a2 a3 a4 a5 a6 a7 a8 a9 a10 (ix2 b j) = netAt a0 a1 a2 a3 a4 a5 a6 a7 a8 a9 a10 b j := rfl

end Cert.LeNet

end
-- ==== Proof.KArray.lean ====
/-
  The fused kernel's whole run, as values: the sixteen grid points write sixteen disjoint blocks of 512 rows that
  together fill the 8192×10 result array, and the block of point t holds the network's ten output lanes of images
  512 t … 512 t + 511. Before the launch the host only re-lays the operands out: the batch as 262144 rows of 32, the
  two band stacks flattened along their rows, the dense stack extended by three zero matrices and flattened likewise
  (format changes are the identity over the extended reals).
-/
import proofs.«134189_g2000305662181196_pallasbulk_93_21_alg».proof.Proof.Gen.KernelIdeal.Value
import proofs.«134189_g2000305662181196_pallasbulk_93_21_alg».proof.Proof.KBlock
import proofs.«134189_g2000305662181196_pallasbulk_93_21_alg».proof.Proof.Whole
import Idealize.ShloMosaic.Lib.StableHlo.Run

noncomputable section

namespace Cert.KernelIdeal.Whole

open Cert.KernelIdeal Cert.KernelIdeal.Gen Cert.LeNet Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The operands as the host lays them out before the launch -/

theorem batchRows_term (c : Dev nD) :
    (V m c main_v0 : S262144x32.Idx → EReal)
      = shapeCast S262144x32 (m ((c : Thread nD τ).loc main_arg10) : S8192x1x32x32.Idx → EReal) shapeCasts_S8192x1x32x32_S262144x32 := by
  dsimp only [Gen.V, Gen.hostOps0]
  after_results
  rfl

/-- Row B * 32 + r of the re-laid batch is row r of image B. -/
theorem batchRows_apply (c : Dev nD) (B : Fin 8192) (r q : Fin 32) (R : Fin 262144) (hR : R.val = B.val * 32 + r.val) :
    (V m c main_v0 : S262144x32.Idx → EReal) (ix2 R q)
      = (m ((c : Thread nD τ).loc main_arg10) : S8192x1x32x32.Idx → EReal) (ix4 B (0 : Fin 1) r q) := by
  rw [batchRows_term]
  refine shapeCast_apply _ _ _ (ix4 B (0 : Fin 1) r q) ?_
  rw [Shape.rowMajor_val_two, Shape.rowMajor_val_four]
  show ((B.val * 1 + 0) * 32 + r.val) * 32 + q.val = R.val * 32 + q.val
  omega

theorem band1_term (c : Dev nD) :
    (V m c main_v2 : S160x256.Idx → EReal)
      = shapeCast S160x256 (m ((c : Thread nD τ).loc main_arg0) : S5x32x256.Idx → EReal) shapeCasts_S5x32x256_S160x256 := by
  dsimp only [Gen.V, Gen.hostOps0]
  after_results
  rfl

/-- Row d * 32 + k of the flattened first band stack is row k of band d. -/
theorem band1_apply (c : Dev nD) (d : Fin 5) (k : Fin 32) (c' : Fin 256) (R : Fin 160) (hR : R.val = d.val * 32 + k.val) :
    (V m c main_v2 : S160x256.Idx → EReal) (ix2 R c')
      = (m ((c : Thread nD τ).loc main_arg0) : S5x32x256.Idx → EReal) (ix3 d k c') := by
  rw [band1_term]
  refine shapeCast_apply _ _ _ (ix3 d k c') ?_
  rw [Shape.rowMajor_val_two, Shape.rowMajor_val_three]
  show (d.val * 32 + k.val) * 256 + c'.val = R.val * 256 + c'.val
  omega

theorem band2_term (c : Dev nD) :
    (V m c main_v4 : S640x256.Idx → EReal)
      = shapeCast S640x256 (m ((c : Thread nD τ).loc main_arg2) : S5x128x256.Idx → EReal) shapeCasts_S5x128x256_S640x256 := by
  dsimp only [Gen.V, Gen.hostOps0]
  after_results
  rfl

/-- Row d * 128 + k of the flattened second band stack is row k of band d. -/
theorem band2_apply (c : Dev nD) (d : Fin 5) (k : Fin 128) (c' : Fin 256) (R : Fin 640) (hR : R.val = d.val * 128 + k.val) :
    (V m c main_v4 : S640x256.Idx → EReal) (ix2 R c')
      = (m ((c : Thread nD τ).loc main_arg2) : S5x128x256.Idx → EReal) (ix3 d k c') := by
  rw [band2_term]
  refine shapeCast_apply _ _ _ (ix3 d k c') ?_
  rw [Shape.rowMajor_val_two, Shape.rowMajor_val_three]
  show (d.val * 128 + k.val) * 256 + c'.val = R.val * 256 + c'.val
  omega

theorem dense1_term (c : Dev nD) :
    (V m c main_v8 : S1024x128.Idx → EReal)
      = shapeCast S1024x128
          (concatenate S8x128x128 0
            [⟨S5x128x128, (m ((c : Thread nD τ).loc main_arg4) : S5x128x128.Idx → EReal)⟩,
             ⟨S3x128x128, broadcastInDim S3x128x128 ![] bcast_S_S3x128x128 (constant (F := Ideal) S_ .f32 0x00000000#32)⟩]
            concatenates_S5x128x128_S3x128x128_S8x128x128_d0)
          shapeCasts_S8x128x128_S1024x128 := by
  dsimp only [Gen.V, Gen.hostOps0]
  after_results
  rfl

theorem mat2_term (c : Dev nD) :
    (V m c main_v9 : S128x128.Idx → EReal) = (m ((c : Thread nD τ).loc main_arg6) : S128x128.Idx → EReal) := by
  dsimp only [Gen.V, Gen.hostOps0]
  after_results
  rfl

theorem mat3_term (c : Dev nD) :
    (V m c main_v10 : S128x128.Idx → EReal) = (m ((c : Thread nD τ).loc main_arg8) : S128x128.Idx → EReal) := by
  dsimp only [Gen.V, Gen.hostOps0]
  after_results
  rfl

/-- Row h * 128 + k of the extended, flattened dense stack is row k of matrix h, for the five given matrices. -/
theorem dense1_apply_lo (c : Dev nD) (h : Fin 5) (k c' : Fin 128) (R : Fin 1024) (hR : R.val = h.val * 128 + k.val) :
    (V m c main_v8 : S1024x128.Idx → EReal) (ix2 R c')
      = (m ((c : Thread nD τ).loc main_arg4) : S5x128x128.Idx → EReal) (ix3 h k c') := by
  rw [dense1_term]
  refine (shapeCast_apply _ _ _ (ix3 (⟨h.val, by have := h.isLt; omega⟩ : Fin 8) k c') ?_).trans ?_
  · rw [Shape.rowMajor_val_two, Shape.rowMajor_val_three]
    show (h.val * 128 + k.val) * 128 + c'.val = R.val * 128 + c'.val
    omega
  · refine concatenate_pair_apply_left (t := S8x128x128) (s₁ := S5x128x128) (s₂ := S3x128x128) (0 : Fin 3) _ _ _ _ rfl (ix3 h k c') ?_
    intro b
    match b with
    | ⟨0, _⟩ => rfl
    | ⟨1, _⟩ => rfl
    | ⟨2, _⟩ => rfl

/-- The three matrices the host appends are zero. -/
theorem dense1_apply_hi (c : Dev nD) (h : Fin 8) (hh : 5 ≤ h.val) (k c' : Fin 128) (R : Fin 1024) (hR : R.val = h.val * 128 + k.val) :
    (V m c main_v8 : S1024x128.Idx → EReal) (ix2 R c') = (0 : EReal) := by
  rw [dense1_term]
  refine (shapeCast_apply _ _ _ (ix3 h k c') ?_).trans ?_
  · rw [Shape.rowMajor_val_two, Shape.rowMajor_val_three]
    show (h.val * 128 + k.val) * 128 + c'.val = R.val * 128 + c'.val
    omega
  · refine (concatenate_pair_apply_right (t := S8x128x128) (s₁ := S5x128x128) (s₂ := S3x128x128) (0 : Fin 3) _ _ _ _ rfl rfl (ix3 (⟨h.val - 5, by have := h.isLt; omega⟩ : Fin 3) k c') ?_ ?_).trans ?_
    · intro b hb
      match b with
      | ⟨0, _⟩ => exact absurd rfl hb
      | ⟨1, _⟩ => rfl
      | ⟨2, _⟩ => rfl
    · show (h.val - 5) + 5 = h.val
      omega
    · refine (broadcastInDim_apply _ _ _ _ ix0 (fun a => a.elim0)).trans ?_
      exact Ideal.ofBits_zero_f32

/-! ## The blocks the windows hand a grid point -/

/-- The printed index maps over the grid: the batch window and the result window move with the point along the rows,
    every other window stays on its whole array. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0 :=
  (by decide +kernel : ∀ t : Fin grid0.N, _)

/-- Point t's block of the re-laid batch is rows 16384 t … 16384 t + 16383. -/
theorem blk0_apply (c : Dev nD) (t : Fin cfg0.N) (y : S16384x32.Idx) (R : Fin 262144) (hR : R.val = t.val * 16384 + (y 0).val) :
    (iblk m c 0 t : Vec Ideal S16384x32 .f32) y = (V m c main_v0 : S262144x32.Idx → EReal) (ix2 R (y 1)) := by
  obtain ⟨e0, e1, -, -, -, -, -, -, -, -, -, -, -, -, -, -, -, -, -, -, -, -, -, -⟩ := idx_facts t
  show (V m c main_v0 : S262144x32.Idx → EReal) (((cfg0.win 0).blk t).view.emb y) = _
  refine congrArg (V m c main_v0 : S262144x32.Idx → EReal) (funext fun a => Fin.ext ?_)
  match a with
  | ⟨0, _⟩ => show win0_0.index t (0 : Fin 2) * 16384 + 1 * (y 0).val = R.val; omega
  | ⟨1, _⟩ => show win0_0.index t (1 : Fin 2) * 32 + 1 * (y 1).val = (y 1).val; omega

theorem blk1_apply (c : Dev nD) (t : Fin cfg0.N) (y : S160x256.Idx) :
    (iblk m c 1 t : Vec Ideal S160x256 .bf16) y = (V m c main_v2 : S160x256.Idx → EReal) y := by
  obtain ⟨-, -, e0, e1, -, -, -, -, -, -, -, -, -, -, -, -, -, -, -, -, -, -, -, -⟩ := idx_facts t
  show (V m c main_v2 : S160x256.Idx → EReal) (((cfg0.win 1).blk t).view.emb y) = _
  refine congrArg (V m c main_v2 : S160x256.Idx → EReal) (funext fun a => Fin.ext ?_)
  match a with
  | ⟨0, _⟩ => show win0_1.index t (0 : Fin 2) * 160 + 1 * (y 0).val = (y 0).val; omega
  | ⟨1, _⟩ => show win0_1.index t (1 : Fin 2) * 256 + 1 * (y 1).val = (y 1).val; omega

theorem blk2_apply (c : Dev nD) (t : Fin cfg0.N) (y : S1x256.Idx) :
    (iblk m c 2 t : Vec Ideal S1x256 .f32) y = (V m c main_arg1 : S1x256.Idx → EReal) y := by
  obtain ⟨-, -, -, -, e0, e1, -, -, -, -, -, -, -, -, -, -, -, -, -, -, -, -, -, -⟩ := idx_facts t
  show (V m c main_arg1 : S1x256.Idx → EReal) (((cfg0.win 2).blk t).view.emb y) = _
  refine congrArg (V m c main_arg1 : S1x256.Idx → EReal) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

theorem blk3_apply (c : Dev nD) (t : Fin cfg0.N) (y : S640x256.Idx) :
    (iblk m c 3 t : Vec Ideal S640x256 .bf16) y = (V m c main_v4 : S640x256.Idx → EReal) y := by
  obtain ⟨-, -, -, -, -, -, e0, e1, -, -, -, -, -, -, -, -, -, -, -, -, -, -, -, -⟩ := idx_facts t
  show (V m c main_v4 : S640x256.Idx → EReal) (((cfg0.win 3).blk t).view.emb y) = _
  refine congrArg (V m c main_v4 : S640x256.Idx → EReal) (funext fun a => Fin.ext ?_)
  match a with
  | ⟨0, _⟩ => show win0_3.index t (0 : Fin 2) * 640 + 1 * (y 0).val = (y 0).val; omega
  | ⟨1, _⟩ => show win0_3.index t (1 : Fin 2) * 256 + 1 * (y 1).val = (y 1).val; omega

theorem blk4_apply (c : Dev nD) (t : Fin cfg0.N) (y : S1x256.Idx) :
    (iblk m c 4 t : Vec Ideal S1x256 .f32) y = (V m c main_arg3 : S1x256.Idx → EReal) y := by
  obtain ⟨-, -, -, -, -, -, -, -, e0, e1, -, -, -, -, -, -, -, -, -, -, -, -, -, -⟩ := idx_facts t
  show (V m c main_arg3 : S1x256.Idx → EReal) (((cfg0.win 4).blk t).view.emb y) = _
  refine congrArg (V m c main_arg3 : S1x256.Idx → EReal) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem blk5_apply (c : Dev nD) (t : Fin cfg0.N) (y : S1024x128.Idx) :
    (iblk m c 5 t : Vec Ideal S1024x128 .bf16) y = (V m c main_v8 : S1024x128.Idx → EReal) y := by
  obtain ⟨-, -, -, -, -, -, -, -, -, -, e0, e1, -, -, -, -, -, -, -, -, -, -, -, -⟩ := idx_facts t
  show (V m c main_v8 : S1024x128.Idx → EReal) (((cfg0.win 5).blk t).view.emb y) = _
  refine congrArg (V m c main_v8 : S1024x128.Idx → EReal) (funext fun a => Fin.ext ?_)
  match a with
  | ⟨0, _⟩ => show win0_5.index t (0 : Fin 2) * 1024 + 1 * (y 0).val = (y 0).val; omega
  | ⟨1, _⟩ => show win0_5.index t (1 : Fin 2) * 128 + 1 * (y 1).val = (y 1).val; omega

theorem blk6_apply (c : Dev nD) (t : Fin cfg0.N) (y : S1x128.Idx) :
    (iblk m c 6 t : Vec Ideal S1x128 .f32) y = (V m c main_arg5 : S1x128.Idx → EReal) y := by
  obtain ⟨-, -, -, -, -, -, -, -, -, -, -, -, e0, e1, -, -, -, -, -, -, -, -, -, -⟩ := idx_facts t
  show (V m c main_arg5 : S1x128.Idx → EReal) (((cfg0.win 6).blk t).view.emb y) = _
  refine congrArg (V m c main_arg5 : S1x128.Idx → EReal) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem blk7_apply (c : Dev nD) (t : Fin cfg0.N) (y : S128x128.Idx) :
    (iblk m c 7 t : Vec Ideal S128x128 .bf16) y = (V m c main_v9 : S128x128.Idx → EReal) y := by
  obtain ⟨-, -, -, -, -, -, -, -, -, -, -, -, -, -, e0, e1, -, -, -, -, -, -, -, -⟩ := idx_facts t
  show (V m c main_v9 : S128x128.Idx → EReal) (((cfg0.win 7).blk t).view.emb y) = _
  refine congrArg (V m c main_v9 : S128x128.Idx → EReal) (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem blk8_apply (c : Dev nD) (t : Fin cfg0.N) (y : S1x128.Idx) :
    (iblk m c 8 t : Vec Ideal S1x128 .f32) y = (V m c main_arg7 : S1x128.Idx → EReal) y := by
  obtain ⟨-, -, -, -, -, -, -, -, -, -, -, -, -, -, -, -, e0, e1, -, -, -, -, -, -⟩ := idx_facts t
  show (V m c main_arg7 : S1x128.Idx → EReal) (((cfg0.win 8).blk t).view.emb y) = _
  refine congrArg (V m c main_arg7 : S1x128.Idx → EReal) (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem blk9_apply (c : Dev nD) (t : Fin cfg0.N) (y : S128x128.Idx) :
    (iblk m c 9 t : Vec Ideal S128x128 .bf16) y = (V m c main_v10 : S128x128.Idx → EReal) y := by
  obtain ⟨-, -, -, -, -, -, -, -, -, -, -, -, -, -, -, -, -, -, e0, e1, -, -, -, -⟩ := idx_facts t
  show (V m c main_v10 : S128x128.Idx → EReal) (((cfg0.win 9).blk t).view.emb y) = _
  refine congrArg (V m c main_v10 : S128x128.Idx → EReal) (funext fun a => Fin.ext ?_)
  match a with
  | ⟨0, _⟩ => show win0_9.index t (0 : Fin 2) * 128 + 1 * (y 0).val = (y 0).val; omega
  | ⟨1, _⟩ => show win0_9.index t (1 : Fin 2) * 128 + 1 * (y 1).val = (y 1).val; omega

theorem blk10_apply (c : Dev nD) (t : Fin cfg0.N) (y : S1x128.Idx) :
    (iblk m c 10 t : Vec Ideal S1x128 .f32) y = (V m c main_arg9 : S1x128.Idx → EReal) y := by
  obtain ⟨-, -, -, -, -, -, -, -, -, -, -, -, -, -, -, -, -, -, -, -, e0, e1, -, -⟩ := idx_facts t
  show (V m c main_arg9 : S1x128.Idx → EReal) (((cfg0.win 10).blk t).view.emb y) = _
  refine congrArg (V m c main_arg9 : S1x128.Idx → EReal) (funext fun a => Fin.ext ?_)
  match a with
  | ⟨0, _⟩ => show win0_10.index t (0 : Fin 2) * 1 + 1 * (y 0).val = (y 0).val; omega
  | ⟨1, _⟩ => show win0_10.index t (1 : Fin 2) * 128 + 1 * (y 1).val = (y 1).val; omega

/-! ## One grid point -/

/-- The network on equal operands. -/
theorem lenet_eq_of {W1 W1' : Fin 5 → Fin 32 → Fin 256 → EReal} {B1 B1' : Fin 256 → EReal}
    {W2 W2' : Fin 5 → Fin 128 → Fin 256 → EReal} {B2 B2' : Fin 256 → EReal}
    {W3 W3' : Fin 5 → Fin 128 → Fin 128 → EReal} {B3 B3' : Fin 128 → EReal}
    {W4 W4' : Fin 128 → Fin 128 → EReal} {B4 B4' : Fin 128 → EReal}
    {W5 W5' : Fin 128 → Fin 128 → EReal} {B5 B5' : Fin 128 → EReal} {img img' : Fin 32 → Fin 32 → EReal}
    (h1 : W1 = W1') (h2 : B1 = B1') (h3 : W2 = W2') (h4 : B2 = B2') (h5 : W3 = W3') (h6 : B3 = B3')
    (h7 : W4 = W4') (h8 : B4 = B4') (h9 : W5 = W5') (h10 : B5 = B5') (h11 : img = img') (j : Fin 128) :
    lenet W1 B1 W2 B2 W3 B3 W4 B4 W5 B5 img j = lenet W1' B1' W2' B2' W3' B3' W4' B4' W5' B5' img' j := by
  subst h1 h2 h3 h4 h5 h6 h7 h8 h9 h10 h11
  rfl

/-- What point t leaves for image n of its block and lane j is the network's lane j on image 512 t + n of the batch. -/
theorem point_apply (c : Dev nD) (t : Fin cfg0.N) (n : Fin 512) (j : Fin 10) (b : Fin 8192) (hb : b.val = t.val * 512 + n.val) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 n j)
      = netAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b j := by
  have ht : t.val < 16 := lt_of_lt_of_eq t.isLt N_0
  refine (Block.kernel_block (iblk m c 0 t) (iblk m c 1 t) (iblk m c 2 t) (iblk m c 3 t) (iblk m c 4 t) (iblk m c 5 t) (iblk m c 6 t) (iblk m c 7 t) (iblk m c 8 t) (iblk m c 9 t) (iblk m c 10 t) ?_ n j).trans ?_
  · intro h k c' hh
    exact (blk5_apply m c t _).trans (dense1_apply_hi m c h hh k c' _ rfl)
  unfold netAt
  refine lenet_eq_of ?_ ?_ ?_ ?_ ?_ ?_ ?_ ?_ ?_ ?_ ?_ _
  · funext d k c'
    exact (blk1_apply m c t _).trans (band1_apply m c d k c' _ rfl)
  · funext c'
    exact (blk2_apply m c t _).trans (congrFun (V_main_arg1 m c) _)
  · funext d k c'
    exact (blk3_apply m c t _).trans (band2_apply m c d k c' _ rfl)
  · funext c'
    exact (blk4_apply m c t _).trans (congrFun (V_main_arg3 m c) _)
  · funext h k c'
    exact (blk5_apply m c t _).trans (dense1_apply_lo m c h k c' _ rfl)
  · funext c'
    exact (blk6_apply m c t _).trans (congrFun (V_main_arg5 m c) _)
  · funext k c'
    exact (blk7_apply m c t _).trans (congrFun (mat2_term m c) _)
  · funext c'
    exact (blk8_apply m c t _).trans (congrFun (V_main_arg7 m c) _)
  · funext k c'
    exact (blk9_apply m c t _).trans (congrFun (mat3_term m c) _)
  · funext c'
    exact (blk10_apply m c t _).trans (congrFun (V_main_arg9 m c) _)
  · funext r q
    have hr : r.val < 32 := r.isLt
    have hn : n.val < 512 := n.isLt
    exact (blk0_apply m c t (ix2 (flatRow (T := 512) (K := 32) 16384 (by norm_num) n r) q)
        ⟨t.val * 16384 + (n.val * 32 + r.val), by omega⟩ rfl).trans
      (batchRows_apply m c b r q _ (by show t.val * 16384 + (n.val * 32 + r.val) = b.val * 32 + r.val; omega))

/-- What point t leaves for image n of its block and lane j is the target array at row 512 t + n, column j. -/
theorem point_out (c : Dev nD) (t : Fin cfg0.N) (n : Fin 512) (j : Fin 10) (i : S8192x10.Idx)
    (h0 : (i 0).val = t.val * 512 + n.val) (h1 : (i 1).val = j.val) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 n j)
      = netOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i :=
  (point_apply m c t n j ⟨(i 0).val, idx2_lt0 i⟩ h0).trans
    (congrArg (netAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ⟨(i 0).val, idx2_lt0 i⟩)
      (Fin.ext h1.symm : j = ⟨(i 1).val, idx2_lt1 i⟩))

/-- WHAT POINT t WRITES BACK is block t of the target array. -/
theorem flushed_eq (c : Dev nD) (t : Fin cfg0.N) :
    (dats m 0 c).flushed 11 t
      = ((cfg0.win 11).blk t).view.read (Elt Ideal) (netOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed11]
  obtain ⟨-, -, -, -, -, -, -, -, -, -, -, -, -, -, -, -, -, -, -, -, -, -, e0, e1⟩ := idx_facts t
  refine funext fun (y : S512x10.Idx) => ?_
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = netOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 11).blk t).view.emb y)
  refine (congrArg (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (eq_ix2 y)).trans ?_
  refine point_out m c t (y 0) (y 1) (((cfg0.win 11).blk t).view.emb y) ?_ ?_
  · show win0_11.index t (0 : Fin 2) * 512 + 1 * (y 0).val = t.val * 512 + (y 0).val
    omega
  · show win0_11.index t (1 : Fin 2) * 10 + 1 * (y 1).val = (y 1).val
    omega
/-! ## The sixteen blocks fill the array -/

/-- An index of the array is in point t's block iff each coordinate is in the block's range on its axis. -/
theorem mem_blk (t : Fin cfg0.N) (i : S8192x10.Idx) :
    i ∈ ((cfg0.win 11).blk t).view.set ↔ ∀ a : Fin 2, win0_11.index t a * S512x10.size a ≤ (i a).val ∧ (i a).val < win0_11.index t a * S512x10.size a + S512x10.size a := by
  show i ∈ ((View.whole main_v11).slice (win0_11.rect t)).set ↔ _
  rw [View.set_slice_whole, Rect.mem_set_unit]
  exact Iff.rfl

/-- Row b of the array lies in the block of point b / 512. -/
theorem cover (i : S8192x10.Idx) :
    ∃ t : Fin cfg0.N, (cfg0.win 11).flush t = true ∧ i ∈ ((cfg0.win 11).blk t).view.set := by
  have hi0 : (i 0).val < 8192 := (i 0).isLt
  have hi1 : (i 1).val < 10 := (i 1).isLt
  have hq : (i 0).val / 512 < cfg0.N := lt_of_lt_of_eq (by omega : (i 0).val / 512 < 16) N_0.symm
  obtain ⟨t, ht⟩ : ∃ t : Fin cfg0.N, t.val = (i 0).val / 512 := ⟨⟨(i 0).val / 512, hq⟩, rfl⟩
  obtain ⟨-, -, -, -, -, -, -, -, -, -, -, -, -, -, -, -, -, -, -, -, -, -, e0, e1⟩ := idx_facts t
  refine ⟨t, flush0_11 t, ?_⟩
  rw [mem_blk]
  intro a
  match a with
  | ⟨0, _⟩ =>
    show win0_11.index t (0 : Fin 2) * 512 ≤ (i 0).val ∧ (i 0).val < win0_11.index t (0 : Fin 2) * 512 + 512
    omega
  | ⟨1, _⟩ =>
    show win0_11.index t (1 : Fin 2) * 10 ≤ (i 1).val ∧ (i 1).val < win0_11.index t (1 : Fin 2) * 10 + 10
    omega

/-- The result array after the run is the target array. -/
theorem final (c : Dev nD) :
    (dats m 0 c).arrAt 11 cfg0.N = netOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 11 (netOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    (fun t _ => flushed_eq m c t) cover

/-- The run of the idealized kernel program: the result array ends at the network's outputs on the batch, the
    arguments unchanged. -/
theorem kernel_run : θ_run defs (onTc (τ := τ) (main (F := Ideal))) ⟨m, fun _ => 0, ρ⟩ fun r => ∀ c : Dev nD,
      r.2.mem ((c : Thread nD τ).loc main_v11) = netOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Whole

end
-- ==== Proof.RDefs.lean ====
/-
  The one-image kernel of the reference, as three pure functions of what it loads. It keeps two scratch arrays:
  the first pooled activation (14 rows of 128), stored whole and read back five times at row offsets 0 to 4, and the
  second pooled activation (5 rows of 128), stored whole and read back row by row. Each stage is written here over
  the contents of the scratch it reads, so that the three stages can be read as values one at a time:
  firstStage (the image and the first band matrices to the first scratch), secondStage (the first scratch to the
  second), lastStage (the second scratch to the 128 output lanes).
-/
import proofs.«134189_g2000305662181196_pallasbulk_93_21_alg».proof.Proof.Gen.ReferenceIdeal.Skeleton
import Idealize.ShloMosaic.Lib.Pipeline.Value

noncomputable section

namespace Cert.ReferenceIdeal.Point

open Cert.ReferenceIdeal Cert.ReferenceIdeal.Gen Idealize.ShloMosaic

variable {F : FTy → Type} [FloatOps F]

/-- What the first scratch array is given: five row-shifted 28-row pieces of the image against the five slabs of the
    first band stack, summed, bias, rectifier, and the 2×2 pool by two selection products. -/
def firstStage (x0 : Vec F S1x32x32 .f32) (x1 : Vec F S5x32x256 .f32) (x2 : Vec F S1x256 .f32) : FVec F S14x128 .f32 :=
  k0_pay4
    (k0_pay2 (View.ld x0 (Rect.unit (s := S1x32x32) ![0, 0, 0] S1x28x32.size inb_S1x32x32_S1x28x32_0_0_0)) (View.ld x1 (Rect.unit (s := S5x32x256) ![0, 0, 0] S1x32x256.size inb_S5x32x256_S1x32x256_0_0_0))
      (View.ld x0 (Rect.unit (s := S1x32x32) ![0, 1, 0] S1x28x32.size inb_S1x32x32_S1x28x32_0_1_0)) (View.ld x1 (Rect.unit (s := S5x32x256) ![1, 0, 0] S1x32x256.size inb_S5x32x256_S1x32x256_1_0_0))
      (View.ld x0 (Rect.unit (s := S1x32x32) ![0, 2, 0] S1x28x32.size inb_S1x32x32_S1x28x32_0_2_0)) (View.ld x1 (Rect.unit (s := S5x32x256) ![2, 0, 0] S1x32x256.size inb_S5x32x256_S1x32x256_2_0_0))
      (View.ld x0 (Rect.unit (s := S1x32x32) ![0, 3, 0] S1x28x32.size inb_S1x32x32_S1x28x32_0_3_0)) (View.ld x1 (Rect.unit (s := S5x32x256) ![3, 0, 0] S1x32x256.size inb_S5x32x256_S1x32x256_3_0_0)))
    (k0_pay3 (View.ld x0 (Rect.unit (s := S1x32x32) ![0, 4, 0] S1x28x32.size inb_S1x32x32_S1x28x32_0_4_0))) (View.ld x1 (Rect.unit (s := S5x32x256) ![4, 0, 0] S1x32x256.size inb_S5x32x256_S1x32x256_4_0_0)) (View.ld x2 (Rect.unit (s := S1x256) ![0, 0] S1x256.size inb_S1x256_S1x256_0_0))

/-- What the second scratch array is given, from the contents P1 of the first: five row-shifted 10-row pieces of P1
    against the five slabs of the second band stack, summed, bias, rectifier, pool. -/
def secondStage (P1 : Vec F S14x128 .f32) (x3 : Vec F S5x128x256 .f32) (x4 : Vec F S1x256 .f32) : FVec F S5x128 .f32 :=
  k0_pay9
    (k0_pay6 (k0_pay5 (View.ld P1 (Rect.unit (s := S14x128) ![0, 0] S10x128.size inb_S14x128_S10x128_0_0)) (View.ld x3 (Rect.unit (s := S5x128x256) ![0, 0, 0] S1x128x256.size inb_S5x128x256_S1x128x256_0_0_0)))
      (View.ld P1 (Rect.unit (s := S14x128) ![1, 0] S10x128.size inb_S14x128_S10x128_1_0)) (View.ld x3 (Rect.unit (s := S5x128x256) ![1, 0, 0] S1x128x256.size inb_S5x128x256_S1x128x256_1_0_0))
      (View.ld P1 (Rect.unit (s := S14x128) ![2, 0] S10x128.size inb_S14x128_S10x128_2_0)) (View.ld x3 (Rect.unit (s := S5x128x256) ![2, 0, 0] S1x128x256.size inb_S5x128x256_S1x128x256_2_0_0))
      (View.ld P1 (Rect.unit (s := S14x128) ![3, 0] S10x128.size inb_S14x128_S10x128_3_0)) (View.ld x3 (Rect.unit (s := S5x128x256) ![3, 0, 0] S1x128x256.size inb_S5x128x256_S1x128x256_3_0_0))
      (View.ld P1 (Rect.unit (s := S14x128) ![4, 0] S10x128.size inb_S14x128_S10x128_4_0)) (View.ld x3 (Rect.unit (s := S5x128x256) ![4, 0, 0] S1x128x256.size inb_S5x128x256_S1x128x256_4_0_0))
      (View.ld x4 (Rect.unit (s := S1x256) ![0, 0] S1x256.size inb_S1x256_S1x256_0_0)))
    (iota Kind.tc S5x10 32 [1] iota_S5x10_d1_w32) (k0_pay7 (F := F)) k0_pay8

/-- The output block, from the contents P2 of the second scratch: its five rows against the five slabs of the first
    dense stack, summed, bias, rectifier, and the two remaining dense layers. -/
def lastStage (P2 : Vec F S5x128 .f32) (x5 : Vec F S5x128x128 .f32) (x6 : Vec F S1x128 .f32) (x7 : Vec F S128x128 .f32)
    (x8 : Vec F S1x128 .f32) (x9 : Vec F S128x128 .f32) (x10 : Vec F S1x128 .f32) : FVec F S1x1x128 .f32 :=
  k0_pay1
    (k0_pay10 (View.ld P2 (Rect.unit (s := S5x128) ![0, 0] S1x128.size inb_S5x128_S1x128_0_0)) (View.ld x5 (Rect.unit (s := S5x128x128) ![0, 0, 0] S1x128x128.size inb_S5x128x128_S1x128x128_0_0_0))
      (View.ld P2 (Rect.unit (s := S5x128) ![1, 0] S1x128.size inb_S5x128_S1x128_1_0)) (View.ld x5 (Rect.unit (s := S5x128x128) ![1, 0, 0] S1x128x128.size inb_S5x128x128_S1x128x128_1_0_0))
      (View.ld P2 (Rect.unit (s := S5x128) ![2, 0] S1x128.size inb_S5x128_S1x128_2_0)) (View.ld x5 (Rect.unit (s := S5x128x128) ![2, 0, 0] S1x128x128.size inb_S5x128x128_S1x128x128_2_0_0))
      (View.ld P2 (Rect.unit (s := S5x128) ![3, 0] S1x128.size inb_S5x128_S1x128_3_0)) (View.ld x5 (Rect.unit (s := S5x128x128) ![3, 0, 0] S1x128x128.size inb_S5x128x128_S1x128x128_3_0_0)))
    (View.ld P2 (Rect.unit (s := S5x128) ![4, 0] S1x128.size inb_S5x128_S1x128_4_0)) (View.ld x5 (Rect.unit (s := S5x128x128) ![4, 0, 0] S1x128x128.size inb_S5x128x128_S1x128x128_4_0_0))
    (View.ld x6 (Rect.unit (s := S1x128) ![0, 0] S1x128.size inb_S1x128_S1x128_0_0)) (View.ld x7 (Rect.unit (s := S128x128) ![0, 0] S128x128.size inb_S128x128_S128x128_0_0)) (View.ld x8 (Rect.unit (s := S1x128) ![0, 0] S1x128.size inb_S1x128_S1x128_0_0)) (View.ld x9 (Rect.unit (s := S128x128) ![0, 0] S128x128.size inb_S128x128_S128x128_0_0)) (View.ld x10 (Rect.unit (s := S1x128) ![0, 0] S1x128.size inb_S1x128_S1x128_0_0))

end Cert.ReferenceIdeal.Point

end
-- ==== Proof.RPieces.lean ====
/-
  What one run of the reference's one-image kernel leaves in its output block: the two scratch arrays are each
  stored whole once and only then read, so each read returns the stored value at the rows it asks for, and the
  block ends at the last stage of the second stage of the first stage of the loaded inputs.
-/
import proofs.«134189_g2000305662181196_pallasbulk_93_21_alg».proof.Proof.Gen.ReferenceIdeal.Frame
import proofs.«134189_g2000305662181196_pallasbulk_93_21_alg».proof.Proof.RDefs
import Idealize.ShloMosaic.Lib.Pipeline.Value
import Idealize.ShloMosaic.Lib.Tactic

set_option maxRecDepth 16384

noncomputable section

namespace Cert.ReferenceIdeal.Point

open Cert.ReferenceIdeal Cert.ReferenceIdeal.Gen Idealize.ShloMosaic Idealize.ShloMosaic.TcCoe Idealize.ShloMosaic.Tactic Idealize.SL.Sem

variable {F : FTy → Type} [FloatOps F]

/-- The zero offsets of a two-axis array, as the constant function. -/
theorem hz2 : (![0, 0] : Fin 2 → Nat) = fun _ => 0 := funext fun a => by fin_cases a <;> rfl

/-- The zero offsets of a three-axis array, as the constant function. -/
theorem hz3 : (![0, 0, 0] : Fin 3 → Nat) = fun _ => 0 := funext fun a => by fin_cases a <;> rfl

/-- A load through any rectangle of an array that was stored whole exactly once reads the stored value at the
    rectangle's indices. -/
theorem readCov_whole {Val : EltTy → Type} [∀ e, Nonempty (Val e)] {sig' : RefSig} {κ : Kind} {sp : Space} {S : Shape} {e : EltTy}
    (v : View sig' κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon', View.canon_unit_zero h inb w]

/-- The output block after the body, as the three stages of the loaded inputs. -/
theorem out_eq (c : Dev nD) (i : grid0.Coords) (arg1 : Memref sig .tc .vmem S1x32x32 .f32) (harg1 : arg1.IsWhole) (arg2 : Memref sig .tc .vmem S5x32x256 .f32) (harg2 : arg2.IsWhole) (arg3 : Memref sig .tc .vmem S1x256 .f32) (harg3 : arg3.IsWhole) (arg4 : Memref sig .tc .vmem S5x128x256 .f32) (harg4 : arg4.IsWhole) (arg5 : Memref sig .tc .vmem S1x256 .f32) (harg5 : arg5.IsWhole) (arg6 : Memref sig .tc .vmem S5x128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S14x128 .f32) (harg13 : arg13.IsWhole) (arg14 : Memref sig .tc .vmem S5x128 .f32) (harg14 : arg14.IsWhole) (x0 : Vec F S1x32x32 .f32) (x1 : Vec F S5x32x256 .f32) (x2 : Vec F S1x256 .f32) (x3 : Vec F S5x128x256 .f32) (x4 : Vec F S1x256 .f32) (x5 : Vec F S5x128x128 .f32) (x6 : Vec F S1x128 .f32) (x7 : Vec F S128x128 .f32) (x8 : Vec F S1x128 .f32) (x9 : Vec F S128x128 .f32) (x10 : Vec F S1x128 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10
      = lastStage (secondStage (firstStage x0 x1 x2) x3 x4) x5 x6 x7 x8 x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  sl_unfold_words
  rw [View.canon_unit_zero (S := S1x1x128) hz3]
  simp only [readCov_whole (S := S14x128) _ hz2, readCov_whole (S := S5x128) _ hz2, View.readAt_eq_ld,
    harg1.read_unread, harg2.read_unread, harg3.read_unread, harg4.read_unread, harg5.read_unread, harg6.read_unread,
    harg7.read_unread, harg8.read_unread, harg9.read_unread, harg10.read_unread, harg11.read_unread]
  rfl

end Cert.ReferenceIdeal.Point

end
-- ==== Proof.RStage1.lean ====
/-
  The reference kernel's first stage read as values: the 28-row piece of the image at row offset d times slab d of
  the first band stack, the five products added in order, the bias row, the rectifier, the greater of the two
  128-column halves, and the two products with the 0/1 matrices that pick the even and the odd rows — a product
  with such a matrix is the picked row, because 0 * x = 0 and 1 * x = x for every extended real — whose greater
  entry is the pooled activation.
-/
import proofs.«134189_g2000305662181196_pallasbulk_93_21_alg».proof.Proof.RDefs
import proofs.«134189_g2000305662181196_pallasbulk_93_21_alg».proof.Proof.Layout
import proofs.«134189_g2000305662181196_pallasbulk_93_21_alg».proof.Proof.LibPlainDot
import proofs.«134189_g2000305662181196_pallasbulk_93_21_alg».proof.Proof.LibMatLayout
import Idealize.ShloMosaic.Lib.Pipeline.Value
import Idealize.ShloMosaic.Lib.ValueLayout

noncomputable section

namespace Cert.ReferenceIdeal.Point

open Cert.ReferenceIdeal Cert.ReferenceIdeal.Gen Cert.LeNet Idealize.ShloMosaic Idealize.ShloMosaic.ValueIdx

namespace Stage1

/-- The 28-row piece of the image block at row offset d. -/
theorem ldRows_apply (x0 : Vec Ideal S1x32x32 .f32) (off : Fin 3 → ℕ) (inb : ∀ a, off a + S1x28x32.size a ≤ S1x32x32.size a)
    (d : ℕ) (h0 : off 0 = 0) (h1 : off 1 = d) (h2 : off 2 = 0) (ρ : Fin 28) (k : Fin 32) (i : Fin 32) (hi : i.val = ρ.val + d) :
    View.ld x0 (Rect.unit (s := S1x32x32) off S1x28x32.size inb) (ix3 (0 : Fin 1) ρ k) = x0 (ix3 (0 : Fin 1) i k) := by
  show x0 ((Rect.unit (s := S1x32x32) off S1x28x32.size inb).idx (ix3 (0 : Fin 1) ρ k)) = _
  congr 1
  funext a
  apply Fin.ext
  match a with
  | ⟨0, _⟩ => show off 0 + 1 * 0 = 0; omega
  | ⟨1, _⟩ => show off 1 + 1 * ρ.val = i.val; omega
  | ⟨2, _⟩ => show off 2 + 1 * k.val = k.val; omega

/-- Slab d of the band stack. -/
theorem ldSlab_apply (x1 : Vec Ideal S5x32x256 .f32) (off : Fin 3 → ℕ) (inb : ∀ a, off a + S1x32x256.size a ≤ S5x32x256.size a)
    (d : Fin 5) (h0 : off 0 = d.val) (h1 : off 1 = 0) (h2 : off 2 = 0) (k : Fin 32) (q : Fin 256) :
    View.ld x1 (Rect.unit (s := S5x32x256) off S1x32x256.size inb) (ix3 (0 : Fin 1) k q) = x1 (ix3 d k q) := by
  show x1 ((Rect.unit (s := S5x32x256) off S1x32x256.size inb).idx (ix3 (0 : Fin 1) k q)) = _
  congr 1
  funext a
  apply Fin.ext
  match a with
  | ⟨0, _⟩ => show off 0 + 1 * 0 = d.val; omega
  | ⟨1, _⟩ => show off 1 + 1 * k.val = k.val; omega
  | ⟨2, _⟩ => show off 2 + 1 * q.val = q.val; omega

/-- Words of small numbers: the column word equals twice the row word exactly when the numbers do. -/
theorem word_even (k h : ℕ) (hk : k < 28) (hh : h < 14) :
    (BitVec.ofNat 32 k == 2#32 * BitVec.ofNat 32 h) = decide (k = 2 * h) := by
  rw [Bool.eq_iff_iff, beq_iff_eq, decide_eq_true_iff, ← BitVec.toNat_inj, BitVec.toNat_mul, BitVec.toNat_ofNat, BitVec.toNat_ofNat,
    BitVec.toNat_ofNat]
  omega

/-- The same for twice the row plus one. -/
theorem word_odd (k h : ℕ) (hk : k < 28) (hh : h < 14) :
    (BitVec.ofNat 32 k == 2#32 * BitVec.ofNat 32 h + 1#32) = decide (k = 2 * h + 1) := by
  rw [Bool.eq_iff_iff, beq_iff_eq, decide_eq_true_iff, ← BitVec.toNat_inj, BitVec.toNat_add, BitVec.toNat_mul, BitVec.toNat_ofNat,
    BitVec.toNat_ofNat, BitVec.toNat_ofNat, BitVec.toNat_ofNat]
  omega

/-- A decided bit, widened and converted, is 1 or 0. -/
theorem bit_value (p : Prop) [Decidable p] :
    FloatOps.sitofp (F := Ideal) .f32 ((BitVec.ofBool (decide p)).setWidth 32) = if p then 1 else 0 := by
  by_cases h : p
  · rw [if_pos h, decide_eq_true h]
    show (((((BitVec.ofBool true).setWidth 32).toInt : ℤ) : ℝ) : EReal) = 1
    have : ((BitVec.ofBool true).setWidth 32).toInt = 1 := by decide
    rw [this]; simp
  · rw [if_neg h, decide_eq_false h]
    show (((((BitVec.ofBool false).setWidth 32).toInt : ℤ) : ℝ) : EReal) = 0
    have : ((BitVec.ofBool false).setWidth 32).toInt = 0 := by decide
    rw [this]; simp

/-- The matrix that picks the even rows: 1 at (h, 2 h), 0 elsewhere. -/
theorem selEven_apply (hp : Fin 14) (k : Fin 28) :
    (sitofp .f32 (extui 32 (cmpi .eq (iota .tc S14x28 32 [1] iota_S14x28_d1_w32)
        (muli (broadcast S14x28 2#32) (iota .tc S14x28 32 [0] iota_S14x28_d0_w32))) natLt_1_32) : FVec Ideal S14x28 .f32) (ix2 hp k)
      = if k.val = 2 * hp.val then 1 else 0 := by
  show FloatOps.sitofp (F := Ideal) .f32 ((BitVec.ofBool (iota .tc S14x28 32 [1] iota_S14x28_d1_w32 (ix2 hp k)
      == 2#32 * iota .tc S14x28 32 [0] iota_S14x28_d0_w32 (ix2 hp k))).setWidth 32) = _
  rw [iota_single_apply, iota_single_apply]
  show FloatOps.sitofp (F := Ideal) .f32 ((BitVec.ofBool (BitVec.ofNat 32 k.val == 2#32 * BitVec.ofNat 32 hp.val)).setWidth 32) = _
  rw [word_even k.val hp.val k.isLt hp.isLt]
  exact bit_value _

/-- The matrix that picks the odd rows: 1 at (h, 2 h + 1), 0 elsewhere. -/
theorem selOdd_apply (hp : Fin 14) (k : Fin 28) :
    (sitofp .f32 (extui 32 (cmpi .eq (iota .tc S14x28 32 [1] iota_S14x28_d1_w32)
        (addi (muli (broadcast S14x28 2#32) (iota .tc S14x28 32 [0] iota_S14x28_d0_w32)) (broadcast S14x28 1#32))) natLt_1_32) : FVec Ideal S14x28 .f32) (ix2 hp k)
      = if k.val = 2 * hp.val + 1 then 1 else 0 := by
  show FloatOps.sitofp (F := Ideal) .f32 ((BitVec.ofBool (iota .tc S14x28 32 [1] iota_S14x28_d1_w32 (ix2 hp k)
      == 2#32 * iota .tc S14x28 32 [0] iota_S14x28_d0_w32 (ix2 hp k) + 1#32)).setWidth 32) = _
  rw [iota_single_apply, iota_single_apply]
  show FloatOps.sitofp (F := Ideal) .f32 ((BitVec.ofBool (BitVec.ofNat 32 k.val == 2#32 * BitVec.ofNat 32 hp.val + 1#32)).setWidth 32) = _
  rw [word_odd k.val hp.val k.isLt hp.isLt]
  exact bit_value _

/-- The rectified sum: the four products already added, the fifth product, the bias row, the maximum with zero. -/
def convOf (v22 : FVec Ideal S28x256 .f32) (v24 : FVec Ideal S28x32 .f32) (v25 : Vec Ideal S1x32x256 .f32) (v29 : Vec Ideal S1x256 .f32) :
    FVec Ideal S28x256 .f32 :=
  maximumf
    (addf (addf v22 (matmul dot_S28x32_S32x256_S28x256_1_0_0_1_n_n none v24 (shapeCast S32x256 v25 shapeCasts_S1x32x256_S32x256 : FVec Ideal S32x256 .f32)
        (constant S28x256 .f32 0x00000000#32)))
      (broadcastTo S28x256 v29 broadcasts_S1x256_S28x256))
    (broadcast S28x256 (Scalar.ofBits .f32 0x00000000#32))

/-- The greater of the two 128-column halves. -/
def wmaxOf (u : FVec Ideal S28x256 .f32) : FVec Ideal S28x128 .f32 :=
  maximumf (extractStridedSlice S28x128 ![0, 0] u slices_S28x256_o0_0_S28x128)
    (extractStridedSlice S28x128 ![0, 128] u slices_S28x256_o0_128_S28x128)

/-- The greater of the even-row pick and the odd-row pick. -/
def pickOf (w : FVec Ideal S28x128 .f32) : FVec Ideal S14x128 .f32 :=
  shapeCast S14x128
    (maximumf
      (matmul dot_S14x28_S28x128_S14x128_1_0_0_1_n_n none
        (sitofp .f32 (extui 32 (cmpi .eq (iota .tc S14x28 32 [1] iota_S14x28_d1_w32)
          (muli (broadcast S14x28 2#32) (iota .tc S14x28 32 [0] iota_S14x28_d0_w32))) natLt_1_32))
        w (constant S14x128 .f32 0x00000000#32))
      (matmul dot_S14x28_S28x128_S14x128_1_0_0_1_n_n none
        (sitofp .f32 (extui 32 (cmpi .eq (iota .tc S14x28 32 [1] iota_S14x28_d1_w32)
          (addi (muli (broadcast S14x28 2#32) (iota .tc S14x28 32 [0] iota_S14x28_d0_w32)) (broadcast S14x28 1#32))) natLt_1_32))
        w (constant S14x128 .f32 0x00000000#32)))
    shapeCasts_S14x128_S14x128

theorem pay4_eq (v22 : FVec Ideal S28x256 .f32) (v24 : FVec Ideal S28x32 .f32) (v25 : Vec Ideal S1x32x256 .f32) (v29 : Vec Ideal S1x256 .f32) :
    k0_pay4 (F := Ideal) v22 v24 v25 v29 = pickOf (wmaxOf (convOf v22 v24 v25 v29)) := rfl

theorem convOf_apply (v22 : FVec Ideal S28x256 .f32) (v24 : FVec Ideal S28x32 .f32) (v25 : Vec Ideal S1x32x256 .f32) (v29 : Vec Ideal S1x256 .f32)
    (ρ : Fin 28) (q : Fin 256) :
    convOf v22 v24 v25 v29 (ix2 ρ q)
      = max ((v22 (ix2 ρ q) + ∑ k : Fin 32, v24 (ix2 ρ k) * v25 (ix3 (0 : Fin 1) k q)) + v29 (ix2 (0 : Fin 1) q)) Z := by
  show max ((v22 (ix2 ρ q) + matmul dot_S28x32_S32x256_S28x256_1_0_0_1_n_n none v24 (shapeCast S32x256 v25 shapeCasts_S1x32x256_S32x256 : FVec Ideal S32x256 .f32)
        (constant S28x256 .f32 0x00000000#32) (ix2 ρ q)) + broadcastTo S28x256 v29 broadcasts_S1x256_S28x256 (ix2 ρ q)) Z = _
  rw [Cert.PlainDot.matmul_zero_apply dot_S28x32_S32x256_S28x256_1_0_0_1_n_n rfl, broadcastTo_1b_ab_apply]
  simp only [shapeCast_1ab_ab_apply]

theorem wmaxOf_apply (u : FVec Ideal S28x256 .f32) (ρ : Fin 28) (c : Fin 128) :
    wmaxOf u (ix2 ρ c) = max (u (ix2 ρ (halfCol c 0))) (u (ix2 ρ (halfCol c 1))) := by
  show max (extractStridedSlice S28x128 ![0, 0] u slices_S28x256_o0_0_S28x128 (ix2 ρ c))
    (extractStridedSlice S28x128 ![0, 128] u slices_S28x256_o0_128_S28x128 (ix2 ρ c)) = _
  rw [Cert.MatLayout.slice2_apply ![0, 0] u _ ρ c ρ (halfCol c 0) (by show ρ.val = 0 + ρ.val; omega) (by show c.val + 128 * 0 = 0 + c.val; omega),
    Cert.MatLayout.slice2_apply ![0, 128] u _ ρ c ρ (halfCol c 1) (by show ρ.val = 0 + ρ.val; omega) (by show c.val + 128 * 1 = 128 + c.val; omega)]

/-- A product with a row that is 1 at one place and 0 elsewhere is the other factor at that place. -/
theorem pick_sum (f w : Fin 28 → EReal) (j : Fin 28) (hf : ∀ k : Fin 28, f k = if k.val = j.val then 1 else 0) :
    ∑ k : Fin 28, f k * w k = w j := by
  rw [Finset.sum_eq_single j]
  · rw [hf j, if_pos rfl, one_mul]
  · intro k _ hk
    rw [hf k, if_neg (fun h => hk (Fin.ext h)), zero_mul]
  · intro h; exact absurd (Finset.mem_univ j) h

theorem pickOf_apply (w : FVec Ideal S28x128 .f32) (r : Fin 14) (c : Fin 128) :
    pickOf w (ix2 r c) = max (w (ix2 (pairRow (H := 28) (R := 14) (by norm_num) r 0) c)) (w (ix2 (pairRow (H := 28) (R := 14) (by norm_num) r 1) c)) := by
  unfold pickOf
  rw [shapeCast_self]
  rw [maximumf_apply, Cert.PlainDot.matmul_zero_apply dot_S14x28_S28x128_S14x128_1_0_0_1_n_n rfl, Cert.PlainDot.matmul_zero_apply dot_S14x28_S28x128_S14x128_1_0_0_1_n_n rfl]
  congr 1
  · exact pick_sum _ (fun k => w (ix2 k c)) (pairRow (H := 28) (R := 14) (by norm_num) r 0)
      (fun k => (selEven_apply r k).trans (by show _ = if k.val = 2 * r.val + 0 then _ else _; rw [Nat.add_zero]))
  · exact pick_sum _ (fun k => w (ix2 k c)) (pairRow (H := 28) (R := 14) (by norm_num) r 1)
      (fun k => (selOdd_apply r k))

/-- One product of a row piece and a slab, into the zero accumulator. -/
def prodOf (v : Vec Ideal S1x28x32 .f32) (w : Vec Ideal S1x32x256 .f32) : FVec Ideal S28x256 .f32 :=
  matmul dot_S28x32_S32x256_S28x256_1_0_0_1_n_n none (shapeCast S28x32 v shapeCasts_S1x28x32_S28x32 : FVec Ideal S28x32 .f32)
    (shapeCast S32x256 w shapeCasts_S1x32x256_S32x256 : FVec Ideal S32x256 .f32) (constant S28x256 .f32 0x00000000#32)

theorem prodOf_apply (v : Vec Ideal S1x28x32 .f32) (w : Vec Ideal S1x32x256 .f32) (ρ : Fin 28) (q : Fin 256) :
    prodOf v w (ix2 ρ q) = ∑ k : Fin 32, v (ix3 (0 : Fin 1) ρ k) * w (ix3 (0 : Fin 1) k q) := by
  unfold prodOf
  rw [Cert.PlainDot.matmul_zero_apply dot_S28x32_S32x256_S28x256_1_0_0_1_n_n rfl]
  simp only [shapeCast_1ab_ab_apply]

theorem pay2_eq (v0 : Vec Ideal S1x28x32 .f32) (v2 : Vec Ideal S1x32x256 .f32) (v5 : Vec Ideal S1x28x32 .f32) (v7 : Vec Ideal S1x32x256 .f32)
    (v11 : Vec Ideal S1x28x32 .f32) (v13 : Vec Ideal S1x32x256 .f32) (v17 : Vec Ideal S1x28x32 .f32) (v19 : Vec Ideal S1x32x256 .f32) :
    k0_pay2 (F := Ideal) v0 v2 v5 v7 v11 v13 v17 v19
      = addf (addf (addf (prodOf v0 v2) (prodOf v5 v7)) (prodOf v11 v13)) (prodOf v17 v19) := rfl

/-- The four products added in order, at an entry. -/
theorem pay2_apply (v0 : Vec Ideal S1x28x32 .f32) (v2 : Vec Ideal S1x32x256 .f32) (v5 : Vec Ideal S1x28x32 .f32) (v7 : Vec Ideal S1x32x256 .f32)
    (v11 : Vec Ideal S1x28x32 .f32) (v13 : Vec Ideal S1x32x256 .f32) (v17 : Vec Ideal S1x28x32 .f32) (v19 : Vec Ideal S1x32x256 .f32)
    (ρ : Fin 28) (q : Fin 256) :
    k0_pay2 (F := Ideal) v0 v2 v5 v7 v11 v13 v17 v19 (ix2 ρ q)
      = (((∑ k : Fin 32, v0 (ix3 (0 : Fin 1) ρ k) * v2 (ix3 (0 : Fin 1) k q))
          + ∑ k : Fin 32, v5 (ix3 (0 : Fin 1) ρ k) * v7 (ix3 (0 : Fin 1) k q))
          + ∑ k : Fin 32, v11 (ix3 (0 : Fin 1) ρ k) * v13 (ix3 (0 : Fin 1) k q))
          + ∑ k : Fin 32, v17 (ix3 (0 : Fin 1) ρ k) * v19 (ix3 (0 : Fin 1) k q) := by
  rw [pay2_eq]
  show ((prodOf v0 v2 (ix2 ρ q) + prodOf v5 v7 (ix2 ρ q)) + prodOf v11 v13 (ix2 ρ q)) + prodOf v17 v19 (ix2 ρ q) = _
  rw [prodOf_apply, prodOf_apply, prodOf_apply, prodOf_apply]

theorem pay3_apply (v23 : Vec Ideal S1x28x32 .f32) (ρ : Fin 28) (k : Fin 32) :
    k0_pay3 (F := Ideal) v23 (ix2 ρ k) = v23 (ix3 (0 : Fin 1) ρ k) :=
  shapeCast_1ab_ab_apply v23 shapeCasts_S1x28x32_S28x32 ρ k

/-- The rectified sum of the stage is the first convolution of the block's image. -/
theorem conv_apply (x0 : Vec Ideal S1x32x32 .f32) (x1 : Vec Ideal S5x32x256 .f32) (x2 : Vec Ideal S1x256 .f32) (ρ : Fin 28) (q : Fin 256) :
    convOf
      (k0_pay2 (View.ld x0 (Rect.unit (s := S1x32x32) ![0, 0, 0] S1x28x32.size inb_S1x32x32_S1x28x32_0_0_0)) (View.ld x1 (Rect.unit (s := S5x32x256) ![0, 0, 0] S1x32x256.size inb_S5x32x256_S1x32x256_0_0_0))
        (View.ld x0 (Rect.unit (s := S1x32x32) ![0, 1, 0] S1x28x32.size inb_S1x32x32_S1x28x32_0_1_0)) (View.ld x1 (Rect.unit (s := S5x32x256) ![1, 0, 0] S1x32x256.size inb_S5x32x256_S1x32x256_1_0_0))
        (View.ld x0 (Rect.unit (s := S1x32x32) ![0, 2, 0] S1x28x32.size inb_S1x32x32_S1x28x32_0_2_0)) (View.ld x1 (Rect.unit (s := S5x32x256) ![2, 0, 0] S1x32x256.size inb_S5x32x256_S1x32x256_2_0_0))
        (View.ld x0 (Rect.unit (s := S1x32x32) ![0, 3, 0] S1x28x32.size inb_S1x32x32_S1x28x32_0_3_0)) (View.ld x1 (Rect.unit (s := S5x32x256) ![3, 0, 0] S1x32x256.size inb_S5x32x256_S1x32x256_3_0_0)))
      (k0_pay3 (View.ld x0 (Rect.unit (s := S1x32x32) ![0, 4, 0] S1x28x32.size inb_S1x32x32_S1x28x32_0_4_0)))
      (View.ld x1 (Rect.unit (s := S5x32x256) ![4, 0, 0] S1x32x256.size inb_S5x32x256_S1x32x256_4_0_0))
      (View.ld x2 (Rect.unit (s := S1x256) ![0, 0] S1x256.size inb_S1x256_S1x256_0_0)) (ix2 ρ q)
      = conv1 (tapsOfStack x1) (biasRow x2) (imgOfBlock x0) ρ q := by
  rw [convOf_apply, pay2_apply]
  unfold conv1
  rw [Fin.sum_univ_five]
  have hb : View.ld x2 (Rect.unit (s := S1x256) ![0, 0] S1x256.size inb_S1x256_S1x256_0_0) = x2 :=
    View.ld_unit_zero (by funext a; match a with | ⟨0, _⟩ => rfl | ⟨1, _⟩ => rfl) _ x2
  rw [hb]
  have e0 : ∑ k : Fin 32, View.ld x0 (Rect.unit (s := S1x32x32) ![0, 0, 0] S1x28x32.size inb_S1x32x32_S1x28x32_0_0_0) (ix3 (0 : Fin 1) ρ k)
        * View.ld x1 (Rect.unit (s := S5x32x256) ![0, 0, 0] S1x32x256.size inb_S5x32x256_S1x32x256_0_0_0) (ix3 (0 : Fin 1) k q)
      = ∑ k : Fin 32, imgOfBlock x0 (tapRow (H := 32) (T := 5) (R := 28) (by norm_num) ρ 0) k * tapsOfStack x1 0 k q :=
    Finset.sum_congr rfl fun k _ => congrArg₂ (· * ·)
      (ldRows_apply x0 _ _ 0 rfl rfl rfl ρ k _ rfl) (ldSlab_apply x1 _ _ 0 rfl rfl rfl k q)
  have e1 : ∑ k : Fin 32, View.ld x0 (Rect.unit (s := S1x32x32) ![0, 1, 0] S1x28x32.size inb_S1x32x32_S1x28x32_0_1_0) (ix3 (0 : Fin 1) ρ k)
        * View.ld x1 (Rect.unit (s := S5x32x256) ![1, 0, 0] S1x32x256.size inb_S5x32x256_S1x32x256_1_0_0) (ix3 (0 : Fin 1) k q)
      = ∑ k : Fin 32, imgOfBlock x0 (tapRow (H := 32) (T := 5) (R := 28) (by norm_num) ρ 1) k * tapsOfStack x1 1 k q :=
    Finset.sum_congr rfl fun k _ => congrArg₂ (· * ·)
      (ldRows_apply x0 _ _ 1 rfl rfl rfl ρ k _ rfl) (ldSlab_apply x1 _ _ 1 rfl rfl rfl k q)
  have e2 : ∑ k : Fin 32, View.ld x0 (Rect.unit (s := S1x32x32) ![0, 2, 0] S1x28x32.size inb_S1x32x32_S1x28x32_0_2_0) (ix3 (0 : Fin 1) ρ k)
        * View.ld x1 (Rect.unit (s := S5x32x256) ![2, 0, 0] S1x32x256.size inb_S5x32x256_S1x32x256_2_0_0) (ix3 (0 : Fin 1) k q)
      = ∑ k : Fin 32, imgOfBlock x0 (tapRow (H := 32) (T := 5) (R := 28) (by norm_num) ρ 2) k * tapsOfStack x1 2 k q :=
    Finset.sum_congr rfl fun k _ => congrArg₂ (· * ·)
      (ldRows_apply x0 _ _ 2 rfl rfl rfl ρ k _ rfl) (ldSlab_apply x1 _ _ 2 rfl rfl rfl k q)
  have e3 : ∑ k : Fin 32, View.ld x0 (Rect.unit (s := S1x32x32) ![0, 3, 0] S1x28x32.size inb_S1x32x32_S1x28x32_0_3_0) (ix3 (0 : Fin 1) ρ k)
        * View.ld x1 (Rect.unit (s := S5x32x256) ![3, 0, 0] S1x32x256.size inb_S5x32x256_S1x32x256_3_0_0) (ix3 (0 : Fin 1) k q)
      = ∑ k : Fin 32, imgOfBlock x0 (tapRow (H := 32) (T := 5) (R := 28) (by norm_num) ρ 3) k * tapsOfStack x1 3 k q :=
    Finset.sum_congr rfl fun k _ => congrArg₂ (· * ·)
      (ldRows_apply x0 _ _ 3 rfl rfl rfl ρ k _ rfl) (ldSlab_apply x1 _ _ 3 rfl rfl rfl k q)
  have e4 : ∑ k : Fin 32, k0_pay3 (View.ld x0 (Rect.unit (s := S1x32x32) ![0, 4, 0] S1x28x32.size inb_S1x32x32_S1x28x32_0_4_0)) (ix2 ρ k)
        * View.ld x1 (Rect.unit (s := S5x32x256) ![4, 0, 0] S1x32x256.size inb_S5x32x256_S1x32x256_4_0_0) (ix3 (0 : Fin 1) k q)
      = ∑ k : Fin 32, imgOfBlock x0 (tapRow (H := 32) (T := 5) (R := 28) (by norm_num) ρ 4) k * tapsOfStack x1 4 k q :=
    Finset.sum_congr rfl fun k _ => congrArg₂ (· * ·)
      ((pay3_apply _ ρ k).trans (ldRows_apply x0 _ _ 4 rfl rfl rfl ρ k _ rfl)) (ldSlab_apply x1 _ _ 4 rfl rfl rfl k q)
  rw [e0, e1, e2, e3, e4]

end Stage1

open Stage1 in
/-- The first scratch array's contents are the first pooled activation of the block's image. -/
theorem firstStage_apply (x0 : Vec Ideal S1x32x32 .f32) (x1 : Vec Ideal S5x32x256 .f32) (x2 : Vec Ideal S1x256 .f32)
    (r : Fin 14) (c : Fin 128) :
    firstStage (F := Ideal) x0 x1 x2 (ix2 r c) = act1 (tapsOfStack x1) (biasRow x2) (imgOfBlock x0) r c := by
  unfold firstStage
  rw [pay4_eq, pickOf_apply, wmaxOf_apply, wmaxOf_apply, conv_apply, conv_apply, conv_apply, conv_apply]
  rfl

end Cert.ReferenceIdeal.Point

end
-- ==== Proof.RStage2.lean ====
/-
  The reference kernel's second stage read as values, for any contents P1 of the first scratch array: the 10-row
  piece of P1 at row offset d times slab d of the second band stack, the five products added in order, the bias row,
  the rectifier, the greater of the two 128-column halves, and the two products with the 0/1 matrices that pick the
  even and the odd rows (a product with such a matrix is the picked row: 0 * x = 0 and 1 * x = x for every extended
  real), whose greater entry is the pooled activation.
-/
import proofs.«134189_g2000305662181196_pallasbulk_93_21_alg».proof.Proof.RDefs
import proofs.«134189_g2000305662181196_pallasbulk_93_21_alg».proof.Proof.Layout
import proofs.«134189_g2000305662181196_pallasbulk_93_21_alg».proof.Proof.LibPlainDot
import proofs.«134189_g2000305662181196_pallasbulk_93_21_alg».proof.Proof.LibMatLayout
import Idealize.ShloMosaic.Lib.Pipeline.Value
import Idealize.ShloMosaic.Lib.ValueLayout

noncomputable section

namespace Cert.ReferenceIdeal.Point

open Cert.ReferenceIdeal Cert.ReferenceIdeal.Gen Cert.LeNet Idealize.ShloMosaic Idealize.ShloMosaic.ValueIdx

namespace Stage2

/-- A 10-row piece of the 14-row array at row offset off 0, column offset 0, read at (r, k). -/
theorem ld_rows (P1 : Vec Ideal S14x128 .f32) (off : Fin 2 → ℕ)
    (inb : ∀ a, off a + S10x128.size a ≤ S14x128.size a) (r : Fin 10) (k : Fin 128) (i : Fin 14)
    (hi : i.val = off 0 + r.val) (h1 : off 1 = 0) :
    View.ld P1 (Rect.unit (s := S14x128) off S10x128.size inb) (ix2 r k) = P1 (ix2 i k) := by
  show P1 ((Rect.unit (s := S14x128) off S10x128.size inb).idx (ix2 r k)) = P1 (ix2 i k)
  refine congrArg P1 (funext fun a => Fin.ext ?_)
  match a with
  | ⟨0, _⟩ => show off 0 + 1 * r.val = i.val; omega
  | ⟨1, _⟩ => show off 1 + 1 * k.val = k.val; omega

/-- One slab of the rank-3 stack, read at (0, k, c). -/
theorem ld_slab (x3 : Vec Ideal S5x128x256 .f32) (off : Fin 3 → ℕ)
    (inb : ∀ a, off a + S1x128x256.size a ≤ S5x128x256.size a) (d : Fin 5) (k : Fin 128) (c : Fin 256)
    (h0 : off 0 = d.val) (h1 : off 1 = 0) (h2 : off 2 = 0) :
    View.ld x3 (Rect.unit (s := S5x128x256) off S1x128x256.size inb) (ix3 (0 : Fin 1) k c) = x3 (ix3 d k c) := by
  show x3 ((Rect.unit (s := S5x128x256) off S1x128x256.size inb).idx (ix3 (0 : Fin 1) k c)) = x3 (ix3 d k c)
  refine congrArg x3 (funext fun a => Fin.ext ?_)
  match a with
  | ⟨0, _⟩ => show off 0 + 1 * 0 = d.val; omega
  | ⟨1, _⟩ => show off 1 + 1 * k.val = k.val; omega
  | ⟨2, _⟩ => show off 2 + 1 * c.val = c.val; omega

/-- The whole bias row loaded is the bias row. -/
theorem ld_bias (x4 : Vec Ideal S1x256 .f32) :
    View.ld x4 (Rect.unit (s := S1x256) ![0, 0] S1x256.size inb_S1x256_S1x256_0_0) = x4 :=
  View.ld_unit_zero (funext fun a => by match a with | ⟨0, _⟩ => rfl | ⟨1, _⟩ => rfl) _ x4

/-- One product of a 10-row piece with a slab, read at (r, c): the sum over the 128 contracted positions. -/
theorem prod_apply (rows : FVec Ideal S10x128 .f32) (slab : FVec Ideal S1x128x256 .f32) (r : Fin 10) (c : Fin 256) :
    matmul dot_S10x128_S128x256_S10x256_1_0_0_1_n_n none rows
        (shapeCast S128x256 slab shapeCasts_S1x128x256_S128x256) (constant S10x256 .f32 0x00000000#32) (ix2 r c)
      = ∑ k : Fin 128, rows (ix2 r k) * slab (ix3 (0 : Fin 1) k c) := by
  refine (Cert.PlainDot.matmul_zero_apply _ rfl none rows _ r c).trans ?_
  refine Finset.sum_congr rfl fun k _ => ?_
  exact congrArg (rows (ix2 r k) * ·) (shapeCast_1ab_ab_apply slab _ k c)

theorem two_mul_word : ∀ h : Fin 5, 2#32 * BitVec.ofNat 32 h.val = BitVec.ofNat 32 (2 * h.val) := by decide

theorem two_mul_add_word : ∀ h : Fin 5, 2#32 * BitVec.ofNat 32 h.val + 1#32 = BitVec.ofNat 32 (2 * h.val + 1) := by decide

/-- The float of the 0/1 word that compares two small naturals as 32-bit words is 1 when they are equal, else 0. -/
theorem sel_word (a b : ℕ) (ha : a < 4294967296) (hb : b < 4294967296) :
    (FloatOps.sitofp (F := Ideal) .f32 ((IntOp.cmpi .eq (BitVec.ofNat 32 a) (BitVec.ofNat 32 b)).setWidth 32) : EReal)
      = if a = b then 1 else 0 := by
  by_cases h : a = b
  · subst h
    rw [if_pos rfl]
    have e : IntOp.cmpi .eq (BitVec.ofNat 32 a) (BitVec.ofNat 32 a) = 1#1 := by
      simp [IntOp.cmpi]
    rw [e]
    show (((BitVec.setWidth 32 1#1).toInt : ℝ) : EReal) = 1
    have e2 : (BitVec.setWidth 32 1#1).toInt = 1 := by decide
    rw [e2]; simp
  · rw [if_neg h]
    have hne : BitVec.ofNat 32 a ≠ BitVec.ofNat 32 b := by
      intro e
      have := congrArg BitVec.toNat e
      simp only [BitVec.toNat_ofNat] at this
      omega
    have e : IntOp.cmpi .eq (BitVec.ofNat 32 a) (BitVec.ofNat 32 b) = 0#1 := by
      show BitVec.ofBool (BitVec.ofNat 32 a == BitVec.ofNat 32 b) = 0#1
      rw [beq_eq_false_iff_ne.mpr hne]; rfl
    rw [e]
    show (((BitVec.setWidth 32 0#1).toInt : ℝ) : EReal) = 0
    have e2 : (BitVec.setWidth 32 0#1).toInt = 0 := by decide
    rw [e2]; simp

/-- The matrix that picks the even rows: 1 at (h, k) when k = 2 h, else 0. -/
theorem selEven_apply (h : Fin 5) (k : Fin 10) :
    k0_pay7 (F := Ideal) (ix2 h k) = if k.val = 2 * h.val then 1 else 0 := by
  unfold k0_pay7
  show FloatOps.sitofp (F := Ideal) .f32 ((IntOp.cmpi .eq (iota .tc S5x10 32 [1] iota_S5x10_d1_w32 (ix2 h k))
      (2#32 * (iota .tc S5x10 32 [0] iota_S5x10_d0_w32 (ix2 h k)))).setWidth 32) = _
  rw [iota_single_apply, iota_single_apply]
  show FloatOps.sitofp (F := Ideal) .f32 ((IntOp.cmpi .eq (BitVec.ofNat 32 k.val) (2#32 * BitVec.ofNat 32 h.val)).setWidth 32) = _
  rw [two_mul_word h]
  exact sel_word _ _ (by omega) (by omega)

/-- A sum against a row that is 1 at one position and 0 elsewhere is the entry at that position. -/
theorem sum_pick (f : ℕ) (hf : f < 10) (w : Fin 10 → EReal) :
    ∑ k : Fin 10, (if k.val = f then (1 : EReal) else 0) * w k = w ⟨f, hf⟩ := by
  rw [Finset.sum_eq_single (⟨f, hf⟩ : Fin 10)]
  · rw [if_pos rfl, one_mul]
  · intro k _ hk
    rw [if_neg (fun e => hk (Fin.ext e)), zero_mul]
  · intro h; exact absurd (Finset.mem_univ _) h

/-- The matrix that picks the odd rows: 1 at (h, k) when k = 2 h + 1, else 0. -/
theorem selOdd_apply (h : Fin 5) (k : Fin 10) :
    (sitofp .f32 (extui 32 (cmpi .eq (iota Kind.tc S5x10 32 [1] iota_S5x10_d1_w32)
        (addi k0_pay8 (broadcast S5x10 1#32))) natLt_1_32) : FVec Ideal S5x10 .f32) (ix2 h k)
      = if k.val = 2 * h.val + 1 then 1 else 0 := by
  unfold k0_pay8
  show FloatOps.sitofp (F := Ideal) .f32 ((IntOp.cmpi .eq (iota .tc S5x10 32 [1] iota_S5x10_d1_w32 (ix2 h k))
      (2#32 * (iota .tc S5x10 32 [0] iota_S5x10_d0_w32 (ix2 h k)) + 1#32)).setWidth 32) = _
  rw [iota_single_apply, iota_single_apply]
  show FloatOps.sitofp (F := Ideal) .f32 ((IntOp.cmpi .eq (BitVec.ofNat 32 k.val) (2#32 * BitVec.ofNat 32 h.val + 1#32)).setWidth 32) = _
  rw [two_mul_add_word h]
  exact sel_word _ _ (by omega) (by omega)

/-- The two selection products and their greater entry: rows 2 h and 2 h + 1 of the 10-row array. -/
theorem pay9_apply (w : FVec Ideal S10x128 .f32) (h : Fin 5) (c : Fin 128) :
    k0_pay9 w (iota Kind.tc S5x10 32 [1] iota_S5x10_d1_w32) (k0_pay7 (F := Ideal)) k0_pay8 (ix2 h c)
      = max (w (ix2 (pairRow (H := 10) (R := 5) (by norm_num) h 0) c))
          (w (ix2 (pairRow (H := 10) (R := 5) (by norm_num) h 1) c)) := by
  unfold k0_pay9
  rw [shapeCast_self]
  refine (maximumf_apply _ _ _).trans ?_
  refine congrArg₂ max ?_ ?_
  · refine (Cert.PlainDot.matmul_zero_apply _ rfl none _ w h c).trans ?_
    have e : ∀ k : Fin 10, k0_pay7 (F := Ideal) (ix2 h k) * w (ix2 k c)
        = (if k.val = 2 * h.val then (1 : EReal) else 0) * (fun k : Fin 10 => w (ix2 k c)) k :=
      fun k => congrArg (· * w (ix2 k c)) (selEven_apply h k)
    rw [Finset.sum_congr rfl fun k _ => e k]
    exact sum_pick (2 * h.val) (by omega) _
  · refine (Cert.PlainDot.matmul_zero_apply _ rfl none _ w h c).trans ?_
    have e : ∀ k : Fin 10, (sitofp .f32 (extui 32 (cmpi .eq (iota Kind.tc S5x10 32 [1] iota_S5x10_d1_w32)
        (addi k0_pay8 (broadcast S5x10 1#32))) natLt_1_32) : FVec Ideal S5x10 .f32) (ix2 h k) * w (ix2 k c)
        = (if k.val = 2 * h.val + 1 then (1 : EReal) else 0) * (fun k : Fin 10 => w (ix2 k c)) k :=
      fun k => congrArg (· * w (ix2 k c)) (selOdd_apply h k)
    rw [Finset.sum_congr rfl fun k _ => e k]
    exact sum_pick (2 * h.val + 1) (by omega) _

/-- One product of a 10-row piece with a slab, into the zero accumulator. -/
def prodOf (rows : FVec Ideal S10x128 .f32) (slab : FVec Ideal S1x128x256 .f32) : FVec Ideal S10x256 .f32 :=
  matmul dot_S10x128_S128x256_S10x256_1_0_0_1_n_n none rows
    (shapeCast S128x256 slab shapeCasts_S1x128x256_S128x256) (constant S10x256 .f32 0x00000000#32)

theorem prodOf_apply (rows : FVec Ideal S10x128 .f32) (slab : FVec Ideal S1x128x256 .f32) (r : Fin 10) (c : Fin 256) :
    prodOf rows slab (ix2 r c) = ∑ k : Fin 128, rows (ix2 r k) * slab (ix3 (0 : Fin 1) k c) :=
  prod_apply rows slab r c

/-- The first product is one such product. -/
theorem pay5_eq (rows : FVec Ideal S10x128 .f32) (slab : FVec Ideal S1x128x256 .f32) :
    k0_pay5 rows slab = prodOf rows slab := rfl

/-- The rectified sum of a first product, four more products and the bias row, at one entry. -/
def convAt (p0 : FVec Ideal S10x256 .f32) (r1 : FVec Ideal S10x128 .f32) (s1 : FVec Ideal S1x128x256 .f32)
    (r2 : FVec Ideal S10x128 .f32) (s2 : FVec Ideal S1x128x256 .f32)
    (r3 : FVec Ideal S10x128 .f32) (s3 : FVec Ideal S1x128x256 .f32)
    (r4 : FVec Ideal S10x128 .f32) (s4 : FVec Ideal S1x128x256 .f32)
    (b : FVec Ideal S1x256 .f32) (r : Fin 10) (c : Fin 256) : EReal :=
  max (((((p0 (ix2 r c) + ∑ k : Fin 128, r1 (ix2 r k) * s1 (ix3 (0 : Fin 1) k c))
      + ∑ k : Fin 128, r2 (ix2 r k) * s2 (ix3 (0 : Fin 1) k c))
      + ∑ k : Fin 128, r3 (ix2 r k) * s3 (ix3 (0 : Fin 1) k c))
      + ∑ k : Fin 128, r4 (ix2 r k) * s4 (ix3 (0 : Fin 1) k c))
      + b (ix2 (0 : Fin 1) c)) Z

/-- The 10 × 256 array before the two halves are compared. -/
def pre6 (p0 : FVec Ideal S10x256 .f32) (r1 : FVec Ideal S10x128 .f32) (s1 : FVec Ideal S1x128x256 .f32)
    (r2 : FVec Ideal S10x128 .f32) (s2 : FVec Ideal S1x128x256 .f32)
    (r3 : FVec Ideal S10x128 .f32) (s3 : FVec Ideal S1x128x256 .f32)
    (r4 : FVec Ideal S10x128 .f32) (s4 : FVec Ideal S1x128x256 .f32)
    (b : FVec Ideal S1x256 .f32) : FVec Ideal S10x256 .f32 :=
  maximumf (addf (addf (addf (addf (addf p0 (prodOf r1 s1)) (prodOf r2 s2)) (prodOf r3 s3)) (prodOf r4 s4))
      (broadcastTo S10x256 b broadcasts_S1x256_S10x256))
    (broadcast S10x256 (Scalar.ofBits .f32 0x00000000#32))

theorem pre6_apply (p0 : FVec Ideal S10x256 .f32) (r1 : FVec Ideal S10x128 .f32) (s1 : FVec Ideal S1x128x256 .f32)
    (r2 : FVec Ideal S10x128 .f32) (s2 : FVec Ideal S1x128x256 .f32)
    (r3 : FVec Ideal S10x128 .f32) (s3 : FVec Ideal S1x128x256 .f32)
    (r4 : FVec Ideal S10x128 .f32) (s4 : FVec Ideal S1x128x256 .f32)
    (b : FVec Ideal S1x256 .f32) (r : Fin 10) (c : Fin 256) :
    pre6 p0 r1 s1 r2 s2 r3 s3 r4 s4 b (ix2 r c) = convAt p0 r1 s1 r2 s2 r3 s3 r4 s4 b r c := by
  show max (((((p0 (ix2 r c) + prodOf r1 s1 (ix2 r c)) + prodOf r2 s2 (ix2 r c)) + prodOf r3 s3 (ix2 r c))
      + prodOf r4 s4 (ix2 r c)) + broadcastTo S10x256 b broadcasts_S1x256_S10x256 (ix2 r c)) Z = _
  rw [prodOf_apply, prodOf_apply, prodOf_apply, prodOf_apply, broadcastTo_1b_ab_apply]
  rfl

theorem pay6_eq (p0 : FVec Ideal S10x256 .f32) (r1 : FVec Ideal S10x128 .f32) (s1 : FVec Ideal S1x128x256 .f32)
    (r2 : FVec Ideal S10x128 .f32) (s2 : FVec Ideal S1x128x256 .f32)
    (r3 : FVec Ideal S10x128 .f32) (s3 : FVec Ideal S1x128x256 .f32)
    (r4 : FVec Ideal S10x128 .f32) (s4 : FVec Ideal S1x128x256 .f32)
    (b : FVec Ideal S1x256 .f32) :
    k0_pay6 p0 r1 s1 r2 s2 r3 s3 r4 s4 b
      = maximumf (extractStridedSlice S10x128 ![0, 0] (pre6 p0 r1 s1 r2 s2 r3 s3 r4 s4 b) slices_S10x256_o0_0_S10x128)
          (extractStridedSlice S10x128 ![0, 128] (pre6 p0 r1 s1 r2 s2 r3 s3 r4 s4 b) slices_S10x256_o0_128_S10x128) := rfl

/-- The greater of the two 128-column halves at (r, c). -/
theorem pay6_apply (p0 : FVec Ideal S10x256 .f32) (r1 : FVec Ideal S10x128 .f32) (s1 : FVec Ideal S1x128x256 .f32)
    (r2 : FVec Ideal S10x128 .f32) (s2 : FVec Ideal S1x128x256 .f32)
    (r3 : FVec Ideal S10x128 .f32) (s3 : FVec Ideal S1x128x256 .f32)
    (r4 : FVec Ideal S10x128 .f32) (s4 : FVec Ideal S1x128x256 .f32)
    (b : FVec Ideal S1x256 .f32) (r : Fin 10) (c : Fin 128) :
    k0_pay6 p0 r1 s1 r2 s2 r3 s3 r4 s4 b (ix2 r c)
      = max (convAt p0 r1 s1 r2 s2 r3 s3 r4 s4 b r (halfCol c 0)) (convAt p0 r1 s1 r2 s2 r3 s3 r4 s4 b r (halfCol c 1)) := by
  rw [pay6_eq]
  refine (maximumf_apply _ _ _).trans ?_
  refine congrArg₂ max ?_ ?_
  · refine (Cert.MatLayout.slice2_apply ![0, 0] _ _ r c r (halfCol c 0) ?_ ?_).trans (pre6_apply _ _ _ _ _ _ _ _ _ _ r _)
    · show r.val = 0 + r.val; omega
    · show c.val + 128 * 0 = 0 + c.val; omega
  · refine (Cert.MatLayout.slice2_apply ![0, 128] _ _ r c r (halfCol c 1) ?_ ?_).trans (pre6_apply _ _ _ _ _ _ _ _ _ _ r _)
    · show r.val = 0 + r.val; omega
    · show c.val + 128 * 1 = 128 + c.val; omega

/-- The rectified sum of the kernel's five products and bias at (r, c) is the second convolution there. -/
theorem conv_at (P1 : Vec Ideal S14x128 .f32) (x3 : Vec Ideal S5x128x256 .f32) (x4 : Vec Ideal S1x256 .f32)
    (r : Fin 10) (c : Fin 256) :
    convAt
      (k0_pay5 (View.ld P1 (Rect.unit (s := S14x128) ![0, 0] S10x128.size inb_S14x128_S10x128_0_0)) (View.ld x3 (Rect.unit (s := S5x128x256) ![0, 0, 0] S1x128x256.size inb_S5x128x256_S1x128x256_0_0_0)))
      (View.ld P1 (Rect.unit (s := S14x128) ![1, 0] S10x128.size inb_S14x128_S10x128_1_0)) (View.ld x3 (Rect.unit (s := S5x128x256) ![1, 0, 0] S1x128x256.size inb_S5x128x256_S1x128x256_1_0_0))
      (View.ld P1 (Rect.unit (s := S14x128) ![2, 0] S10x128.size inb_S14x128_S10x128_2_0)) (View.ld x3 (Rect.unit (s := S5x128x256) ![2, 0, 0] S1x128x256.size inb_S5x128x256_S1x128x256_2_0_0))
      (View.ld P1 (Rect.unit (s := S14x128) ![3, 0] S10x128.size inb_S14x128_S10x128_3_0)) (View.ld x3 (Rect.unit (s := S5x128x256) ![3, 0, 0] S1x128x256.size inb_S5x128x256_S1x128x256_3_0_0))
      (View.ld P1 (Rect.unit (s := S14x128) ![4, 0] S10x128.size inb_S14x128_S10x128_4_0)) (View.ld x3 (Rect.unit (s := S5x128x256) ![4, 0, 0] S1x128x256.size inb_S5x128x256_S1x128x256_4_0_0))
      (View.ld x4 (Rect.unit (s := S1x256) ![0, 0] S1x256.size inb_S1x256_S1x256_0_0)) r c
      = conv2 (tapsOfStack x3) (biasRow x4) (matOf P1) r c := by
  unfold convAt conv2
  rw [Fin.sum_univ_five, pay5_eq, prodOf_apply, ld_bias]
  refine congrArg (max · Z) ?_
  refine congrArg₂ (· + ·) ?_ rfl
  refine congrArg₂ (· + ·) (congrArg₂ (· + ·) (congrArg₂ (· + ·) (congrArg₂ (· + ·) ?_ ?_) ?_) ?_) ?_
  · refine Finset.sum_congr rfl fun k _ => ?_
    refine congrArg₂ (· * ·) (ld_rows P1 _ _ r k _ ?_ rfl) (ld_slab x3 _ _ 0 k c rfl rfl rfl)
    show r.val + 0 = 0 + r.val; omega
  · refine Finset.sum_congr rfl fun k _ => ?_
    refine congrArg₂ (· * ·) (ld_rows P1 _ _ r k _ ?_ rfl) (ld_slab x3 _ _ 1 k c rfl rfl rfl)
    show r.val + 1 = 1 + r.val; omega
  · refine Finset.sum_congr rfl fun k _ => ?_
    refine congrArg₂ (· * ·) (ld_rows P1 _ _ r k _ ?_ rfl) (ld_slab x3 _ _ 2 k c rfl rfl rfl)
    show r.val + 2 = 2 + r.val; omega
  · refine Finset.sum_congr rfl fun k _ => ?_
    refine congrArg₂ (· * ·) (ld_rows P1 _ _ r k _ ?_ rfl) (ld_slab x3 _ _ 3 k c rfl rfl rfl)
    show r.val + 3 = 3 + r.val; omega
  · refine Finset.sum_congr rfl fun k _ => ?_
    refine congrArg₂ (· * ·) (ld_rows P1 _ _ r k _ ?_ rfl) (ld_slab x3 _ _ 4 k c rfl rfl rfl)
    show r.val + 4 = 4 + r.val; omega

end Stage2

open Stage2

/-- The second scratch array's contents are the pool of the second convolution of the first scratch array's. -/
theorem secondStage_apply (P1 : Vec Ideal S14x128 .f32) (x3 : Vec Ideal S5x128x256 .f32) (x4 : Vec Ideal S1x256 .f32)
    (h : Fin 5) (c : Fin 128) :
    secondStage (F := Ideal) P1 x3 x4 (ix2 h c)
      = pool (H := 10) (R := 5) (by norm_num) (conv2 (tapsOfStack x3) (biasRow x4) (matOf P1)) h c := by
  unfold secondStage
  refine (pay9_apply _ h c).trans ?_
  unfold Cert.LeNet.pool
  refine congrArg₂ max ?_ ?_
  · refine (pay6_apply _ _ _ _ _ _ _ _ _ _ _ c).trans ?_
    exact congrArg₂ max (conv_at P1 x3 x4 _ _) (conv_at P1 x3 x4 _ _)
  · refine (pay6_apply _ _ _ _ _ _ _ _ _ _ _ c).trans ?_
    exact congrArg₂ max (conv_at P1 x3 x4 _ _) (conv_at P1 x3 x4 _ _)

end Cert.ReferenceIdeal.Point

end
-- ==== Proof.RStage3.lean ====
/-
  The reference kernel's last stage read as values, for any contents P2 of the second scratch array: row h of P2
  times slab h of the first dense stack, the five products added in order, the bias, the rectifier; then the two
  remaining dense layers, each a one-row product plus a bias row, the first with a rectifier.
-/
import proofs.«134189_g2000305662181196_pallasbulk_93_21_alg».proof.Proof.RDefs
import proofs.«134189_g2000305662181196_pallasbulk_93_21_alg».proof.Proof.Layout
import proofs.«134189_g2000305662181196_pallasbulk_93_21_alg».proof.Proof.LibPlainDot
import proofs.«134189_g2000305662181196_pallasbulk_93_21_alg».proof.Proof.LibMatLayout
import Idealize.ShloMosaic.Lib.Pipeline.Value
import Idealize.ShloMosaic.Lib.ValueLayout

noncomputable section

namespace Cert.ReferenceIdeal.Point

open Cert.ReferenceIdeal Cert.ReferenceIdeal.Gen Cert.LeNet Idealize.ShloMosaic Idealize.ShloMosaic.ValueIdx

/-- Row h of a 5-row array, loaded as a one-row piece, read at lane k. -/
theorem ld_row (P2 : Vec Ideal S5x128 .f32) (off : Fin 2 → Nat)
    (inb : ∀ a, off a + S1x128.size a ≤ S5x128.size a) (h : Fin 5) (h0 : off 0 = h.val) (h1 : off 1 = 0)
    (k : Fin 128) :
    View.ld P2 (Rect.unit (s := S5x128) off S1x128.size inb) (ix2 (0 : Fin 1) k) = P2 (ix2 h k) := by
  show P2 ((Rect.unit (s := S5x128) off S1x128.size inb).emb (ix2 (0 : Fin 1) k)) = _
  congr 1
  funext a
  apply Fin.ext
  match a with
  | ⟨0, _⟩ =>
    show off 0 + 1 * 0 = h.val
    omega
  | ⟨1, _⟩ =>
    show off 1 + 1 * k.val = k.val
    omega

/-- Slab h of a stack of five 128×128 matrices, loaded as a one-slab piece and read as a matrix, at (k, c). -/
theorem ld_slab (x5 : Vec Ideal S5x128x128 .f32) (off : Fin 3 → Nat)
    (inb : ∀ a, off a + S1x128x128.size a ≤ S5x128x128.size a) (h : Fin 5) (h0 : off 0 = h.val) (h1 : off 1 = 0)
    (h2 : off 2 = 0) (k c : Fin 128) :
    View.ld x5 (Rect.unit (s := S5x128x128) off S1x128x128.size inb) (ix3 (0 : Fin 1) k c) = x5 (ix3 h k c) := by
  show x5 ((Rect.unit (s := S5x128x128) off S1x128x128.size inb).emb (ix3 (0 : Fin 1) k c)) = _
  congr 1
  funext a
  apply Fin.ext
  match a with
  | ⟨0, _⟩ =>
    show off 0 + 1 * 0 = h.val
    omega
  | ⟨1, _⟩ =>
    show off 1 + 1 * k.val = k.val
    omega
  | ⟨2, _⟩ =>
    show off 2 + 1 * c.val = c.val
    omega

/-- A one-row product against a slab read as a matrix: the sum over the 128 contracted positions. -/
theorem rowProd_apply (row : FVec Ideal S1x128 .f32) (slab : FVec Ideal S1x128x128 .f32) (c : Fin 128) :
    matmul dot_S1x128_S128x128_S1x128_1_0_0_1_n_n none row
        (shapeCast S128x128 slab shapeCasts_S1x128x128_S128x128) (constant S1x128 .f32 0x00000000#32)
        (ix2 (0 : Fin 1) c)
      = ∑ k : Fin 128, row (ix2 (0 : Fin 1) k) * slab (ix3 (0 : Fin 1) k c) := by
  refine (Cert.PlainDot.matmul_zero_apply dot_S1x128_S128x128_S1x128_1_0_0_1_n_n rfl none row _ (0 : Fin 1) c).trans ?_
  refine Finset.sum_congr rfl fun k _ => ?_
  exact congrArg (row (ix2 (0 : Fin 1) k) * ·) (shapeCast_1ab_ab_apply slab shapeCasts_S1x128x128_S128x128 k c)

/-- A one-row product against a plain matrix. -/
theorem rowMat_apply (row : FVec Ideal S1x128 .f32) (w : FVec Ideal S128x128 .f32) (c : Fin 128) :
    matmul dot_S1x128_S128x128_S1x128_1_0_0_1_n_n none row w (constant S1x128 .f32 0x00000000#32)
        (ix2 (0 : Fin 1) c)
      = ∑ k : Fin 128, row (ix2 (0 : Fin 1) k) * w (ix2 k c) :=
  Cert.PlainDot.matmul_zero_apply dot_S1x128_S128x128_S1x128_1_0_0_1_n_n rfl none row w (0 : Fin 1) c

/-- The four-term partial sum of the first dense layer at lane c: four one-row products added in order. -/
theorem pay10_apply (r0 : Vec Ideal S1x128 .f32) (s0 : Vec Ideal S1x128x128 .f32) (r1 : Vec Ideal S1x128 .f32)
    (s1 : Vec Ideal S1x128x128 .f32) (r2 : Vec Ideal S1x128 .f32) (s2 : Vec Ideal S1x128x128 .f32)
    (r3 : Vec Ideal S1x128 .f32) (s3 : Vec Ideal S1x128x128 .f32) (c : Fin 128) :
    k0_pay10 (F := Ideal) r0 s0 r1 s1 r2 s2 r3 s3 (ix2 (0 : Fin 1) c)
      = (((∑ k : Fin 128, r0 (ix2 (0 : Fin 1) k) * s0 (ix3 (0 : Fin 1) k c))
          + ∑ k : Fin 128, r1 (ix2 (0 : Fin 1) k) * s1 (ix3 (0 : Fin 1) k c))
          + ∑ k : Fin 128, r2 (ix2 (0 : Fin 1) k) * s2 (ix3 (0 : Fin 1) k c))
          + ∑ k : Fin 128, r3 (ix2 (0 : Fin 1) k) * s3 (ix3 (0 : Fin 1) k c) :=
  congrArg₂ (· + ·) (congrArg₂ (· + ·) (congrArg₂ (· + ·) (rowProd_apply r0 s0 c) (rowProd_apply r1 s1 c))
    (rowProd_apply r2 s2 c)) (rowProd_apply r3 s3 c)

/-- A one-row product plus a bias row, then the maximum with zero, at lane c: the middle dense layer. -/
theorem dense2_apply (v : FVec Ideal S1x128 .f32) (w : FVec Ideal S128x128 .f32) (b : FVec Ideal S1x128 .f32)
    (c : Fin 128) :
    maximumf (addf (matmul dot_S1x128_S128x128_S1x128_1_0_0_1_n_n none v w (constant S1x128 .f32 0x00000000#32)) b)
        (broadcast S1x128 (Scalar.ofBits (F := Ideal) .f32 0x00000000#32)) (ix2 (0 : Fin 1) c)
      = dense2 (matOf w) (biasRow b) (fun k => v (ix2 (0 : Fin 1) k)) c :=
  congrArg (fun t => max (t + b (ix2 (0 : Fin 1) c)) Z) (rowMat_apply v w c)

/-- A one-row product plus a bias row, stored with two leading unit axes, at lane c: the last dense layer. -/
theorem dense3_apply (v : FVec Ideal S1x128 .f32) (w : FVec Ideal S128x128 .f32) (b : FVec Ideal S1x128 .f32)
    (c : Fin 128) :
    shapeCast S1x1x128
        (addf (matmul dot_S1x128_S128x128_S1x128_1_0_0_1_n_n none v w (constant S1x128 .f32 0x00000000#32)) b)
        shapeCasts_S1x128_S1x1x128 (ix3 (0 : Fin 1) (0 : Fin 1) c)
      = dense3 (matOf w) (biasRow b) (fun k => v (ix2 (0 : Fin 1) k)) c :=
  (shapeCast_ab_1ab_apply _ shapeCasts_S1x128_S1x1x128 (0 : Fin 1) (0 : Fin 1) c).trans
    (congrArg (fun t => t + b (ix2 (0 : Fin 1) c)) (rowMat_apply v w c))

/-- The tail of the kernel at lane c: the fifth product and the bias row added to the partial sum, the rectifier,
    then the two remaining dense layers. -/
theorem pay1_apply (v127 : FVec Ideal S1x128 .f32) (r4 : Vec Ideal S1x128 .f32) (s4 : Vec Ideal S1x128x128 .f32)
    (b1 : Vec Ideal S1x128 .f32) (w2 : Vec Ideal S128x128 .f32) (b2 : Vec Ideal S1x128 .f32)
    (w3 : Vec Ideal S128x128 .f32) (b3 : Vec Ideal S1x128 .f32) (c : Fin 128) :
    k0_pay1 (F := Ideal) v127 r4 s4 b1 w2 b2 w3 b3 (ix3 (0 : Fin 1) (0 : Fin 1) c)
      = dense3 (matOf w3) (biasRow b3) (dense2 (matOf w2) (biasRow b2)
          (fun j => max ((v127 (ix2 (0 : Fin 1) j)
              + ∑ k : Fin 128, r4 (ix2 (0 : Fin 1) k) * s4 (ix3 (0 : Fin 1) k j)) + b1 (ix2 (0 : Fin 1) j)) Z)) c := by
  unfold k0_pay1
  refine (dense3_apply _ w3 b3 c).trans ?_
  refine congrArg (fun v => dense3 (matOf w3) (biasRow b3) v c) (funext fun k => ?_)
  refine (dense2_apply _ w2 b2 k).trans ?_
  refine congrArg (fun v => dense2 (matOf w2) (biasRow b2) v k) (funext fun j => ?_)
  exact congrArg (fun t => max ((v127 (ix2 (0 : Fin 1) j) + t) + b1 (ix2 (0 : Fin 1) j)) Z) (rowProd_apply r4 s4 j)

/-- The product of loaded row h with loaded slab h at lane j is the sum over k of P2 (h, k) times x5 (h, k, j). -/
theorem sumRow (P2 : Vec Ideal S5x128 .f32) (x5 : Vec Ideal S5x128x128 .f32) (o2 : Fin 2 → Nat)
    (i2 : ∀ a, o2 a + S1x128.size a ≤ S5x128.size a) (o3 : Fin 3 → Nat)
    (i3 : ∀ a, o3 a + S1x128x128.size a ≤ S5x128x128.size a) (h : Fin 5) (a0 : o2 0 = h.val) (a1 : o2 1 = 0)
    (c0 : o3 0 = h.val) (c1 : o3 1 = 0) (c2 : o3 2 = 0) (j : Fin 128) :
    ∑ k : Fin 128, View.ld P2 (Rect.unit (s := S5x128) o2 S1x128.size i2) (ix2 (0 : Fin 1) k)
        * View.ld x5 (Rect.unit (s := S5x128x128) o3 S1x128x128.size i3) (ix3 (0 : Fin 1) k j)
      = ∑ k : Fin 128, matOf P2 h k * tapsOfStack x5 h k j :=
  Finset.sum_congr rfl fun k _ => congrArg₂ (· * ·) (ld_row P2 o2 i2 h a0 a1 k) (ld_slab x5 o3 i3 h c0 c1 c2 k j)

/-- The output block's 128 lanes are the dense head of the second scratch array's contents. -/
theorem lastStage_apply (P2 : Vec Ideal S5x128 .f32) (x5 : Vec Ideal S5x128x128 .f32) (x6 : Vec Ideal S1x128 .f32)
    (x7 : Vec Ideal S128x128 .f32) (x8 : Vec Ideal S1x128 .f32) (x9 : Vec Ideal S128x128 .f32)
    (x10 : Vec Ideal S1x128 .f32) (c : Fin 128) :
    lastStage (F := Ideal) P2 x5 x6 x7 x8 x9 x10 (ix3 (0 : Fin 1) (0 : Fin 1) c)
      = head (tapsOfStack x5) (biasRow x6) (matOf x7) (biasRow x8) (matOf x9) (biasRow x10) (matOf P2) c := by
  have hz : (![0, 0] : Fin 2 → Nat) = fun _ => 0 := by
    funext a; match a with | ⟨0, _⟩ => rfl | ⟨1, _⟩ => rfl
  have h6 : View.ld x6 (Rect.unit (s := S1x128) ![0, 0] S1x128.size inb_S1x128_S1x128_0_0) = x6 :=
    View.ld_unit_zero hz _ x6
  have h7 : View.ld x7 (Rect.unit (s := S128x128) ![0, 0] S128x128.size inb_S128x128_S128x128_0_0) = x7 :=
    View.ld_unit_zero hz _ x7
  have h8 : View.ld x8 (Rect.unit (s := S1x128) ![0, 0] S1x128.size inb_S1x128_S1x128_0_0) = x8 :=
    View.ld_unit_zero hz _ x8
  have h9 : View.ld x9 (Rect.unit (s := S128x128) ![0, 0] S128x128.size inb_S128x128_S128x128_0_0) = x9 :=
    View.ld_unit_zero hz _ x9
  have h10 : View.ld x10 (Rect.unit (s := S1x128) ![0, 0] S1x128.size inb_S1x128_S1x128_0_0) = x10 :=
    View.ld_unit_zero hz _ x10
  unfold lastStage
  rw [h6, h7, h8, h9, h10]
  refine (pay1_apply _ _ _ x6 x7 x8 x9 x10 c).trans ?_
  unfold head
  refine congrArg (fun v => dense3 (matOf x9) (biasRow x10) (dense2 (matOf x7) (biasRow x8) v) c) (funext fun j => ?_)
  unfold dense1
  rw [Fin.sum_univ_five, pay10_apply]
  exact congrArg (fun t => max (t + x6 (ix2 (0 : Fin 1) j)) Z)
    (congrArg₂ (· + ·) (congrArg₂ (· + ·) (congrArg₂ (· + ·) (congrArg₂ (· + ·)
      (sumRow P2 x5 _ _ _ _ 0 rfl rfl rfl rfl rfl j) (sumRow P2 x5 _ _ _ _ 1 rfl rfl rfl rfl rfl j))
      (sumRow P2 x5 _ _ _ _ 2 rfl rfl rfl rfl rfl j)) (sumRow P2 x5 _ _ _ _ 3 rfl rfl rfl rfl rfl j))
      (sumRow P2 x5 _ _ _ _ 4 rfl rfl rfl rfl rfl j))

end Cert.ReferenceIdeal.Point

end
-- ==== Proof.RPoint.lean ====
/-
  One grid point of the reference, as values: lane c of the block it writes back is the network's output lane c on
  the image it loaded, the two scratch arrays being the two pooled activations.
-/
import proofs.«134189_g2000305662181196_pallasbulk_93_21_alg».proof.Proof.RPieces
import proofs.«134189_g2000305662181196_pallasbulk_93_21_alg».proof.Proof.RStage1
import proofs.«134189_g2000305662181196_pallasbulk_93_21_alg».proof.Proof.RStage2
import proofs.«134189_g2000305662181196_pallasbulk_93_21_alg».proof.Proof.RStage3

noncomputable section

namespace Cert.ReferenceIdeal.Point

open Cert.ReferenceIdeal Cert.ReferenceIdeal.Gen Cert.LeNet Idealize.ShloMosaic Idealize.ShloMosaic.ValueIdx

/-- The output block after the body at lane c, from the blocks the body loads: the image x0, the three weight stacks
    x1, x3, x5, the dense matrices x7, x9 and the five bias rows. -/
theorem ref_point (c : Dev nD) (i : grid0.Coords) (arg1 : Memref sig .tc .vmem S1x32x32 .f32) (harg1 : arg1.IsWhole) (arg2 : Memref sig .tc .vmem S5x32x256 .f32) (harg2 : arg2.IsWhole) (arg3 : Memref sig .tc .vmem S1x256 .f32) (harg3 : arg3.IsWhole) (arg4 : Memref sig .tc .vmem S5x128x256 .f32) (harg4 : arg4.IsWhole) (arg5 : Memref sig .tc .vmem S1x256 .f32) (harg5 : arg5.IsWhole) (arg6 : Memref sig .tc .vmem S5x128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S14x128 .f32) (harg13 : arg13.IsWhole) (arg14 : Memref sig .tc .vmem S5x128 .f32) (harg14 : arg14.IsWhole) (x0 : Vec Ideal S1x32x32 .f32) (x1 : Vec Ideal S5x32x256 .f32) (x2 : Vec Ideal S1x256 .f32) (x3 : Vec Ideal S5x128x256 .f32) (x4 : Vec Ideal S1x256 .f32) (x5 : Vec Ideal S5x128x128 .f32) (x6 : Vec Ideal S1x128 .f32) (x7 : Vec Ideal S128x128 .f32) (x8 : Vec Ideal S1x128 .f32) (x9 : Vec Ideal S128x128 .f32) (x10 : Vec Ideal S1x128 .f32) (c' : Fin 128) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 (ix3 (0 : Fin 1) (0 : Fin 1) c')
      = lenet (tapsOfStack x1) (biasRow x2) (tapsOfStack x3) (biasRow x4) (tapsOfStack x5) (biasRow x6)
          (matOf x7) (biasRow x8) (matOf x9) (biasRow x10) (imgOfBlock x0) c' := by
  rw [out_eq]
  refine (lastStage_apply _ x5 x6 x7 x8 x9 x10 c').trans ?_
  have e2 : matOf (secondStage (F := Ideal) (firstStage x0 x1 x2) x3 x4)
      = act2 (tapsOfStack x1) (biasRow x2) (tapsOfStack x3) (biasRow x4) (imgOfBlock x0) := by
    funext h k
    refine (secondStage_apply _ x3 x4 h k).trans ?_
    have e1 : matOf (firstStage (F := Ideal) x0 x1 x2) = act1 (tapsOfStack x1) (biasRow x2) (imgOfBlock x0) := by
      funext r q
      exact firstStage_apply x0 x1 x2 r q
    rw [e1]
    rfl
  rw [e2]
  rfl

end Cert.ReferenceIdeal.Point

end
-- ==== Proof.RArray.lean ====
/-
  The reference's whole run, as values: grid point b loads image b and writes the one-row block b of an
  8192×1×128 array, the network's 128 output lanes on that image; the 8192 blocks are disjoint and fill the array.
  The host first drops the batch's unit axis and afterwards keeps the first ten lanes and drops the unit axis.
-/
import proofs.«134189_g2000305662181196_pallasbulk_93_21_alg».proof.Proof.Gen.ReferenceIdeal.Frame
import proofs.«134189_g2000305662181196_pallasbulk_93_21_alg».proof.Proof.RPoint
import proofs.«134189_g2000305662181196_pallasbulk_93_21_alg».proof.Proof.Whole
import Idealize.ShloMosaic.Lib.Pipeline.Value
import Idealize.ShloMosaic.Lib.StableHlo.Run

set_option maxRecDepth 16384

noncomputable section

namespace Cert.ReferenceIdeal.Whole

open Cert.ReferenceIdeal Cert.ReferenceIdeal.Gen Cert.LeNet Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The stacked images as the region finds them: the batch array with its unit axis dropped. -/
theorem stack_eq (c : Dev nD) : (V m c main_v0 : S8192x32x32.Idx → EReal)
    = shapeCast S8192x32x32 (m ((c : Thread nD τ).loc main_arg10)) shapeCasts_S8192x1x32x32_S8192x32x32 := by
  show StableHlo.after hostOps0 (fun b => m (c, b)) (Proc.devRef .tc main_v0) = _
  after_results
  rfl

/-- Row r, column q of image b of the stack is entry (b, 0, r, q) of the batch array. -/
theorem stack_apply (c : Dev nD) (b : Fin 8192) (r q : Fin 32) :
    (V m c main_v0 : S8192x32x32.Idx → EReal) (ix3 b r q) = m ((c : Thread nD τ).loc main_arg10) (ix4 b (0 : Fin 1) r q) := by
  rw [stack_eq]
  refine shapeCast_apply _ _ (ix3 b r q) (ix4 b (0 : Fin 1) r q) ?_
  rw [Shape.rowMajor_val_four, Shape.rowMajor_val_three]
  show ((b.val * 1 + 0) * 32 + r.val) * 32 + q.val = (b.val * 32 + r.val) * 32 + q.val
  omega

/-- A grid point is below 8192. -/
theorem point_lt (t : Fin cfg0.N) : t.val < 8192 := by
  have h := t.isLt
  have hN : cfg0.N = 8192 := N_0
  omega

/-- The image window's block index at point t is (t, 0, 0). -/
theorem img_index (t : Fin cfg0.N) :
    win0_0.index t (0 : Fin 3) = t.val ∧ win0_0.index t (1 : Fin 3) = 0 ∧ win0_0.index t (2 : Fin 3) = 0 := by
  have ht := point_lt t
  refine ⟨?_, rfl, rfl⟩
  show (BitVec.ofNat 32 (t.val / grid0.stride 0 % 8192)).toNat = t.val
  rw [show grid0.stride 0 = 1 from by decide, BitVec.toNat_ofNat]
  omega

/-- The output window's block index at point t is (t, 0, 0). -/
theorem out_index (t : Fin cfg0.N) :
    win0_11.index t (0 : Fin 3) = t.val ∧ win0_11.index t (1 : Fin 3) = 0 ∧ win0_11.index t (2 : Fin 3) = 0 := by
  have ht := point_lt t
  refine ⟨?_, rfl, rfl⟩
  show (BitVec.ofNat 32 (t.val / grid0.stride 0 % 8192)).toNat = t.val
  rw [show grid0.stride 0 = 1 from by decide, BitVec.toNat_ofNat]
  omega

/-- The image block point t loads is image t of the batch. -/
theorem img_blk (c : Dev nD) (t : Fin cfg0.N) :
    imgOfBlock (iblk m c 0 t : Vec Ideal S1x32x32 .f32)
      = fun r q => m ((c : Thread nD τ).loc main_arg10) (ix4 (⟨t.val, point_lt t⟩ : Fin 8192) (0 : Fin 1) r q) := by
  funext r q
  show (iblk m c 0 t : Vec Ideal S1x32x32 .f32) (ix3 (0 : Fin 1) r q) = _
  unfold iblk
  rw [View.read_apply]
  show V m c main_v0 (((cfg0.win 0).blk t).view.emb (ix3 (0 : Fin 1) r q)) = _
  have e : ((cfg0.win 0).blk t).view.emb (ix3 (0 : Fin 1) r q) = ix3 (⟨t.val, point_lt t⟩ : Fin 8192) r q := by
    obtain ⟨e0, e1, e2⟩ := img_index t
    funext a; apply Fin.ext
    match a with
    | ⟨0, _⟩ => show win0_0.index t (0 : Fin 3) * 1 + 1 * 0 = t.val; omega
    | ⟨1, _⟩ => show win0_0.index t (1 : Fin 3) * 32 + 1 * r.val = r.val; omega
    | ⟨2, _⟩ => show win0_0.index t (2 : Fin 3) * 32 + 1 * q.val = q.val; omega
  rw [e]
  exact stack_apply m c _ r q

/-- The first convolution's weight stack is loaded whole at every point. -/
theorem whole_blk1 (c : Dev nD) (t : Fin cfg0.N) :
    (iblk m c 1 t : Vec Ideal S5x32x256 .f32) = m ((c : Thread nD τ).loc main_arg0) := by
  funext y
  unfold iblk
  rw [View.read_apply]
  show V m c main_arg0 (((cfg0.win 1).blk t).view.emb y) = _
  refine (congrFun (V_main_arg0 m c) _).trans (congrArg _ ?_)
  funext a; apply Fin.ext
  match a with
  | ⟨0, _⟩ => show win0_1.index t (0 : Fin 3) * 5 + 1 * (y 0).val = (y 0).val; rw [show win0_1.index t (0 : Fin 3) = 0 from rfl]; omega
  | ⟨1, _⟩ => show win0_1.index t (1 : Fin 3) * 32 + 1 * (y 1).val = (y 1).val; rw [show win0_1.index t (1 : Fin 3) = 0 from rfl]; omega
  | ⟨2, _⟩ => show win0_1.index t (2 : Fin 3) * 256 + 1 * (y 2).val = (y 2).val; rw [show win0_1.index t (2 : Fin 3) = 0 from rfl]; omega

/-- The first convolution's bias row is loaded whole at every point. -/
theorem whole_blk2 (c : Dev nD) (t : Fin cfg0.N) :
    (iblk m c 2 t : Vec Ideal S1x256 .f32) = m ((c : Thread nD τ).loc main_arg1) := by
  funext y
  unfold iblk
  rw [View.read_apply]
  show V m c main_arg1 (((cfg0.win 2).blk t).view.emb y) = _
  refine (congrFun (V_main_arg1 m c) _).trans (congrArg _ ?_)
  funext a; apply Fin.ext
  match a with
  | ⟨0, _⟩ => show win0_2.index t (0 : Fin 2) * 1 + 1 * (y 0).val = (y 0).val; rw [show win0_2.index t (0 : Fin 2) = 0 from rfl]; omega
  | ⟨1, _⟩ => show win0_2.index t (1 : Fin 2) * 256 + 1 * (y 1).val = (y 1).val; rw [show win0_2.index t (1 : Fin 2) = 0 from rfl]; omega

/-- The second convolution's weight stack is loaded whole at every point. -/
theorem whole_blk3 (c : Dev nD) (t : Fin cfg0.N) :
    (iblk m c 3 t : Vec Ideal S5x128x256 .f32) = m ((c : Thread nD τ).loc main_arg2) := by
  funext y
  unfold iblk
  rw [View.read_apply]
  show V m c main_arg2 (((cfg0.win 3).blk t).view.emb y) = _
  refine (congrFun (V_main_arg2 m c) _).trans (congrArg _ ?_)
  funext a; apply Fin.ext
  match a with
  | ⟨0, _⟩ => show win0_3.index t (0 : Fin 3) * 5 + 1 * (y 0).val = (y 0).val; rw [show win0_3.index t (0 : Fin 3) = 0 from rfl]; omega
  | ⟨1, _⟩ => show win0_3.index t (1 : Fin 3) * 128 + 1 * (y 1).val = (y 1).val; rw [show win0_3.index t (1 : Fin 3) = 0 from rfl]; omega
  | ⟨2, _⟩ => show win0_3.index t (2 : Fin 3) * 256 + 1 * (y 2).val = (y 2).val; rw [show win0_3.index t (2 : Fin 3) = 0 from rfl]; omega

/-- The second convolution's bias row is loaded whole at every point. -/
theorem whole_blk4 (c : Dev nD) (t : Fin cfg0.N) :
    (iblk m c 4 t : Vec Ideal S1x256 .f32) = m ((c : Thread nD τ).loc main_arg3) := by
  funext y
  unfold iblk
  rw [View.read_apply]
  show V m c main_arg3 (((cfg0.win 4).blk t).view.emb y) = _
  refine (congrFun (V_main_arg3 m c) _).trans (congrArg _ ?_)
  funext a; apply Fin.ext
  match a with
  | ⟨0, _⟩ => show win0_4.index t (0 : Fin 2) * 1 + 1 * (y 0).val = (y 0).val; rw [show win0_4.index t (0 : Fin 2) = 0 from rfl]; omega
  | ⟨1, _⟩ => show win0_4.index t (1 : Fin 2) * 256 + 1 * (y 1).val = (y 1).val; rw [show win0_4.index t (1 : Fin 2) = 0 from rfl]; omega

/-- The first dense layer's weight stack is loaded whole at every point. -/
theorem whole_blk5 (c : Dev nD) (t : Fin cfg0.N) :
    (iblk m c 5 t : Vec Ideal S5x128x128 .f32) = m ((c : Thread nD τ).loc main_arg4) := by
  funext y
  unfold iblk
  rw [View.read_apply]
  show V m c main_arg4 (((cfg0.win 5).blk t).view.emb y) = _
  refine (congrFun (V_main_arg4 m c) _).trans (congrArg _ ?_)
  funext a; apply Fin.ext
  match a with
  | ⟨0, _⟩ => show win0_5.index t (0 : Fin 3) * 5 + 1 * (y 0).val = (y 0).val; rw [show win0_5.index t (0 : Fin 3) = 0 from rfl]; omega
  | ⟨1, _⟩ => show win0_5.index t (1 : Fin 3) * 128 + 1 * (y 1).val = (y 1).val; rw [show win0_5.index t (1 : Fin 3) = 0 from rfl]; omega
  | ⟨2, _⟩ => show win0_5.index t (2 : Fin 3) * 128 + 1 * (y 2).val = (y 2).val; rw [show win0_5.index t (2 : Fin 3) = 0 from rfl]; omega

/-- The first dense layer's bias row is loaded whole at every point. -/
theorem whole_blk6 (c : Dev nD) (t : Fin cfg0.N) :
    (iblk m c 6 t : Vec Ideal S1x128 .f32) = m ((c : Thread nD τ).loc main_arg5) := by
  funext y
  unfold iblk
  rw [View.read_apply]
  show V m c main_arg5 (((cfg0.win 6).blk t).view.emb y) = _
  refine (congrFun (V_main_arg5 m c) _).trans (congrArg _ ?_)
  funext a; apply Fin.ext
  match a with
  | ⟨0, _⟩ => show win0_6.index t (0 : Fin 2) * 1 + 1 * (y 0).val = (y 0).val; rw [show win0_6.index t (0 : Fin 2) = 0 from rfl]; omega
  | ⟨1, _⟩ => show win0_6.index t (1 : Fin 2) * 128 + 1 * (y 1).val = (y 1).val; rw [show win0_6.index t (1 : Fin 2) = 0 from rfl]; omega

/-- The second dense layer's matrix is loaded whole at every point. -/
theorem whole_blk7 (c : Dev nD) (t : Fin cfg0.N) :
    (iblk m c 7 t : Vec Ideal S128x128 .f32) = m ((c : Thread nD τ).loc main_arg6) := by
  funext y
  unfold iblk
  rw [View.read_apply]
  show V m c main_arg6 (((cfg0.win 7).blk t).view.emb y) = _
  refine (congrFun (V_main_arg6 m c) _).trans (congrArg _ ?_)
  funext a; apply Fin.ext
  match a with
  | ⟨0, _⟩ => show win0_7.index t (0 : Fin 2) * 128 + 1 * (y 0).val = (y 0).val; rw [show win0_7.index t (0 : Fin 2) = 0 from rfl]; omega
  | ⟨1, _⟩ => show win0_7.index t (1 : Fin 2) * 128 + 1 * (y 1).val = (y 1).val; rw [show win0_7.index t (1 : Fin 2) = 0 from rfl]; omega

/-- The second dense layer's bias row is loaded whole at every point. -/
theorem whole_blk8 (c : Dev nD) (t : Fin cfg0.N) :
    (iblk m c 8 t : Vec Ideal S1x128 .f32) = m ((c : Thread nD τ).loc main_arg7) := by
  funext y
  unfold iblk
  rw [View.read_apply]
  show V m c main_arg7 (((cfg0.win 8).blk t).view.emb y) = _
  refine (congrFun (V_main_arg7 m c) _).trans (congrArg _ ?_)
  funext a; apply Fin.ext
  match a with
  | ⟨0, _⟩ => show win0_8.index t (0 : Fin 2) * 1 + 1 * (y 0).val = (y 0).val; rw [show win0_8.index t (0 : Fin 2) = 0 from rfl]; omega
  | ⟨1, _⟩ => show win0_8.index t (1 : Fin 2) * 128 + 1 * (y 1).val = (y 1).val; rw [show win0_8.index t (1 : Fin 2) = 0 from rfl]; omega

/-- The third dense layer's matrix is loaded whole at every point. -/
theorem whole_blk9 (c : Dev nD) (t : Fin cfg0.N) :
    (iblk m c 9 t : Vec Ideal S128x128 .f32) = m ((c : Thread nD τ).loc main_arg8) := by
  funext y
  unfold iblk
  rw [View.read_apply]
  show V m c main_arg8 (((cfg0.win 9).blk t).view.emb y) = _
  refine (congrFun (V_main_arg8 m c) _).trans (congrArg _ ?_)
  funext a; apply Fin.ext
  match a with
  | ⟨0, _⟩ => show win0_9.index t (0 : Fin 2) * 128 + 1 * (y 0).val = (y 0).val; rw [show win0_9.index t (0 : Fin 2) = 0 from rfl]; omega
  | ⟨1, _⟩ => show win0_9.index t (1 : Fin 2) * 128 + 1 * (y 1).val = (y 1).val; rw [show win0_9.index t (1 : Fin 2) = 0 from rfl]; omega

/-- The third dense layer's bias row is loaded whole at every point. -/
theorem whole_blk10 (c : Dev nD) (t : Fin cfg0.N) :
    (iblk m c 10 t : Vec Ideal S1x128 .f32) = m ((c : Thread nD τ).loc main_arg9) := by
  funext y
  unfold iblk
  rw [View.read_apply]
  show V m c main_arg9 (((cfg0.win 10).blk t).view.emb y) = _
  refine (congrFun (V_main_arg9 m c) _).trans (congrArg _ ?_)
  funext a; apply Fin.ext
  match a with
  | ⟨0, _⟩ => show win0_10.index t (0 : Fin 2) * 1 + 1 * (y 0).val = (y 0).val; rw [show win0_10.index t (0 : Fin 2) = 0 from rfl]; omega
  | ⟨1, _⟩ => show win0_10.index t (1 : Fin 2) * 128 + 1 * (y 1).val = (y 1).val; rw [show win0_10.index t (1 : Fin 2) = 0 from rfl]; omega

/-- The lane array of the network on a batch: entry (b, 0, l) is output lane l on image b. -/
def lanesOf (a0 : (⟨3, ![5, 32, 256]⟩ : Shape).Idx → EReal) (a1 : (⟨2, ![1, 256]⟩ : Shape).Idx → EReal)
    (a2 : (⟨3, ![5, 128, 256]⟩ : Shape).Idx → EReal) (a3 : (⟨2, ![1, 256]⟩ : Shape).Idx → EReal)
    (a4 : (⟨3, ![5, 128, 128]⟩ : Shape).Idx → EReal) (a5 : (⟨2, ![1, 128]⟩ : Shape).Idx → EReal)
    (a6 : (⟨2, ![128, 128]⟩ : Shape).Idx → EReal) (a7 : (⟨2, ![1, 128]⟩ : Shape).Idx → EReal)
    (a8 : (⟨2, ![128, 128]⟩ : Shape).Idx → EReal) (a9 : (⟨2, ![1, 128]⟩ : Shape).Idx → EReal)
    (a10 : (⟨4, ![8192, 1, 32, 32]⟩ : Shape).Idx → EReal) : (⟨3, ![8192, 1, 128]⟩ : Shape).Idx → EReal :=
  fun i => lenet (tapsOfStack a0) (biasRow a1) (tapsOfStack a2) (biasRow a3) (tapsOfStack a4) (biasRow a5)
    (matOf a6) (biasRow a7) (matOf a8) (biasRow a9)
    (fun r q => a10 (ix4 (⟨(i 0).val, (i 0).isLt⟩ : Fin 8192) (0 : Fin 1) r q)) (⟨(i 2).val, (i 2).isLt⟩ : Fin 128)

/-- The lane array on core c's arguments as launched. -/
abbrev lanes (c : Dev nD) : S8192x1x128.Idx → EReal :=
  lanesOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- What point t leaves in its output block at lane l: the network's lane l on image t. -/
theorem point_lane (c : Dev nD) (t : Fin cfg0.N) (l : Fin 128) :
    outsAt0 m c t (ix3 (0 : Fin 1) (0 : Fin 1) l) = lanes m c (ix3 (⟨t.val, point_lt t⟩ : Fin 8192) (0 : Fin 1) l) := by
  unfold outsAt0
  refine (Point.ref_point c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) l).trans ?_
  rw [img_blk m c t, whole_blk1 m c t, whole_blk2 m c t, whole_blk3 m c t, whole_blk4 m c t, whole_blk5 m c t,
    whole_blk6 m c t, whole_blk7 m c t, whole_blk8 m c t, whole_blk9 m c t, whole_blk10 m c t]
  rfl

/-- What point t writes back is block t of the lane array. -/
theorem flushed_eq (c : Dev nD) (t : Fin cfg0.N) :
    (dats m 0 c).flushed 11 t = ((cfg0.win 11).blk t).view.read (Elt Ideal) (lanes m c) := by
  show (cfg0.win 11).cut (grid0.coords t) ((dats m 0 c).after 11 t) = _
  rw [after0_11]
  refine funext fun (y : S1x1x128.Idx) => ?_
  rw [View.read_apply]
  show outsAt0 m c t y = lanes m c (((cfg0.win 11).blk t).view.emb y)
  obtain ⟨l, rfl⟩ : ∃ l : Fin 128, y = ix3 (0 : Fin 1) (0 : Fin 1) l :=
    ⟨y 2, funext fun a => match a with
      | ⟨0, _⟩ => Fin.ext (Nat.lt_one_iff.mp (y 0).isLt)
      | ⟨1, _⟩ => Fin.ext (Nat.lt_one_iff.mp (y 1).isLt)
      | ⟨2, _⟩ => rfl⟩
  have e : ((cfg0.win 11).blk t).view.emb (ix3 (0 : Fin 1) (0 : Fin 1) l) = ix3 (⟨t.val, point_lt t⟩ : Fin 8192) (0 : Fin 1) l := by
    obtain ⟨e0, e1, e2⟩ := out_index t
    funext a; apply Fin.ext
    match a with
    | ⟨0, _⟩ => show win0_11.index t (0 : Fin 3) * 1 + 1 * 0 = t.val; omega
    | ⟨1, _⟩ => show win0_11.index t (1 : Fin 3) * 1 + 1 * 0 = 0; omega
    | ⟨2, _⟩ => show win0_11.index t (2 : Fin 3) * 128 + 1 * l.val = l.val; omega
  rw [e]
  exact point_lane m c t l

/-- An index of the lane array is in point t's block iff each coordinate is in the block's range on its axis. -/
theorem mem_blk (t : Fin cfg0.N) (i : S8192x1x128.Idx) :
    i ∈ ((cfg0.win 11).blk t).view.set ↔ ∀ a : Fin 3, win0_11.index t a * S1x1x128.size a ≤ (i a).val ∧ (i a).val < win0_11.index t a * S1x1x128.size a + S1x1x128.size a := by
  show i ∈ ((View.whole main_v1).slice (win0_11.rect t)).set ↔ _
  rw [View.set_slice_whole, Rect.mem_set_unit]
  exact Iff.rfl

/-- Row b of the lane array lies in the block of point b: the 8192 blocks fill the array. -/
theorem cover (i : S8192x1x128.Idx) : ∃ t : Fin cfg0.N, (cfg0.win 11).flush t = true ∧ i ∈ ((cfg0.win 11).blk t).view.set := by
  have h0 : (i 0).val < 8192 := (i 0).isLt
  have h1 : (i 1).val < 1 := (i 1).isLt
  have h2 : (i 2).val < 128 := (i 2).isLt
  have hN : cfg0.N = 8192 := N_0
  have hlt : (i 0).val < cfg0.N := by omega
  refine ⟨⟨(i 0).val, hlt⟩, flush0_11 _, ?_⟩
  rw [mem_blk]
  obtain ⟨e0, e1, e2⟩ := out_index ⟨(i 0).val, hlt⟩
  have e0' : win0_11.index ⟨(i 0).val, hlt⟩ (0 : Fin 3) = (i 0).val := e0
  intro a
  match a with
  | ⟨0, _⟩ => show win0_11.index ⟨(i 0).val, hlt⟩ (0 : Fin 3) * 1 ≤ (i 0).val ∧ (i 0).val < win0_11.index ⟨(i 0).val, hlt⟩ (0 : Fin 3) * 1 + 1; omega
  | ⟨1, _⟩ => show win0_11.index ⟨(i 0).val, hlt⟩ (1 : Fin 3) * 1 ≤ (i 1).val ∧ (i 1).val < win0_11.index ⟨(i 0).val, hlt⟩ (1 : Fin 3) * 1 + 1; omega
  | ⟨2, _⟩ => show win0_11.index ⟨(i 0).val, hlt⟩ (2 : Fin 3) * 128 ≤ (i 2).val ∧ (i 2).val < win0_11.index ⟨(i 0).val, hlt⟩ (2 : Fin 3) * 128 + 128; omega

/-- The lane array after the region. -/
theorem final (c : Dev nD) : (dats m 0 c).arrAt 11 cfg0.N = lanes m c :=
  (dats m 0 c).arrAt_eq_of_cover 11 (lanes m c) (fun t _ => flushed_eq m c t) cover

/-- The host's tail: the first ten lanes of each row, the unit axis dropped, is the network's output array. -/
theorem result_eq (c : Dev nD) :
    Pipeline.afterTail₀ cfgs (dats m) 0 (V0 m) [hostOps1] c main_v3
      = netOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v1)
      = lanes m c :=
    (Pipeline.withArrays_arr spec0 launch0.win.arr_inj c _ _ 11).trans (final m c)
  rw [hw]
  funext j
  obtain ⟨b, q, rfl⟩ : ∃ (b : Fin 8192) (q : Fin 10), j = ix2 b q := ⟨j 0, j 1, eq_ix2 j⟩
  show shapeCast S8192x10 (extractStridedSlice S8192x1x10 ![0, 0, 0] (lanes m c) slices_S8192x1x128_S8192x1x10_0_0_0)
    shapeCasts_S8192x1x10_S8192x10 (ix2 b q) = _
  have hq : q.val < 128 := by have := q.isLt; omega
  refine (shapeCast_apply _ _ (ix2 b q) (ix3 b (0 : Fin 1) q) ?_).trans ?_
  · rw [Shape.rowMajor_val_three, Shape.rowMajor_val_two]
    show (b.val * 1 + 0) * 10 + q.val = b.val * 10 + q.val
    omega
  refine (extractStridedSlice_apply _ _ _ (ix3 b (0 : Fin 1) q) (ix3 b (0 : Fin 1) (⟨q.val, hq⟩ : Fin 128)) ?_).trans ?_
  · intro a
    match a with
    | ⟨0, _⟩ => show b.val = 0 + b.val; omega
    | ⟨1, _⟩ => show 0 = 0 + 0; omega
    | ⟨2, _⟩ => show q.val = 0 + q.val; omega
  rfl

/-- The run of the idealized reference program: the result array ends at the network's outputs on the batch, the
    arguments unchanged. -/
theorem reference_run : θ_run defs (onTc (τ := τ) (main (F := Ideal))) ⟨m, fun _ => 0, ρ⟩ fun r => ∀ c : Dev nD,
      r.2.mem ((c : Thread nD τ).loc main_v3) = netOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c =>
    ⟨((h c).2 main_v3 (Pipeline.mem_restRefs_of main_v3 (by decide) (by decide))).trans (result_eq m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c))),
      ((h c).2 main_arg10 (Pipeline.mem_restRefs_of main_arg10 (by decide) (by decide))).trans (W_main_arg10 m (dats m) c)⟩)
    (run_main m ρ)

end Cert.ReferenceIdeal.Whole

end
-- ==== Proof.lean ====
/-
  The certificate that the batched, fused LeNet-5 kernel and the one-image-per-step reference compute the same
  8192×10 array over the extended reals.

  Both programs are the same network: a banded 5-tap convolution (a sum over taps and input columns), bias,
  rectifier, a 2×2 max-pool (column halves, then row pairs), a second such convolution and pool, and three dense
  layers. The reference runs it one 32×32 image at a time, adding five products per convolution and pooling rows by
  products with 0/1 selection matrices; the kernel stacks 512 images along the rows, joins five row-shifted copies
  side by side so that each convolution is one product, pools rows by merging row pairs into lanes, and merges the
  eight rows per image of the second pool into one long row that meets a dense matrix padded with zero rows. At rows
  that belong to one image the two arrangements read the same entries; the rows where the shifted copies run into
  the next image or into the zero padding are never read by a kept result, or meet zero weights only. Over the
  extended reals sums may be re-associated freely and 0 * x = 0, 1 * x = x hold for every x, so no entry needs to be
  finite and the precondition is not used.

  The three frames are the generated ones; the idealization rewrote nothing, so that conjunct is trivial.
-/
import proofs.«134189_g2000305662181196_pallasbulk_93_21_alg».proof.Defs
import proofs.«134189_g2000305662181196_pallasbulk_93_21_alg».proof.Proof.Gen.Kernel
import proofs.«134189_g2000305662181196_pallasbulk_93_21_alg».proof.Proof.Gen.Kernel.Skeleton
import proofs.«134189_g2000305662181196_pallasbulk_93_21_alg».proof.Proof.Gen.Kernel.Launch
import proofs.«134189_g2000305662181196_pallasbulk_93_21_alg».proof.Proof.Gen.Kernel.Points
import proofs.«134189_g2000305662181196_pallasbulk_93_21_alg».proof.Proof.Gen.Kernel.Frame
import proofs.«134189_g2000305662181196_pallasbulk_93_21_alg».proof.Proof.Gen.KernelIdeal
import proofs.«134189_g2000305662181196_pallasbulk_93_21_alg».proof.Proof.Gen.KernelIdeal.Skeleton
import proofs.«134189_g2000305662181196_pallasbulk_93_21_alg».proof.Proof.Gen.KernelIdeal.Launch
import proofs.«134189_g2000305662181196_pallasbulk_93_21_alg».proof.Proof.Gen.KernelIdeal.Points
import proofs.«134189_g2000305662181196_pallasbulk_93_21_alg».proof.Proof.Gen.KernelIdeal.Frame
import proofs.«134189_g2000305662181196_pallasbulk_93_21_alg».proof.Proof.Gen.ReferenceIdeal
import proofs.«134189_g2000305662181196_pallasbulk_93_21_alg».proof.Proof.Gen.ReferenceIdeal.Skeleton
import proofs.«134189_g2000305662181196_pallasbulk_93_21_alg».proof.Proof.Gen.ReferenceIdeal.Launch
import proofs.«134189_g2000305662181196_pallasbulk_93_21_alg».proof.Proof.Gen.ReferenceIdeal.Points
import proofs.«134189_g2000305662181196_pallasbulk_93_21_alg».proof.Proof.Gen.ReferenceIdeal.Frame
import proofs.«134189_g2000305662181196_pallasbulk_93_21_alg».proof.Proof.Gen.Pre_finite_inputs
import proofs.«134189_g2000305662181196_pallasbulk_93_21_alg».proof.Proof.KArray
import proofs.«134189_g2000305662181196_pallasbulk_93_21_alg».proof.Proof.RArray
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Gen.frame m ρ

/-- Both runs end with the network's outputs on the batch; the two programs' arguments agree, so the two result
    arrays are one array. -/
theorem algebraic : Cert.algebraic_KernelIdeal_ReferenceIdeal := by
  intro m ρ m' ρ' _ hagree
  refine ⟨fun c => Cert.LeNet.netOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Whole.kernel_run m ρ, ?_⟩
  refine (θ_run Cert.ReferenceIdeal.defs _ _).mono (fun r h c => ?_) (Cert.ReferenceIdeal.Whole.reference_run m' ρ')
  obtain ⟨h0, hrest⟩ := h c
  refine ⟨?_, hrest⟩
  obtain ⟨e0, e1, e2, e3, e4, e5, e6, e7, e8, e9, e10⟩ := hagree c
  rw [h0, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
